-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x2048x2048 : Shape := ⟨3, ![1, 2048, 2048]⟩
abbrev S128000x2048 : Shape := ⟨2, ![128000, 2048]⟩
abbrev S128000 : Shape := ⟨1, ![128000]⟩
abbrev S1x2048 : Shape := ⟨2, ![1, 2048]⟩
abbrev S_ : Shape := ⟨0, ![]⟩
abbrev S1x2047 : Shape := ⟨2, ![1, 2047]⟩

class Facts : Prop where
  bcast_S_S1 : S_.BroadcastsInDim S1 (![] : Fin 0 → Fin S1.rank)
  reducesTo_S1_S_d0 : S1.ReducesTo [0] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S128000x2048 : S_.BroadcastsInDim S128000x2048 (![] : Fin 0 → Fin S128000x2048.rank)
  reducesTo_S128000x2048_S_d0_1 : S128000x2048.ReducesTo [0, 1] S_
  bcast_S_S128000 : S_.BroadcastsInDim S128000 (![] : Fin 0 → Fin S128000.rank)
  reducesTo_S128000_S_d0 : S128000.ReducesTo [0] S_
  slices_S1x2048_S1x2047_0_1 : S1x2048.Slices ![0, 1] S1x2047
  bcast_S_S1x2047 : S_.BroadcastsInDim S1x2047 (![] : Fin 0 → Fin S1x2047.rank)
  reducesTo_S1x2047_S_d0_1 : S1x2047.ReducesTo [0, 1] S_

variable [Facts]

def fn_part1 {F : FTy → Type} [FloatOps F] (main_arg4 : IVec S1x2048 32) (main_v13 : IVec S_ 1) (main_v16 : IVec S128000 1) : IVec S_ 1 :=
  let main_c_5 : IVec S_ 1 := constantI S_ 1 1#1
  let main_v17 : IVec S_ 1 := (fun x v => Host.reduce IntOp.andi x v reducesTo_S128000_S_d0 h_S_) main_v16 main_c_5
  let main_v18 : IVec S_ 1 := andi main_v13 main_v17
  let main_v19 : IVec S1x2047 32 := (extractStridedSlice S1x2047 ![0, 1] · slices_S1x2048_S1x2047_0_1) main_arg4
  let main_c_6 : IVec S_ 32 := constantI S_ 32 4294839296#32
  let main_v20 : IVec S1x2047 32 := broadcastInDim S1x2047 ![] bcast_S_S1x2047 main_c_6
  let main_v21 : IVec S1x2047 1 := cmpi .sge main_v19 main_v20
  let main_v22 : IVec S1x2047 32 := (extractStridedSlice S1x2047 ![0, 1] · slices_S1x2048_S1x2047_0_1) main_arg4
  let main_c_7 : IVec S_ 32 := constantI S_ 32 128000#32
  let main_v23 : IVec S1x2047 32 := broadcastInDim S1x2047 ![] bcast_S_S1x2047 main_c_7
  let main_v24 : IVec S1x2047 1 := cmpi .slt main_v22 main_v23
  let main_v25 : IVec S1x2047 1 := andi main_v21 main_v24
  let main_c_8 : IVec S_ 1 := constantI S_ 1 1#1
  let main_v26 : IVec S_ 1 := (fun x v => Host.reduce IntOp.andi x v reducesTo_S1x2047_S_d0_1 h_S_) main_v25 main_c_8
  let main_v27 : IVec S_ 1 := andi main_v18 main_v26
  main_v27

def fn {F : FTy → Type} [FloatOps F] (main_arg0 : FVec F S1 .f32) (main_arg1 : FVec F S1x2048x2048 .f32) (main_arg2 : FVec F S128000x2048 .f32) (main_arg3 : FVec F S128000 .f32) (main_arg4 : IVec S1x2048 32) (main_arg5 : IVec S1x2048 32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1x2048x2048 .f32 := Host.absf main_arg1
  let main_cst_0 : FVec F S_ .f32 := constant S_ .f32 0x7F800000#32
  let main_v5 : FVec F S1x2048x2048 .f32 := broadcastInDim S1x2048x2048 ![] bcast_S_S1x2048x2048 main_cst_0
  let main_v6 : IVec S1x2048x2048 1 := cmpf .olt main_v4 main_v5
  let main_c_1 : IVec S_ 1 := constantI S_ 1 1#1
  let main_v7 : IVec S_ 1 := (fun x v => Host.reduce IntOp.andi x v reducesTo_S1x2048x2048_S_d0_1_2 h_S_) main_v6 main_c_1
  let main_v8 : IVec S_ 1 := andi main_v3 main_v7
  let main_v9 : FVec F S128000x2048 .f32 := Host.absf main_arg2
  let main_cst_2 : FVec F S_ .f32 := constant S_ .f32 0x7F800000#32
  let main_v10 : FVec F S128000x2048 .f32 := broadcastInDim S128000x2048 ![] bcast_S_S128000x2048 main_cst_2
  let main_v11 : IVec S128000x2048 1 := cmpf .olt main_v9 main_v10
  let main_c_3 : IVec S_ 1 := constantI S_ 1 1#1
  let main_v12 : IVec S_ 1 := (fun x v => Host.reduce IntOp.andi x v reducesTo_S128000x2048_S_d0_1 h_S_) main_v11 main_c_3
  let main_v13 : IVec S_ 1 := andi main_v8 main_v12
  let main_v14 : FVec F S128000 .f32 := Host.absf main_arg3
  let main_cst_4 : FVec F S_ .f32 := constant S_ .f32 0x7F800000#32
  let main_v15 : FVec F S128000 .f32 := broadcastInDim S128000 ![] bcast_S_S128000 main_cst_4
  let main_v16 : IVec S128000 1 := cmpf .olt main_v14 main_v15
  fn_part1 (F := F) main_arg4 main_v13 main_v16
-- ==== Kernel.lean ====
abbrev S1 : Shape := ⟨1, ![1]⟩
abbrev S1x2048x2048 : Shape := ⟨3, ![1, 2048, 2048]⟩
abbrev S128000x2048 : Shape := ⟨2, ![128000, 2048]⟩
abbrev S128000 : Shape := ⟨1, ![128000]⟩
abbrev S1x2048 : Shape := ⟨2, ![1, 2048]⟩
abbrev S2048x2048 : Shape := ⟨2, ![2048, 2048]⟩
abbrev S2048 : Shape := ⟨1, ![2048]⟩
abbrev S2047 : Shape := ⟨1, ![2047]⟩
abbrev S_ : Shape := ⟨0, ![]⟩
abbrev S1x128000 : Shape := ⟨2, ![1, 128000]⟩
abbrev S2048x1 : Shape := ⟨2, ![2048, 1]⟩
abbrev S1024x2048 : Shape := ⟨2, ![1024, 2048]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S1x1 : Shape := ⟨2, ![1, 1]⟩

abbrev nBuf : Space → Nat
  | .hbm => 73
  | .vmem => 9
  | .smem => 0
  | _ => 0

abbrev bufTy : (tb : Table) → Fin (tcTables nBuf tb) → BufTy
  | .hbm, ⟨0, _⟩ => ⟨S1, .f32⟩
  | .hbm, ⟨1, _⟩ => ⟨S1x2048x2048, .f32⟩
  | .hbm, ⟨2, _⟩ => ⟨S128000x2048, .f32⟩
  | .hbm, ⟨3, _⟩ => ⟨S128000, .f32⟩
  | .hbm, ⟨4, _⟩ => ⟨S1x2048, .i32⟩
  | .hbm, ⟨5, _⟩ => ⟨S1x2048, .i32⟩
  | .hbm, ⟨6, _⟩ => ⟨S2048x2048, .f32⟩
  | .hbm, ⟨7, _⟩ => ⟨S2048, .i32⟩
  | .hbm, ⟨8, _⟩ => ⟨S2047, .i32⟩
  | .hbm, ⟨9, _⟩ => ⟨S_, .i32⟩
  | .hbm, ⟨10, _⟩ => ⟨S1, .i32⟩
  | .hbm, ⟨11, _⟩ => ⟨S2048, .i32⟩
  | .hbm, ⟨12, _⟩ => ⟨S2048x2048, .bf16⟩
  | .hbm, ⟨13, _⟩ => ⟨S1x128000, .f32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048x1, .f32⟩
  | .hbm, ⟨22, _⟩ => ⟨S2048, .f32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S1, .i32⟩
  | .hbm, ⟨32, _⟩ => ⟨S_, .i32⟩
  | .hbm, ⟨33, _⟩ => ⟨S2048x1, .i32⟩
  | .hbm, ⟨34, _⟩ => ⟨S2048x1, .i1⟩
  | .hbm, ⟨35, _⟩ => ⟨S1x1, .i32⟩
  | .hbm, ⟨36, _⟩ => ⟨S2048x1, .i32⟩
  | .hbm, ⟨37, _⟩ => ⟨S2048x1, .i1⟩
  | .hbm, ⟨38, _⟩ => ⟨S2048x1, .i1⟩
  | .hbm, ⟨39, _⟩ => ⟨S_, .i1⟩
  | .hbm, ⟨40, _⟩ => ⟨S2048, .i1⟩
  | .hbm, ⟨41, _⟩ => ⟨S2048x2048, .f32⟩
  | .hbm, ⟨42, _⟩ => ⟨S2048x2048, .i1⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S2048x1, .i32⟩
  | .hbm, ⟨57, _⟩ => ⟨S2048, .f32⟩
  | .hbm, ⟨58, _⟩ => ⟨S2048, .f32⟩
  | .hbm, ⟨59, _⟩ => ⟨S2048, .f32⟩
  | .hbm, ⟨60, _⟩ => ⟨S_, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S2048, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S1024x2048, .bf16⟩
  | .local _ .vmem, ⟨1, _⟩ => ⟨S1024x2048, .f32⟩
  | .local _ .vmem, ⟨2, _⟩ => ⟨S1024x2048, .f32⟩
  | .local _ .vmem, ⟨3, _⟩ => ⟨S1x1024, .f32⟩
  | .local _ .vmem, ⟨4, _⟩ => ⟨S1x1024, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v12 : Ref sig .tc := ⟨.hbm, 45, rfl⟩
abbrev main_v13 : Ref sig .tc := ⟨.hbm, 46, rfl⟩
abbrev main_cst : Ref sig .tc := ⟨.hbm, 47, rfl⟩
abbrev main_v14 : Ref sig .tc := ⟨.hbm, 48, rfl⟩
abbrev main_c_2 : Ref sig .tc := ⟨.hbm, 49, rfl⟩
abbrev main_v15 : Ref sig .tc := ⟨.hbm, 50, rfl⟩
abbrev main_v16 : Ref sig .tc := ⟨.hbm, 51, rfl⟩
abbrev main_c_3 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_4 : Ref sig .tc := ⟨.hbm, 60, rfl⟩
abbrev main_call2_v0 : Ref sig .tc := ⟨.hbm, 61, rfl⟩
abbrev main_call2_v1 : Ref sig .tc := ⟨.hbm, 62, rfl⟩
abbrev main_v24 : Ref sig .tc := ⟨.hbm, 63, rfl⟩
abbrev main_v25 : Ref sig .tc := ⟨.hbm, 64, rfl⟩
abbrev main_c_5 : Ref sig .tc := ⟨.hbm, 65, rfl⟩
abbrev main_v26 : Ref sig .tc := ⟨.hbm, 66, rfl⟩
abbrev main_c_6 : Ref sig .tc := ⟨.hbm, 67, rfl⟩
abbrev main_v27 : Ref sig .tc := ⟨.hbm, 68, rfl⟩
abbrev main_v28 : Ref sig .tc := ⟨.hbm, 69, rfl⟩
abbrev main_cst_7 : Ref sig .tc := ⟨.hbm, 70, rfl⟩
abbrev main_v29 : Ref sig .tc := ⟨.hbm, 71, rfl⟩
abbrev main_v30 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v33 : BitVec 1 := Scalar.cmpi .eq arg1 c124_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1x2048x2048_S2048x2048 : S1x2048x2048.ShapeCasts S2048x2048
  shapeCasts_S1x2048_S2048 : S1x2048.ShapeCasts S2048
  slices_S2048_S2047_1 : S2048.Slices ![1] S2047
  bcast_S_S1 : S_.BroadcastsInDim S1 (![] : Fin 0 → Fin S1.rank)
  concatenates_S2047_S1_S2048_d0 : Shape.Concatenates [S2047, S1] S2048 0
  bitsLt_bf16_f32 : FTy.bits .bf16 < FTy.bits .f32
  shapeCasts_S128000_S1x128000 : S128000.ShapeCasts S1x128000
  bcast_S_S2048 : S_.BroadcastsInDim S2048 (![] : Fin 0 → Fin S2048.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S2048x1_S2048 : S2048x1.ShapeCasts S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x2048_0 : S2048.BroadcastsInDim S2048x2048 (![0] : Fin 1 → Fin S2048x2048.rank)
  bcast_S_S2048x2048 : S_.BroadcastsInDim S2048x2048 (![] : Fin 0 → Fin S2048x2048.rank)
  reducesTo_S2048x2048_S2048_d1 : S2048x2048.ReducesTo [1] S2048
  natLt_1_32 : 1 < 32
  reducesTo_S2048_S_d0 : S2048.ReducesTo [0] S_
  dot_S1024x2048_S1024x2048_S1024x1024_1_1_0_0_n_n_wf : DotDims.WF S1024x2048 S1024x2048 S1024x1024 [1] [1] [0] [0] [] []
  gather_S128000x2048_S2048x1_S2048x2048_1_0_n_n_0_1_12048_wf : GatherDims.WF S128000x2048 S2048x1 S2048x2048 [1] [0] [] [0] [] 1 ![1, 2048]
  gather_S128000_S2048x1_S2048_n_0_n_n_0_1_1_wf : GatherDims.WF S128000 S2048x1 S2048 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S128000x2048.size a
  hwx0_1 : ∀ i : grid0.Coords, EltTy.bits .f32 = 32 ∨ (Rect.block (s := S128000x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x128000.size a
  hwx0_2 : ∀ i : grid0.Coords, EltTy.bits .f32 = 32 ∨ (Rect.block (s := S1x128000) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def gather_S128000x2048_S2048x1_S2048x2048_1_0_n_n_0_1_12048 : GatherDims S128000x2048 S2048x1 S2048x2048 where
  offsetDims := [1]
  collapsedSliceDims := [0]
  operandBatchingDims := []
  startIndicesBatchingDims := []
  startIndexMap := [0]
  indexVectorDim := 1
  sliceSizes := ![1, 2048]
  wf := gather_S128000x2048_S2048x1_S2048x2048_1_0_n_n_0_1_12048_wf
def gather_S128000_S2048x1_S2048_n_0_n_n_0_1_1 : GatherDims S128000 S2048x1 S2048 where
  offsetDims := []
  collapsedSliceDims := [0]
  operandBatchingDims := []
  startIndicesBatchingDims := []
  startIndexMap := [0]
  indexVectorDim := 1
  sliceSizes := ![1]
  wf := gather_S128000_S2048x1_S2048_n_0_n_n_0_1_1_wf

abbrev win0_0 : Pipeline.Window sig grid0 :=
  Pipeline.Window.ofSpec (Memref.whole main_v5) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1 : Shape := ⟨1, ![1]⟩
abbrev S1x2048x2048 : Shape := ⟨3, ![1, 2048, 2048]⟩
abbrev S128000x2048 : Shape := ⟨2, ![128000, 2048]⟩
abbrev S128000 : Shape := ⟨1, ![128000]⟩
abbrev S1x2048 : Shape := ⟨2, ![1, 2048]⟩
abbrev S1x2047x2048 : Shape := ⟨3, ![1, 2047, 2048]⟩
abbrev S1x2047 : Shape := ⟨2, ![1, 2047]⟩
abbrev S1x2047x128000 : Shape := ⟨3, ![1, 2047, 128000]⟩
abbrev S1x1x128000 : Shape := ⟨3, ![1, 1, 128000]⟩
abbrev S_ : Shape := ⟨0, ![]⟩
abbrev S1x2047x1 : Shape := ⟨3, ![1, 2047, 1]⟩
abbrev S2047x1x1 : Shape := ⟨3, ![2047, 1, 1]⟩
abbrev S1x1x1 : Shape := ⟨3, ![1, 1, 1]⟩
abbrev S2047x1 : Shape := ⟨2, ![2047, 1]⟩

abbrev nBuf : Space → Nat
  | .hbm => 73
  | .vmem => 0
  | .smem => 0
  | _ => 0

abbrev bufTy : (tb : Table) → Fin (tcTables nBuf tb) → BufTy
  | .hbm, ⟨0, _⟩ => ⟨S1, .f32⟩
  | .hbm, ⟨1, _⟩ => ⟨S1x2048x2048, .f32⟩
  | .hbm, ⟨2, _⟩ => ⟨S128000x2048, .f32⟩
  | .hbm, ⟨3, _⟩ => ⟨S128000, .f32⟩
  | .hbm, ⟨4, _⟩ => ⟨S1x2048, .i32⟩
  | .hbm, ⟨5, _⟩ => ⟨S1x2048, .i32⟩
  | .hbm, ⟨6, _⟩ => ⟨S1x2047x2048, .f32⟩
  | .hbm, ⟨7, _⟩ => ⟨S1x2047, .i32⟩
  | .hbm, ⟨8, _⟩ => ⟨S1x2047x128000, .f32⟩
  | .hbm, ⟨9, _⟩ => ⟨S1x1x128000, .f32⟩
  | .hbm, ⟨10, _⟩ => ⟨S1x2047x128000, .f32⟩
  | .hbm, ⟨11, _⟩ => ⟨S1x2047x128000, .f32⟩
  | .hbm, ⟨12, _⟩ => ⟨S_, .f32⟩
  | .hbm, ⟨13, _⟩ => ⟨S1x2047, .f32⟩
  | .hbm, ⟨14, _⟩ => ⟨S_, .f32⟩
  | .hbm, ⟨15, _⟩ => ⟨S1x2047, .f32⟩
  | .hbm, ⟨16, _⟩ => ⟨S1x2047, .f32⟩
  | .hbm, ⟨17, _⟩ => ⟨S1x2047x1, .f32⟩
  | .hbm, ⟨18, _⟩ => ⟨S1x2047x128000, .f32⟩
  | .hbm, ⟨19, _⟩ => ⟨S1x2047x128000, .f32⟩
  | .hbm, ⟨20, _⟩ => ⟨S1x2047x128000, .f32⟩
  | .hbm, ⟨21, _⟩ => ⟨S_, .f32⟩
  | .hbm, ⟨22, _⟩ => ⟨S1x2047, .f32⟩
  | .hbm, ⟨23, _⟩ => ⟨S1x2047x1, .f32⟩
  | .hbm, ⟨24, _⟩ => ⟨S1x2047x1, .f32⟩
  | .hbm, ⟨25, _⟩ => ⟨S1x2047x128000, .f32⟩
  | .hbm, ⟨26, _⟩ => ⟨S1x2047x128000, .f32⟩
  | .hbm, ⟨27, _⟩ => ⟨S_, .i32⟩
  | .hbm, ⟨28, _⟩ => ⟨S1x2047, .i32⟩
  | .hbm, ⟨29, _⟩ => ⟨S1x2047, .i1⟩
  | .hbm, ⟨30, _⟩ => ⟨S_, .i32⟩
  | .hbm, ⟨31, _⟩ => ⟨S_, .i32⟩
  | .hbm, ⟨32, _⟩ => ⟨S1x2047, .i32⟩
  | .hbm, ⟨33, _⟩ => ⟨S1x2047, .i32⟩
  | .hbm, ⟨34, _⟩ => ⟨S1x2047x1, .i32⟩
  | .hbm, ⟨35, _⟩ => ⟨S_, .i32⟩
  | .hbm, ⟨36, _⟩ => ⟨S1x2047x1, .i32⟩
  | .hbm, ⟨37, _⟩ => ⟨S1x2047x1, .i1⟩
  | .hbm, ⟨38, _⟩ => ⟨S_, .i32⟩
  | .hbm, ⟨39, _⟩ => ⟨S1x2047x1, .i32⟩
  | .hbm, ⟨40, _⟩ => ⟨S1x2047x1, .i32⟩
  | .hbm, ⟨41, _⟩ => ⟨S1x2047x1, .i32⟩
  | .hbm, ⟨42, _⟩ => ⟨S2047x1x1, .i32⟩
  | .hbm, ⟨43, _⟩ => ⟨S1, .i32⟩
  | .hbm, ⟨44, _⟩ => ⟨S_, .i32⟩
  | .hbm, ⟨45, _⟩ => ⟨S2047x1x1, .i32⟩
  | .hbm, ⟨46, _⟩ => ⟨S2047x1x1, .i1⟩
  | .hbm, ⟨47, _⟩ => ⟨S1x1x1, .i32⟩
  | .hbm, ⟨48, _⟩ => ⟨S2047x1x1, .i32⟩
  | .hbm, ⟨49, _⟩ => ⟨S2047x1x1, .i1⟩
  | .hbm, ⟨50, _⟩ => ⟨S2047x1x1, .i1⟩
  | .hbm, ⟨51, _⟩ => ⟨S_, .i1⟩
  | .hbm, ⟨52, _⟩ => ⟨S2047x1, .i1⟩
  | .hbm, ⟨53, _⟩ => ⟨S1x2047x1, .f32⟩
  | .hbm, ⟨54, _⟩ => ⟨S1x2047x1, .i1⟩
  | .hbm, ⟨55, _⟩ => ⟨S_, .f32⟩
  | .hbm, ⟨56, _⟩ => ⟨S1x2047x1, .f32⟩
  | .hbm, ⟨57, _⟩ => ⟨S1x2047x1, .f32⟩
  | .hbm, ⟨58, _⟩ => ⟨S1x2047, .f32⟩
  | .hbm, ⟨59, _⟩ => ⟨S1x2047, .f32⟩
  | .hbm, ⟨60, _⟩ => ⟨S_, .f32⟩
  | .hbm, ⟨61, _⟩ => ⟨S_, .f32⟩
  | .hbm, ⟨62, _⟩ => ⟨S1x2047, .f32⟩
  | .hbm, ⟨63, _⟩ => ⟨S1x2047, .f32⟩
  | .hbm, ⟨64, _⟩ => ⟨S1x2047, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_v9 : Ref sig .tc := ⟨.hbm, 33, rfl⟩
abbrev main_v10 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_call2_cst : Ref sig .tc := ⟨.hbm, 55, rfl⟩
abbrev main_call2_v15 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_cst : Ref sig .tc := ⟨.hbm, 60, rfl⟩
abbrev main_call3_v0 : Ref sig .tc := ⟨.hbm, 61, rfl⟩
abbrev main_call3_v1 : Ref sig .tc := ⟨.hbm, 62, rfl⟩
abbrev main_v14 : Ref sig .tc := ⟨.hbm, 63, rfl⟩
abbrev main_v15 : Ref sig .tc := ⟨.hbm, 64, rfl⟩
abbrev main_c_1 : Ref sig .tc := ⟨.hbm, 65, rfl⟩
abbrev main_v16 : Ref sig .tc := ⟨.hbm, 66, rfl⟩
abbrev main_c_2 : Ref sig .tc := ⟨.hbm, 67, rfl⟩
abbrev main_v17 : Ref sig .tc := ⟨.hbm, 68, rfl⟩
abbrev main_v18 : Ref sig .tc := ⟨.hbm, 69, rfl⟩
abbrev main_cst_3 : Ref sig .tc := ⟨.hbm, 70, rfl⟩
abbrev main_v19 : Ref sig .tc := ⟨.hbm, 71, rfl⟩
abbrev main_v20 : Ref sig .tc := ⟨.hbm, 72, rfl⟩

abbrev nD : Nat := 1
abbrev τ : Topo := Topo.v7x

variable {F : FTy → Type} [FloatOps F]

class Facts₀ : Prop where
  slices_S1x2048x2048_S1x2047x2048_0_0_0 : S1x2048x2048.Slices ![0, 0, 0] S1x2047x2048
  slices_S1x2048_S1x2047_0_1 : S1x2048.Slices ![0, 1] S1x2047
  bcast_S128000_S1x1x128000_2 : S128000.BroadcastsInDim S1x1x128000 (![2] : Fin 1 → Fin S1x1x128000.rank)
  bcast_S1x1x128000_S1x2047x128000_0_1_2 : S1x1x128000.BroadcastsInDim S1x2047x128000 (![0, 1, 2] : Fin 3 → Fin S1x2047x128000.rank)
  reducesTo_S1x2047x128000_S1x2047_d2 : S1x2047x128000.ReducesTo [2] S1x2047
  h_S_ : 0 < S_.numel
  bcast_S_S1x2047 : S_.BroadcastsInDim S1x2047 (![] : Fin 0 → Fin S1x2047.rank)
  bcast_S1x2047_S1x2047x1_0_1 : S1x2047.BroadcastsInDim S1x2047x1 (![0, 1] : Fin 2 → Fin S1x2047x1.rank)
  bcast_S1x2047x1_S1x2047x128000_0_1_2 : S1x2047x1.BroadcastsInDim S1x2047x128000 (![0, 1, 2] : Fin 3 → Fin S1x2047x128000.rank)
  bcast_S_S1x2047x1 : S_.BroadcastsInDim S1x2047x1 (![] : Fin 0 → Fin S1x2047x1.rank)
  shapeCasts_S1x2047x1_S2047x1x1 : S1x2047x1.ShapeCasts S2047x1x1
  bcast_S_S2047x1x1 : S_.BroadcastsInDim S2047x1x1 (![] : Fin 0 → Fin S2047x1x1.rank)
  bcast_S1_S1x1x1_2 : S1.BroadcastsInDim S1x1x1 (![2] : Fin 1 → Fin S1x1x1.rank)
  bcast_S1x1x1_S2047x1x1_0_1_2 : S1x1x1.BroadcastsInDim S2047x1x1 (![0, 1, 2] : Fin 3 → Fin S2047x1x1.rank)
  reducesTo_S2047x1x1_S2047x1_d2 : S2047x1x1.ReducesTo [2] S2047x1
  bcast_S2047x1_S1x2047x1_1_2 : S2047x1.BroadcastsInDim S1x2047x1 (![1, 2] : Fin 2 → Fin S1x2047x1.rank)
  shapeCasts_S1x2047x1_S1x2047 : S1x2047x1.ShapeCasts S1x2047
  natLt_1_32 : 1 < 32
  reducesTo_S1x2047_S_d0_1 : S1x2047.ReducesTo [0, 1] S_
  dot_S1x2047x2048_S128000x2048_S1x2047x128000_2_1_01_0_n_n_wf : DotDims.WF S1x2047x2048 S128000x2048 S1x2047x128000 [2] [1] [0, 1] [0] [] []
  gather_S1x2047x128000_S2047x1x1_S1x2047x1_0_2_1_0_2_2_111_wf : GatherDims.WF S1x2047x128000 S2047x1x1 S1x2047x1 [0] [2] [1] [2] [0] 2 ![1, 1, 1]

variable [Facts₀]

def dot_S1x2047x2048_S128000x2048_S1x2047x128000_2_1_01_0_n_n : DotDims S1x2047x2048 S128000x2048 S1x2047x128000 where
  lhsContracting := [2]
  rhsContracting := [1]
  lhsNonContracting := [0, 1]
  rhsNonContracting := [0]
  lhsBatch := []
  rhsBatch := []
  wf := dot_S1x2047x2048_S128000x2048_S1x2047x128000_2_1_01_0_n_n_wf
def gather_S1x2047x128000_S2047x1x1_S1x2047x1_0_2_1_0_2_2_111 : GatherDims S1x2047x128000 S2047x1x1 S1x2047x1 where
  offsetDims := [0]
  collapsedSliceDims := [2]
  operandBatchingDims := [1]
  startIndicesBatchingDims := [0]
  startIndexMap := [2]
  indexVectorDim := 2
  sliceSizes := ![1, 1, 1]
  wf := gather_S1x2047x128000_S2047x1x1_S1x2047x1_0_2_1_0_2_2_111_wf

class Facts : Prop extends Facts₀ where

variable [Facts]
-- ==== Proof.RefRunH.lean ====
/-
  The reference program, run: every execution of its @main terminates with the result buffer at the composition
  of its operations' stages (the `val_` functions of the read module) applied to the argument arrays, and with the
  arguments unchanged.  The 67 host operations are taken in stretches; after each stretch the buffers later
  stretches read hold their stages.
-/
import proofs.«430107_j66005057405073_3_alg».proof.Proof.RefRead
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## The operations

@main's 67 operations in order, a called function's operations standing in its call's place, cut into nine
stretches at points where few buffers are still to be read. -/

/-- Operations 0–5. -/
abbrev ops1 : List (HloOp τ sig (Elt F)) :=
  [ unary main_arg1 main_v0 ((extractStridedSlice S1x2047x2048 ![0, 0, 0] · slices_S1x2048x2048_S1x2047x2048_0_0_0) : (⟨S1x2048x2048, .f32⟩ : BufTy).Contents (Elt F) → (⟨S1x2047x2048, .f32⟩ : BufTy).Contents (Elt F)),
    unary main_arg4 main_v1 ((extractStridedSlice S1x2047 ![0, 1] · slices_S1x2048_S1x2047_0_1) : (⟨S1x2048, .i32⟩ : BufTy).Contents (Elt F) → (⟨S1x2047, .i32⟩ : BufTy).Contents (Elt F)),
    binary main_v0 main_arg2 main_v2 ((fun l r => Host.dotGeneral dot_S1x2047x2048_S128000x2048_S1x2047x128000_2_1_01_0_n_n none l r) : (⟨S1x2047x2048, .f32⟩ : BufTy).Contents (Elt F) → (⟨S128000x2048, .f32⟩ : BufTy).Contents (Elt F) → (⟨S1x2047x128000, .f32⟩ : BufTy).Contents (Elt F)),
    unary main_arg3 main_v3 (broadcastInDim S1x1x128000 ![2] bcast_S128000_S1x1x128000_2 : (⟨S128000, .f32⟩ : BufTy).Contents (Elt F) → (⟨S1x1x128000, .f32⟩ : BufTy).Contents (Elt F)),
    unary main_v3 main_v4 (broadcastInDim S1x2047x128000 ![0, 1, 2] bcast_S1x1x128000_S1x2047x128000_0_1_2 : (⟨S1x1x128000, .f32⟩ : BufTy).Contents (Elt F) → (⟨S1x2047x128000, .f32⟩ : BufTy).Contents (Elt F)),
    binary main_v2 main_v4 main_v5 (addf : (⟨S1x2047x128000, .f32⟩ : BufTy).Contents (Elt F) → (⟨S1x2047x128000, .f32⟩ : BufTy).Contents (Elt F) → (⟨S1x2047x128000, .f32⟩ : BufTy).Contents (Elt F)) ]

/-- Operations 6–13. -/
abbrev ops2 : List (HloOp τ sig (Elt F)) :=
  [ TRef.nullary (TRef.of (T := ⟨S_, .f32⟩) main_call0_cst) (constant S_ .f32 0xFF800000#32),
    TRef.binary (TRef.of (T := ⟨S1x2047x128000, .f32⟩) main_v5) (TRef.of (T := ⟨S_, .f32⟩) main_call0_cst) (TRef.of (T := ⟨S1x2047, .f32⟩) main_call0_v0) (fun x v => Host.reduce FloatOps.maximumf x v reducesTo_S1x2047x128000_S1x2047_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S1x2047, .f32⟩) main_call0_v1) (broadcastInDim S1x2047 ![] bcast_S_S1x2047),
    TRef.binary (TRef.of (T := ⟨S1x2047, .f32⟩) main_call0_v1) (TRef.of (T := ⟨S1x2047, .f32⟩) main_call0_v0) (TRef.of (T := ⟨S1x2047, .f32⟩) main_call0_v2) maximumf,
    TRef.unary (TRef.of (T := ⟨S1x2047, .f32⟩) main_call0_v2) (TRef.of (T := ⟨S1x2047x1, .f32⟩) main_call0_v3) (broadcastInDim S1x2047x1 ![0, 1] bcast_S1x2047_S1x2047x1_0_1),
    TRef.unary (TRef.of (T := ⟨S1x2047x1, .f32⟩) main_call0_v3) (TRef.of (T := ⟨S1x2047x128000, .f32⟩) main_call0_v4) (broadcastInDim S1x2047x128000 ![0, 1, 2] bcast_S1x2047x1_S1x2047x128000_0_1_2),
    TRef.binary (TRef.of (T := ⟨S1x2047x128000, .f32⟩) main_v5) (TRef.of (T := ⟨S1x2047x128000, .f32⟩) main_call0_v4) (TRef.of (T := ⟨S1x2047x128000, .f32⟩) main_call0_v5) subf ]

/-- Operations 14–20. -/
abbrev ops3 : List (HloOp τ sig (Elt F)) :=
  [ TRef.unary (TRef.of (T := ⟨S1x2047x128000, .f32⟩) main_call0_v5) (TRef.of (T := ⟨S1x2047x128000, .f32⟩) main_call0_v6) Host.exp,
    TRef.nullary (TRef.of (T := ⟨S_, .f32⟩) main_call0_cst_1) (constant S_ .f32 0x00000000#32),
    TRef.binary (TRef.of (T := ⟨S1x2047x128000, .f32⟩) main_call0_v6) (TRef.of (T := ⟨S_, .f32⟩) main_call0_cst_1) (TRef.of (T := ⟨S1x2047, .f32⟩) main_call0_v7) (fun x v => Host.reduceAdd x v reducesTo_S1x2047x128000_S1x2047_d2 h_S_),
    TRef.unary (TRef.of (T := ⟨S1x2047, .f32⟩) main_call0_v7) (TRef.of (T := ⟨S1x2047x1, .f32⟩) main_call0_v8) (broadcastInDim S1x2047x1 ![0, 1] bcast_S1x2047_S1x2047x1_0_1),
    TRef.unary (TRef.of (T := ⟨S1x2047x1, .f32⟩) main_call0_v8) (TRef.of (T := ⟨S1x2047x1, .f32⟩) main_call0_v9) Host.log,
    TRef.unary (TRef.of (T := ⟨S1x2047x1, .f32⟩) main_call0_v9) (TRef.of (T := ⟨S1x2047x128000, .f32⟩) main_call0_v10) (broadcastInDim S1x2047x128000 ![0, 1, 2] bcast_S1x2047x1_S1x2047x128000_0_1_2),
    TRef.binary (TRef.of (T := ⟨S1x2047x128000, .f32⟩) main_call0_v5) (TRef.of (T := ⟨S1x2047x128000, .f32⟩) main_call0_v10) (TRef.of (T := ⟨S1x2047x128000, .f32⟩) main_v6) subf ]

/-- Operations 21–28. -/
abbrev ops4 : List (HloOp τ sig (Elt F)) :=
  [ nullary main_c (constantI S_ 32 4294967196#32),
    unary main_c main_v7 (broadcastInDim S1x2047 ![] bcast_S_S1x2047 : (⟨S_, .i32⟩ : BufTy).Contents (Elt F) → (⟨S1x2047, .i32⟩ : BufTy).Contents (Elt F)),
    binary main_v1 main_v7 main_v8 (cmpi .ne : (⟨S1x2047, .i32⟩ : BufTy).Contents (Elt F) → (⟨S1x2047, .i32⟩ : BufTy).Contents (Elt F) → (⟨S1x2047, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S1x2047, .i32⟩) main_call1_v1) (broadcastInDim S1x2047 ![] bcast_S_S1x2047),
    TRef.ternary (TRef.of (T := ⟨S1x2047, .i1⟩) main_v8) (TRef.of (T := ⟨S1x2047, .i32⟩) main_v1) (TRef.of (T := ⟨S1x2047, .i32⟩) main_call1_v1) (TRef.of (T := ⟨S1x2047, .i32⟩) main_v9) select,
    unary main_v9 main_v10 (broadcastInDim S1x2047x1 ![0, 1] bcast_S1x2047_S1x2047x1_0_1 : (⟨S1x2047, .i32⟩ : BufTy).Contents (Elt F) → (⟨S1x2047x1, .i32⟩ : BufTy).Contents (Elt F)) ]

/-- Operations 29–36. -/
abbrev ops5 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S1x2047x1, .i32⟩) main_call2_v0) (broadcastInDim S1x2047x1 ![] bcast_S_S1x2047x1),
    TRef.binary (TRef.of (T := ⟨S1x2047x1, .i32⟩) main_v10) (TRef.of (T := ⟨S1x2047x1, .i32⟩) main_call2_v0) (TRef.of (T := ⟨S1x2047x1, .i1⟩) main_call2_v1) (cmpi .slt),
    TRef.nullary (TRef.of (T := ⟨S_, .i32⟩) main_call2_c_0) (constantI S_ 32 128000#32),
    TRef.unary (TRef.of (T := ⟨S_, .i32⟩) main_call2_c_0) (TRef.of (T := ⟨S1x2047x1, .i32⟩) main_call2_v2) (broadcastInDim S1x2047x1 ![] bcast_S_S1x2047x1),
    TRef.binary (TRef.of (T := ⟨S1x2047x1, .i32⟩) main_v10) (TRef.of (T := ⟨S1x2047x1, .i32⟩) main_call2_v2) (TRef.of (T := ⟨S1x2047x1, .i32⟩) main_call2_v3) addi,
    TRef.ternary (TRef.of (T := ⟨S1x2047x1, .i1⟩) main_call2_v1) (TRef.of (T := ⟨S1x2047x1, .i32⟩) main_call2_v3) (TRef.of (T := ⟨S1x2047x1, .i32⟩) main_v10) (TRef.of (T := ⟨S1x2047x1, .i32⟩) main_call2_v4) select,
    TRef.reshape (TRef.of (T := ⟨S1x2047x1, .i32⟩) main_call2_v4) (TRef.of (T := ⟨S2047x1x1, .i32⟩) main_call2_v5) rfl shapeCasts_S1x2047x1_S2047x1x1 ]

/-- Operations 37–46. -/
abbrev ops6 : List (HloOp τ sig (Elt F)) :=
  [ TRef.nullary (TRef.of (T := ⟨S1, .i32⟩) main_call2_c_1) (constantI S1 32 127999#32),
    TRef.nullary (TRef.of (T := ⟨S_, .i32⟩) main_call2_c_2) (constantI S_ 32 0#32),
    TRef.unary (TRef.of (T := ⟨S_, .i32⟩) main_call2_c_2) (TRef.of (T := ⟨S2047x1x1, .i32⟩) main_call2_v6) (broadcastInDim S2047x1x1 ![] bcast_S_S2047x1x1),
    TRef.binary (TRef.of (T := ⟨S2047x1x1, .i32⟩) main_call2_v5) (TRef.of (T := ⟨S2047x1x1, .i32⟩) main_call2_v6) (TRef.of (T := ⟨S2047x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2047x1x1, .i32⟩) main_call2_v9) (broadcastInDim S2047x1x1 ![0, 1, 2] bcast_S1x1x1_S2047x1x1_0_1_2),
    TRef.binary (TRef.of (T := ⟨S2047x1x1, .i32⟩) main_call2_v5) (TRef.of (T := ⟨S2047x1x1, .i32⟩) main_call2_v9) (TRef.of (T := ⟨S2047x1x1, .i1⟩) main_call2_v10) (cmpi .sle),
    TRef.binary (TRef.of (T := ⟨S2047x1x1, .i1⟩) main_call2_v7) (TRef.of (T := ⟨S2047x1x1, .i1⟩) main_call2_v10) (TRef.of (T := ⟨S2047x1x1, .i1⟩) main_call2_v11) andi,
    TRef.nullary (TRef.of (T := ⟨S_, .i1⟩) main_call2_c_3) (constantI S_ 1 1#1),
    TRef.binary (TRef.of (T := ⟨S2047x1x1, .i1⟩) main_call2_v11) (TRef.of (T := ⟨S_, .i1⟩) main_call2_c_3) (TRef.of (T := ⟨S2047x1, .i1⟩) main_call2_v12) (fun x v => Host.reduce IntOp.andi x v reducesTo_S2047x1x1_S2047x1_d2 h_S_) ]

/-- Operations 47–53. -/
abbrev ops7 : List (HloOp τ sig (Elt F)) :=
  [ TRef.binary (TRef.of (T := ⟨S1x2047x128000, .f32⟩) main_v6) (TRef.of (T := ⟨S2047x1x1, .i32⟩) main_call2_v5) (TRef.of (T := ⟨S1x2047x1, .f32⟩) main_call2_v13) (fun x i => Host.gather gather_S1x2047x128000_S2047x1x1_S1x2047x1_0_2_1_0_2_2_111 x i),
    TRef.unary (TRef.of (T := ⟨S2047x1, .i1⟩) main_call2_v12) (TRef.of (T := ⟨S1x2047x1, .i1⟩) main_call2_v14) (broadcastInDim S1x2047x1 ![1, 2] bcast_S2047x1_S1x2047x1_1_2),
    TRef.nullary (TRef.of (T := ⟨S_, .f32⟩) main_call2_cst) (constant S_ .f32 0x7FC00000#32),
    TRef.unary (TRef.of (T := ⟨S_, .f32⟩) main_call2_cst) (TRef.of (T := ⟨S1x2047x1, .f32⟩) main_call2_v15) (broadcastInDim S1x2047x1 ![] bcast_S_S1x2047x1),
    TRef.ternary (TRef.of (T := ⟨S1x2047x1, .i1⟩) main_call2_v14) (TRef.of (T := ⟨S1x2047x1, .f32⟩) main_call2_v13) (TRef.of (T := ⟨S1x2047x1, .f32⟩) main_call2_v15) (TRef.of (T := ⟨S1x2047x1, .f32⟩) main_v11) select,
    reshape main_v11 main_v12 rfl shapeCasts_S1x2047x1_S1x2047,
    unary main_v12 main_v13 (Host.negf : (⟨S1x2047, .f32⟩ : BufTy).Contents (Elt F) → (⟨S1x2047, .f32⟩ : BufTy).Contents (Elt F)) ]

/-- Operations 54–60. -/
abbrev ops8 : List (HloOp τ sig (Elt F)) :=
  [ nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S1x2047, .f32⟩) main_call3_v1) (broadcastInDim S1x2047 ![] bcast_S_S1x2047),
    TRef.ternary (TRef.of (T := ⟨S1x2047, .i1⟩) main_v8) (TRef.of (T := ⟨S1x2047, .f32⟩) main_v13) (TRef.of (T := ⟨S1x2047, .f32⟩) main_call3_v1) (TRef.of (T := ⟨S1x2047, .f32⟩) main_v14) select,
    unary main_v8 main_v15 ((extui 32 · natLt_1_32) : (⟨S1x2047, .i1⟩ : BufTy).Contents (Elt F) → (⟨S1x2047, .i32⟩ : BufTy).Contents (Elt F)),
    nullary main_c_1 (constantI S_ 32 0#32),
    binary main_v15 main_c_1 main_v16 ((fun x v => Host.reduce IntOp.addi x v reducesTo_S1x2047_S_d0_1 h_S_) : (⟨S1x2047, .i32⟩ : BufTy).Contents (Elt F) → (⟨S_, .i32⟩ : BufTy).Contents (Elt F) → (⟨S_, .i32⟩ : BufTy).Contents (Elt F)) ]

/-- Operations 61–66. -/
abbrev ops9 : List (HloOp τ sig (Elt F)) :=
  [ nullary main_c_2 (constantI S_ 32 1#32),
    binary main_v16 main_c_2 main_v17 (maxsi : (⟨S_, .i32⟩ : BufTy).Contents (Elt F) → (⟨S_, .i32⟩ : BufTy).Contents (Elt F) → (⟨S_, .i32⟩ : BufTy).Contents (Elt F)),
    unary main_v17 main_v18 (sitofp .f32 : (⟨S_, .i32⟩ : BufTy).Contents (Elt F) → (⟨S_, .f32⟩ : BufTy).Contents (Elt F)),
    nullary main_cst_3 (constant S_ .f32 0x00000000#32),
    binary main_v14 main_cst_3 main_v19 ((fun x v => Host.reduceAdd x v reducesTo_S1x2047_S_d0_1 h_S_) : (⟨S1x2047, .f32⟩ : BufTy).Contents (Elt F) → (⟨S_, .f32⟩ : BufTy).Contents (Elt F) → (⟨S_, .f32⟩ : BufTy).Contents (Elt F)),
    binary main_v19 main_v18 main_v20 (Host.divf : (⟨S_, .f32⟩ : BufTy).Contents (Elt F) → (⟨S_, .f32⟩ : BufTy).Contents (Elt F) → (⟨S_, .f32⟩ : BufTy).Contents (Elt F)) ]

/-- The whole line: the stretches one after the other. -/
abbrev ops : List (HloOp τ sig (Elt F)) :=
  ops1 ++ ops2 ++ ops3 ++ ops4 ++ ops5 ++ ops6 ++ ops7 ++ ops8 ++ ops9

-- sixty-seven binds re-associated, the callees' bodies opened at their calls: both sides are one chain of steps
set_option maxRecDepth 8192 in
set_option maxHeartbeats 4000000 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Facts about every operation of the line, stretch by stretch -/

/-- A property of every operation of each stretch is a property of every operation of the line. -/
private theorem forall_ops {P : HloOp τ sig (Elt F) → Prop}
    (h1 : (ops1 (F := F)).Forall P) (h2 : (ops2 (F := F)).Forall P) (h3 : (ops3 (F := F)).Forall P) (h4 : (ops4 (F := F)).Forall P) (h5 : (ops5 (F := F)).Forall P) (h6 : (ops6 (F := F)).Forall P) (h7 : (ops7 (F := F)).Forall P) (h8 : (ops8 (F := F)).Forall P) (h9 : (ops9 (F := F)).Forall P) :
    (ops (F := F)).Forall P := by
  rw [List.forall_iff_forall_mem]
  intro op hop
  have hop' : op ∈ ops1 ++ ops2 ++ ops3 ++ ops4 ++ ops5 ++ ops6 ++ ops7 ++ ops8 ++ ops9 := hop
  simp only [List.mem_append] at hop'
  rcases hop' with ((((((((h) | h) | h) | h) | h) | h) | h) | h) | h
  · exact List.forall_iff_forall_mem.mp h1 op h
  · exact List.forall_iff_forall_mem.mp h2 op h
  · exact List.forall_iff_forall_mem.mp h3 op h
  · exact List.forall_iff_forall_mem.mp h4 op h
  · exact List.forall_iff_forall_mem.mp h5 op h
  · exact List.forall_iff_forall_mem.mp h6 op h
  · exact List.forall_iff_forall_mem.mp h7 op h
  · exact List.forall_iff_forall_mem.mp h8 op h
  · exact List.forall_iff_forall_mem.mp h9 op h

/-- An operation that writes one buffer, of index at least six, writes no buffer of smaller index. -/
private theorem writes_ge {op : HloOp τ sig (Elt F)} {y : Ref sig .tc} (h : op.writes = {Proc.devRef .tc y})
    (hy : 6 ≤ y.idx.val) : ∀ b ∈ op.writes, 6 ≤ b.idx.val := by
  intro b hb
  rw [h, Finset.mem_singleton] at hb
  subst hb
  exact hy

private theorem ops1_sub : (ops1 : List (HloOp τ sig (Elt F))).Forall fun op => op.bufs ⊆ tcRefs τ sig :=
  ⟨unary_bufs_sub .., unary_bufs_sub .., binary_bufs_sub .., unary_bufs_sub .., unary_bufs_sub ..,
    binary_bufs_sub ..⟩
private theorem ops2_sub : (ops2 : List (HloOp τ sig (Elt F))).Forall fun op => op.bufs ⊆ tcRefs τ sig :=
  ⟨nullary_bufs_sub .., binary_bufs_sub .., nullary_bufs_sub .., unary_bufs_sub .., binary_bufs_sub ..,
    unary_bufs_sub .., unary_bufs_sub .., binary_bufs_sub ..⟩
private theorem ops3_sub : (ops3 : List (HloOp τ sig (Elt F))).Forall fun op => op.bufs ⊆ tcRefs τ sig :=
  ⟨unary_bufs_sub .., nullary_bufs_sub .., binary_bufs_sub .., unary_bufs_sub .., unary_bufs_sub ..,
    unary_bufs_sub .., binary_bufs_sub ..⟩
private theorem ops4_sub : (ops4 : List (HloOp τ sig (Elt F))).Forall fun op => op.bufs ⊆ tcRefs τ sig :=
  ⟨nullary_bufs_sub .., unary_bufs_sub .., binary_bufs_sub .., nullary_bufs_sub .., unary_bufs_sub ..,
    unary_bufs_sub .., ternary_bufs_sub .., unary_bufs_sub ..⟩
private theorem ops5_sub : (ops5 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., reshape_bufs_sub ..⟩
private theorem ops6_sub : (ops6 : List (HloOp τ sig (Elt F))).Forall fun op => op.bufs ⊆ tcRefs τ sig :=
  ⟨nullary_bufs_sub .., nullary_bufs_sub .., unary_bufs_sub .., binary_bufs_sub .., unary_bufs_sub ..,
    unary_bufs_sub .., binary_bufs_sub .., binary_bufs_sub .., nullary_bufs_sub .., binary_bufs_sub ..⟩
private theorem ops7_sub : (ops7 : List (HloOp τ sig (Elt F))).Forall fun op => op.bufs ⊆ tcRefs τ sig :=
  ⟨binary_bufs_sub .., unary_bufs_sub .., nullary_bufs_sub .., unary_bufs_sub .., ternary_bufs_sub ..,
    reshape_bufs_sub .., unary_bufs_sub ..⟩
private theorem ops8_sub : (ops8 : List (HloOp τ sig (Elt F))).Forall fun op => op.bufs ⊆ tcRefs τ sig :=
  ⟨nullary_bufs_sub .., unary_bufs_sub .., unary_bufs_sub .., ternary_bufs_sub .., unary_bufs_sub ..,
    nullary_bufs_sub .., binary_bufs_sub ..⟩
private theorem ops9_sub : (ops9 : List (HloOp τ sig (Elt F))).Forall fun op => op.bufs ⊆ tcRefs τ sig :=
  ⟨nullary_bufs_sub .., binary_bufs_sub .., unary_bufs_sub .., nullary_bufs_sub .., binary_bufs_sub ..,
    binary_bufs_sub ..⟩

private theorem ops1_fresh : (ops1 : List (HloOp τ sig (Elt F))).Forall fun op => op.fresh = ∅ :=
  ⟨rfl, rfl, rfl, rfl, rfl, rfl⟩
private theorem ops2_fresh : (ops2 : List (HloOp τ sig (Elt F))).Forall fun op => op.fresh = ∅ :=
  ⟨rfl, rfl, rfl, rfl, rfl, rfl, rfl, rfl⟩
private theorem ops3_fresh : (ops3 : List (HloOp τ sig (Elt F))).Forall fun op => op.fresh = ∅ :=
  ⟨rfl, rfl, rfl, rfl, rfl, rfl, rfl⟩
private theorem ops4_fresh : (ops4 : List (HloOp τ sig (Elt F))).Forall fun op => op.fresh = ∅ :=
  ⟨rfl, rfl, rfl, rfl, rfl, rfl, rfl, rfl⟩
private theorem ops5_fresh : (ops5 : List (HloOp τ sig (Elt F))).Forall fun op => op.fresh = ∅ :=
  ⟨rfl, rfl, rfl, rfl, rfl, rfl, rfl, rfl⟩
private theorem ops6_fresh : (ops6 : List (HloOp τ sig (Elt F))).Forall fun op => op.fresh = ∅ :=
  ⟨rfl, rfl, rfl, rfl, rfl, rfl, rfl, rfl, rfl, rfl⟩
private theorem ops7_fresh : (ops7 : List (HloOp τ sig (Elt F))).Forall fun op => op.fresh = ∅ :=
  ⟨rfl, rfl, rfl, rfl, rfl, rfl, rfl⟩
private theorem ops8_fresh : (ops8 : List (HloOp τ sig (Elt F))).Forall fun op => op.fresh = ∅ :=
  ⟨rfl, rfl, rfl, rfl, rfl, rfl, rfl⟩
private theorem ops9_fresh : (ops9 : List (HloOp τ sig (Elt F))).Forall fun op => op.fresh = ∅ :=
  ⟨rfl, rfl, rfl, rfl, rfl, rfl⟩

private theorem ops1_writes : (ops1 : List (HloOp τ sig (Elt F))).Forall fun op => ∀ b ∈ op.writes, 6 ≤ b.idx.val :=
  ⟨writes_ge (y := main_v0) rfl (by decide), writes_ge (y := main_v1) rfl (by decide),
    writes_ge (y := main_v2) rfl (by decide), writes_ge (y := main_v3) rfl (by decide),
    writes_ge (y := main_v4) rfl (by decide), writes_ge (y := main_v5) rfl (by decide)⟩
private theorem ops2_writes : (ops2 : List (HloOp τ sig (Elt F))).Forall fun op => ∀ b ∈ op.writes, 6 ≤ b.idx.val :=
  ⟨writes_ge (y := main_call0_cst) rfl (by decide), writes_ge (y := main_call0_v0) rfl (by decide),
    writes_ge (y := main_call0_cst_0) rfl (by decide), writes_ge (y := main_call0_v1) rfl (by decide),
    writes_ge (y := main_call0_v2) rfl (by decide), writes_ge (y := main_call0_v3) rfl (by decide),
    writes_ge (y := main_call0_v4) rfl (by decide), writes_ge (y := main_call0_v5) rfl (by decide)⟩
private theorem ops3_writes : (ops3 : List (HloOp τ sig (Elt F))).Forall fun op => ∀ b ∈ op.writes, 6 ≤ b.idx.val :=
  ⟨writes_ge (y := main_call0_v6) rfl (by decide), writes_ge (y := main_call0_cst_1) rfl (by decide),
    writes_ge (y := main_call0_v7) rfl (by decide), writes_ge (y := main_call0_v8) rfl (by decide),
    writes_ge (y := main_call0_v9) rfl (by decide), writes_ge (y := main_call0_v10) rfl (by decide),
    writes_ge (y := main_v6) rfl (by decide)⟩
private theorem ops4_writes : (ops4 : List (HloOp τ sig (Elt F))).Forall fun op => ∀ b ∈ op.writes, 6 ≤ b.idx.val :=
  ⟨writes_ge (y := main_c) rfl (by decide), writes_ge (y := main_v7) rfl (by decide),
    writes_ge (y := main_v8) rfl (by decide), writes_ge (y := main_c_0) rfl (by decide),
    writes_ge (y := main_call1_v0) rfl (by decide), writes_ge (y := main_call1_v1) rfl (by decide),
    writes_ge (y := main_v9) rfl (by decide), writes_ge (y := main_v10) rfl (by decide)⟩
private theorem ops5_writes : (ops5 : List (HloOp τ sig (Elt F))).Forall fun op => ∀ b ∈ op.writes, 6 ≤ b.idx.val :=
  ⟨writes_ge (y := main_call2_c) rfl (by decide), writes_ge (y := main_call2_v0) rfl (by decide),
    writes_ge (y := main_call2_v1) rfl (by decide), writes_ge (y := main_call2_c_0) rfl (by decide),
    writes_ge (y := main_call2_v2) rfl (by decide), writes_ge (y := main_call2_v3) rfl (by decide),
    writes_ge (y := main_call2_v4) rfl (by decide), writes_ge (y := main_call2_v5) rfl (by decide)⟩
private theorem ops6_writes : (ops6 : List (HloOp τ sig (Elt F))).Forall fun op => ∀ b ∈ op.writes, 6 ≤ b.idx.val :=
  ⟨writes_ge (y := main_call2_c_1) rfl (by decide), writes_ge (y := main_call2_c_2) rfl (by decide),
    writes_ge (y := main_call2_v6) rfl (by decide), writes_ge (y := main_call2_v7) rfl (by decide),
    writes_ge (y := main_call2_v8) rfl (by decide), writes_ge (y := main_call2_v9) rfl (by decide),
    writes_ge (y := main_call2_v10) rfl (by decide), writes_ge (y := main_call2_v11) rfl (by decide),
    writes_ge (y := main_call2_c_3) rfl (by decide), writes_ge (y := main_call2_v12) rfl (by decide)⟩
private theorem ops7_writes : (ops7 : List (HloOp τ sig (Elt F))).Forall fun op => ∀ b ∈ op.writes, 6 ≤ b.idx.val :=
  ⟨writes_ge (y := main_call2_v13) rfl (by decide), writes_ge (y := main_call2_v14) rfl (by decide),
    writes_ge (y := main_call2_cst) rfl (by decide), writes_ge (y := main_call2_v15) rfl (by decide),
    writes_ge (y := main_v11) rfl (by decide), writes_ge (y := main_v12) rfl (by decide),
    writes_ge (y := main_v13) rfl (by decide)⟩
private theorem ops8_writes : (ops8 : List (HloOp τ sig (Elt F))).Forall fun op => ∀ b ∈ op.writes, 6 ≤ b.idx.val :=
  ⟨writes_ge (y := main_cst) rfl (by decide), writes_ge (y := main_call3_v0) rfl (by decide),
    writes_ge (y := main_call3_v1) rfl (by decide), writes_ge (y := main_v14) rfl (by decide),
    writes_ge (y := main_v15) rfl (by decide), writes_ge (y := main_c_1) rfl (by decide),
    writes_ge (y := main_v16) rfl (by decide)⟩
private theorem ops9_writes : (ops9 : List (HloOp τ sig (Elt F))).Forall fun op => ∀ b ∈ op.writes, 6 ≤ b.idx.val :=
  ⟨writes_ge (y := main_c_2) rfl (by decide), writes_ge (y := main_v17) rfl (by decide),
    writes_ge (y := main_v18) rfl (by decide), writes_ge (y := main_cst_3) rfl (by decide),
    writes_ge (y := main_v19) rfl (by decide), writes_ge (y := main_v20) rfl (by decide)⟩

/-- Every operation touches buffers of the core only. -/
theorem ops_sub : (ops : List (HloOp τ sig (Elt F))).Forall fun op => op.bufs ⊆ tcRefs τ sig :=
  forall_ops ops1_sub ops2_sub ops3_sub ops4_sub ops5_sub ops6_sub ops7_sub ops8_sub ops9_sub

/-- Every operation determines what it writes. -/
theorem ops_fresh : (ops : List (HloOp τ sig (Elt F))).Forall fun op => op.fresh = ∅ :=
  forall_ops ops1_fresh ops2_fresh ops3_fresh ops4_fresh ops5_fresh ops6_fresh ops7_fresh ops8_fresh ops9_fresh

/-- Every operation writes a buffer of index at least six: none writes an argument (indices 0 to 5). -/
theorem ops_writes : (ops : List (HloOp τ sig (Elt F))).Forall fun op => ∀ b ∈ op.writes, 6 ≤ b.idx.val :=
  forall_ops ops1_writes ops2_writes ops3_writes ops4_writes ops5_writes ops6_writes ops7_writes ops8_writes ops9_writes

/-- So the line leaves every argument as it was. -/
private theorem after_arg (V : Valuation τ sig (Elt F)) (r : Ref sig .tc) (hr : r.idx.val < 6) :
    after ops V (Proc.devRef .tc r) = V (Proc.devRef .tc r) :=
  after_of_forall_not_mem ops V fun op hop hb =>
    absurd (List.forall_iff_forall_mem.mp ops_writes op hop _ hb) (Nat.not_le.mpr hr)

/-! The result of an operation stated over typed references at literal buffers, with the transport along the
    buffer's own type (the identity) already removed: the function applied to the operands' contents. -/
section TypedResults

private theorem tnullary_result (y : Ref sig .tc) (y2 : y.space ≠ .host) (y3 : y.isScoped = false)
    (v : y.ty.Contents (Elt F)) (W : Valuation τ sig (Elt F)) :
    (TRef.nullary (τ := τ) (TRef.of (T := y.ty) y rfl y2 y3) v).result W (Proc.devRef .tc y) = v :=
  nullary_result y _ _ W

private theorem tunary_result (x y : Ref sig .tc) (x2 : x.space ≠ .host) (x3 : x.isScoped = false)
    (y2 : y.space ≠ .host) (y3 : y.isScoped = false)
    (f : x.ty.Contents (Elt F) → y.ty.Contents (Elt F)) (W : Valuation τ sig (Elt F)) :
    (TRef.unary (τ := τ) (TRef.of (T := x.ty) x rfl x2 x3) (TRef.of (T := y.ty) y rfl y2 y3) f).result W (Proc.devRef .tc y)
      = f (W (Proc.devRef .tc x)) :=
  unary_result x y _ _ _ W

private theorem tbinary_result (a b y : Ref sig .tc) (a2 : a.space ≠ .host) (a3 : a.isScoped = false)
    (b2 : b.space ≠ .host) (b3 : b.isScoped = false) (y2 : y.space ≠ .host) (y3 : y.isScoped = false)
    (f : a.ty.Contents (Elt F) → b.ty.Contents (Elt F) → y.ty.Contents (Elt F)) (W : Valuation τ sig (Elt F)) :
    (TRef.binary (τ := τ) (TRef.of (T := a.ty) a rfl a2 a3) (TRef.of (T := b.ty) b rfl b2 b3) (TRef.of (T := y.ty) y rfl y2 y3) f).result W (Proc.devRef .tc y)
      = f (W (Proc.devRef .tc a)) (W (Proc.devRef .tc b)) :=
  binary_result a b y _ _ _ _ W

private theorem tternary_result (c a b y : Ref sig .tc) (c2 : c.space ≠ .host) (c3 : c.isScoped = false)
    (a2 : a.space ≠ .host) (a3 : a.isScoped = false)
    (b2 : b.space ≠ .host) (b3 : b.isScoped = false) (y2 : y.space ≠ .host) (y3 : y.isScoped = false)
    (f : c.ty.Contents (Elt F) → a.ty.Contents (Elt F) → b.ty.Contents (Elt F) → y.ty.Contents (Elt F)) (W : Valuation τ sig (Elt F)) :
    (TRef.ternary (τ := τ) (TRef.of (T := c.ty) c rfl c2 c3) (TRef.of (T := a.ty) a rfl a2 a3) (TRef.of (T := b.ty) b rfl b2 b3) (TRef.of (T := y.ty) y rfl y2 y3) f).result W (Proc.devRef .tc y)
      = f (W (Proc.devRef .tc c)) (W (Proc.devRef .tc a)) (W (Proc.devRef .tc b)) :=
  ternary_result c a b y _ _ _ _ _ W

end TypedResults

/-- The contents of one buffer after a short line of operations: the fold unrolled, then each operation's result at
    its own buffer rewritten to its function's value and at any other buffer to what was there. -/
local macro "stage_results" : tactic =>
  `(tactic| (simp only [after_cons, after_nil]
             repeat (first
               | rw [tnullary_result] | rw [tunary_result] | rw [tbinary_result] | rw [tternary_result]
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The stretches

For each stretch: from contents `W` in which the buffers it reads hold their stages (of argument arrays
`x1 … x4`), the contents after it have every buffer a later stretch reads at its stage.  A buffer the stretch writes:
the results unrolled, the hypotheses rewritten in, both sides are then the same composition once the stretch's own
stage functions are opened (earlier stages stay closed, and so do the folds and the gather, which the comparison
never looks inside).  A buffer it only passes on: no operation of the stretch writes it. -/

attribute [local irreducible] Host.reduce Host.reduceAdd Host.gather in
/-- Operations 0–5. -/
private theorem stretch1 (W : Valuation τ sig (Elt F)) (x1 : (⟨S1x2048x2048, .f32⟩ : BufTy).Contents (Elt F)) (x2 : (⟨S128000x2048, .f32⟩ : BufTy).Contents (Elt F)) (x3 : (⟨S128000, .f32⟩ : BufTy).Contents (Elt F)) (x4 : (⟨S1x2048, .i32⟩ : BufTy).Contents (Elt F))
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4) :
    after ops1 W (Proc.devRef .tc main_v5) = ReadP.val_main_v5 (F := F) x1 x2 x3
    ∧ after ops1 W (Proc.devRef .tc main_v1) = ReadP.val_main_v1 (F := F) x4 := by
  refine ⟨?_, ?_⟩
  · stage_results
    rw [h_main_arg1, h_main_arg2, h_main_arg3]
    rfl
  · stage_results
    rw [h_main_arg4]
    rfl

attribute [local irreducible] Host.reduce Host.reduceAdd Host.gather in
/-- Operations 6–13. -/
private theorem stretch2 (W : Valuation τ sig (Elt F)) (x1 : (⟨S1x2048x2048, .f32⟩ : BufTy).Contents (Elt F)) (x2 : (⟨S128000x2048, .f32⟩ : BufTy).Contents (Elt F)) (x3 : (⟨S128000, .f32⟩ : BufTy).Contents (Elt F)) (x4 : (⟨S1x2048, .i32⟩ : BufTy).Contents (Elt F))
    (h_main_v5 : W (Proc.devRef .tc main_v5) = ReadP.val_main_v5 (F := F) x1 x2 x3)
    (h_main_v1 : W (Proc.devRef .tc main_v1) = ReadP.val_main_v1 (F := F) x4) :
    after ops2 W (Proc.devRef .tc main_call0_v5) = ReadP.val_main_call0_v5 (F := F) x1 x2 x3
    ∧ after ops2 W (Proc.devRef .tc main_v1) = ReadP.val_main_v1 (F := F) x4 := by
  refine ⟨?_, ?_⟩
  · stage_results
    rw [h_main_v5]
    rfl
  · stage_results
    exact h_main_v1

attribute [local irreducible] Host.reduce Host.reduceAdd Host.gather in
/-- Operations 14–20. -/
private theorem stretch3 (W : Valuation τ sig (Elt F)) (x1 : (⟨S1x2048x2048, .f32⟩ : BufTy).Contents (Elt F)) (x2 : (⟨S128000x2048, .f32⟩ : BufTy).Contents (Elt F)) (x3 : (⟨S128000, .f32⟩ : BufTy).Contents (Elt F)) (x4 : (⟨S1x2048, .i32⟩ : BufTy).Contents (Elt F))
    (h_main_call0_v5 : W (Proc.devRef .tc main_call0_v5) = ReadP.val_main_call0_v5 (F := F) x1 x2 x3)
    (h_main_v1 : W (Proc.devRef .tc main_v1) = ReadP.val_main_v1 (F := F) x4) :
    after ops3 W (Proc.devRef .tc main_v1) = ReadP.val_main_v1 (F := F) x4
    ∧ after ops3 W (Proc.devRef .tc main_v6) = ReadP.val_main_v6 (F := F) x1 x2 x3 := by
  refine ⟨?_, ?_⟩
  · stage_results
    exact h_main_v1
  · stage_results
    rw [h_main_call0_v5]
    rfl

attribute [local irreducible] Host.reduce Host.reduceAdd Host.gather in
/-- Operations 21–28. -/
private theorem stretch4 (W : Valuation τ sig (Elt F)) (x1 : (⟨S1x2048x2048, .f32⟩ : BufTy).Contents (Elt F)) (x2 : (⟨S128000x2048, .f32⟩ : BufTy).Contents (Elt F)) (x3 : (⟨S128000, .f32⟩ : BufTy).Contents (Elt F)) (x4 : (⟨S1x2048, .i32⟩ : BufTy).Contents (Elt F))
    (h_main_v1 : W (Proc.devRef .tc main_v1) = ReadP.val_main_v1 (F := F) x4)
    (h_main_v6 : W (Proc.devRef .tc main_v6) = ReadP.val_main_v6 (F := F) x1 x2 x3) :
    after ops4 W (Proc.devRef .tc main_v10) = ReadP.val_main_v10 (F := F) x4
    ∧ after ops4 W (Proc.devRef .tc main_v6) = ReadP.val_main_v6 (F := F) x1 x2 x3
    ∧ after ops4 W (Proc.devRef .tc main_v8) = ReadP.val_main_v8 (F := F) x4 := by
  refine ⟨?_, ?_, ?_⟩
  · stage_results
    rw [h_main_v1]
    rfl
  · stage_results
    exact h_main_v6
  · stage_results
    rw [h_main_v1]
    rfl

attribute [local irreducible] Host.reduce Host.reduceAdd Host.gather in
/-- Operations 29–36. -/
private theorem stretch5 (W : Valuation τ sig (Elt F)) (x1 : (⟨S1x2048x2048, .f32⟩ : BufTy).Contents (Elt F)) (x2 : (⟨S128000x2048, .f32⟩ : BufTy).Contents (Elt F)) (x3 : (⟨S128000, .f32⟩ : BufTy).Contents (Elt F)) (x4 : (⟨S1x2048, .i32⟩ : BufTy).Contents (Elt F))
    (h_main_v10 : W (Proc.devRef .tc main_v10) = ReadP.val_main_v10 (F := F) x4)
    (h_main_v6 : W (Proc.devRef .tc main_v6) = ReadP.val_main_v6 (F := F) x1 x2 x3)
    (h_main_v8 : W (Proc.devRef .tc main_v8) = ReadP.val_main_v8 (F := F) x4) :
    after ops5 W (Proc.devRef .tc main_call2_v5) = ReadP.val_main_call2_v5 (F := F) x4
    ∧ after ops5 W (Proc.devRef .tc main_v6) = ReadP.val_main_v6 (F := F) x1 x2 x3
    ∧ after ops5 W (Proc.devRef .tc main_v8) = ReadP.val_main_v8 (F := F) x4 := by
  refine ⟨?_, ?_, ?_⟩
  · stage_results
    rw [h_main_v10]
    rfl
  · stage_results
    exact h_main_v6
  · stage_results
    exact h_main_v8

attribute [local irreducible] Host.reduce Host.reduceAdd Host.gather in
/-- Operations 37–46. -/
private theorem stretch6 (W : Valuation τ sig (Elt F)) (x1 : (⟨S1x2048x2048, .f32⟩ : BufTy).Contents (Elt F)) (x2 : (⟨S128000x2048, .f32⟩ : BufTy).Contents (Elt F)) (x3 : (⟨S128000, .f32⟩ : BufTy).Contents (Elt F)) (x4 : (⟨S1x2048, .i32⟩ : BufTy).Contents (Elt F))
    (h_main_call2_v5 : W (Proc.devRef .tc main_call2_v5) = ReadP.val_main_call2_v5 (F := F) x4)
    (h_main_v6 : W (Proc.devRef .tc main_v6) = ReadP.val_main_v6 (F := F) x1 x2 x3)
    (h_main_v8 : W (Proc.devRef .tc main_v8) = ReadP.val_main_v8 (F := F) x4) :
    after ops6 W (Proc.devRef .tc main_v6) = ReadP.val_main_v6 (F := F) x1 x2 x3
    ∧ after ops6 W (Proc.devRef .tc main_call2_v5) = ReadP.val_main_call2_v5 (F := F) x4
    ∧ after ops6 W (Proc.devRef .tc main_call2_v12) = ReadP.val_main_call2_v12 (F := F) x4
    ∧ after ops6 W (Proc.devRef .tc main_v8) = ReadP.val_main_v8 (F := F) x4 := by
  refine ⟨?_, ?_, ?_, ?_⟩
  · stage_results
    exact h_main_v6
  · stage_results
    exact h_main_call2_v5
  · stage_results
    rw [h_main_call2_v5]
    rfl
  · stage_results
    exact h_main_v8

attribute [local irreducible] Host.reduce Host.reduceAdd Host.gather in
/-- Operations 47–53. -/
private theorem stretch7 (W : Valuation τ sig (Elt F)) (x1 : (⟨S1x2048x2048, .f32⟩ : BufTy).Contents (Elt F)) (x2 : (⟨S128000x2048, .f32⟩ : BufTy).Contents (Elt F)) (x3 : (⟨S128000, .f32⟩ : BufTy).Contents (Elt F)) (x4 : (⟨S1x2048, .i32⟩ : BufTy).Contents (Elt F))
    (h_main_v6 : W (Proc.devRef .tc main_v6) = ReadP.val_main_v6 (F := F) x1 x2 x3)
    (h_main_call2_v5 : W (Proc.devRef .tc main_call2_v5) = ReadP.val_main_call2_v5 (F := F) x4)
    (h_main_call2_v12 : W (Proc.devRef .tc main_call2_v12) = ReadP.val_main_call2_v12 (F := F) x4)
    (h_main_v8 : W (Proc.devRef .tc main_v8) = ReadP.val_main_v8 (F := F) x4) :
    after ops7 W (Proc.devRef .tc main_v8) = ReadP.val_main_v8 (F := F) x4
    ∧ after ops7 W (Proc.devRef .tc main_v13) = ReadP.val_main_v13 (F := F) x1 x2 x3 x4 := by
  refine ⟨?_, ?_⟩
  · stage_results
    exact h_main_v8
  · stage_results
    rw [h_main_call2_v12, h_main_v6, h_main_call2_v5]
    rfl

attribute [local irreducible] Host.reduce Host.reduceAdd Host.gather in
/-- Operations 54–60. -/
private theorem stretch8 (W : Valuation τ sig (Elt F)) (x1 : (⟨S1x2048x2048, .f32⟩ : BufTy).Contents (Elt F)) (x2 : (⟨S128000x2048, .f32⟩ : BufTy).Contents (Elt F)) (x3 : (⟨S128000, .f32⟩ : BufTy).Contents (Elt F)) (x4 : (⟨S1x2048, .i32⟩ : BufTy).Contents (Elt F))
    (h_main_v8 : W (Proc.devRef .tc main_v8) = ReadP.val_main_v8 (F := F) x4)
    (h_main_v13 : W (Proc.devRef .tc main_v13) = ReadP.val_main_v13 (F := F) x1 x2 x3 x4) :
    after ops8 W (Proc.devRef .tc main_v16) = ReadP.val_main_v16 (F := F) x4
    ∧ after ops8 W (Proc.devRef .tc main_v14) = ReadP.val_main_v14 (F := F) x1 x2 x3 x4 := by
  refine ⟨?_, ?_⟩
  · stage_results
    rw [h_main_v8]
    rfl
  · stage_results
    rw [h_main_v8, h_main_v13]
    rfl

attribute [local irreducible] Host.reduce Host.reduceAdd Host.gather in
/-- Operations 61–66. -/
private theorem stretch9 (W : Valuation τ sig (Elt F)) (x1 : (⟨S1x2048x2048, .f32⟩ : BufTy).Contents (Elt F)) (x2 : (⟨S128000x2048, .f32⟩ : BufTy).Contents (Elt F)) (x3 : (⟨S128000, .f32⟩ : BufTy).Contents (Elt F)) (x4 : (⟨S1x2048, .i32⟩ : BufTy).Contents (Elt F))
    (h_main_v16 : W (Proc.devRef .tc main_v16) = ReadP.val_main_v16 (F := F) x4)
    (h_main_v14 : W (Proc.devRef .tc main_v14) = ReadP.val_main_v14 (F := F) x1 x2 x3 x4) :
    after ops9 W (Proc.devRef .tc main_v20) = ReadP.val_main_v20 (F := F) x1 x2 x3 x4 := by
  stage_results
  rw [h_main_v14, h_main_v16]
  rfl

/-! ## The whole line -/

/-- The result buffer after the whole line holds the last stage of the argument arrays: the stretches chained. -/
private theorem after_v20 (V : Valuation τ sig (Elt F)) :
    after ops V (Proc.devRef .tc main_v20)
      = ReadP.val_main_v20 (F := F) (V (Proc.devRef .tc main_arg1)) (V (Proc.devRef .tc main_arg2))
          (V (Proc.devRef .tc main_arg3)) (V (Proc.devRef .tc main_arg4)) := by
  have e1 := stretch1 V _ _ _ _ rfl rfl rfl rfl
  have e2 := stretch2 _ _ _ _ _ e1.1 e1.2
  have e3 := stretch3 _ _ _ _ _ e2.1 e2.2
  have e4 := stretch4 _ _ _ _ _ e3.1 e3.2
  have e5 := stretch5 _ _ _ _ _ e4.1 e4.2.1 e4.2.2
  have e6 := stretch6 _ _ _ _ _ e5.1 e5.2.1 e5.2.2
  have e7 := stretch7 _ _ _ _ _ e6.1 e6.2.1 e6.2.2.1 e6.2.2.2
  have e8 := stretch8 _ _ _ _ _ e7.1 e7.2
  have e9 := stretch9 _ _ _ _ _ e8.1 e8.2
  have hops : (ops : List (HloOp τ sig (Elt F))) = ops1 ++ ops2 ++ ops3 ++ ops4 ++ ops5 ++ ops6 ++ ops7 ++ ops8 ++ ops9 := rfl
  rw [hops]
  simp only [after_append]
  exact e9

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = Cert.ReferenceIdeal.ReadP.val_main_v20 (F := F) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v20).trans (after_v20 _),
      (h c main_arg0).trans (after_arg _ main_arg0 (by decide)),
      (h c main_arg1).trans (after_arg _ main_arg1 (by decide)),
      (h c main_arg2).trans (after_arg _ main_arg2 (by decide)),
      (h c main_arg3).trans (after_arg _ main_arg3 (by decide)),
      (h c main_arg4).trans (after_arg _ main_arg4 (by decide)),
      (h c main_arg5).trans (after_arg _ main_arg5 (by decide))⟩)
    (run_seq scopedRefs_eq scopedSems_eq defs main (fun _ => ops) main_eq (fun _ => ops_sub) m ρ
      (fun _ => List.forall_iff_forall_mem.mp ops_fresh))

end Cert.ReferenceIdeal.RunH

end
-- ==== Proof.RefImports.lean ====
/-
  The reference's operations one at a time and their read-at-an-index lemmas (the patched copy), brought into scope
  for the modules that read the reference's value.
-/
import proofs.«430107_j66005057405073_3_alg».proof.Proof.RefRead
-- ==== Proof.Spec.lean ====
/-
  The cross-entropy both programs compute, stated once over the argument arrays: embeddings `e` [1, 2048, 2048],
  classifier weights `w` [128000, 2048], bias `b` [128000] (extended reals) and labels `y` [1, 2048] (signed words).

  Row `i` (of 2047) predicts the label at position `i + 1`.  Its logits are `score i v = ∑ d, e i d · w v d + b v`;
  its loss is `log ∑ v, exp (score i v) - score i (label)` when the label is not the ignore index `-100`, and `0`
  when it is.  The result is the sum of the row losses divided by the number of rows that count (at least one).
-/
import Idealize.ShloMosaic.PureOps.Ideal
import Idealize.ShloMosaic.Lib.ValueIdx

noncomputable section

namespace Cert.CE

open Idealize.ShloMosaic Idealize.ShloMosaic.ValueIdx

/-- The shapes of the four arrays the loss depends on, and of the kernel's column of row log-sum-exps. -/
abbrev SE : Shape := ⟨3, ![1, 2048, 2048]⟩
abbrev SW : Shape := ⟨2, ![128000, 2048]⟩
abbrev SB : Shape := ⟨1, ![128000]⟩
abbrev SY : Shape := ⟨2, ![1, 2048]⟩
abbrev SC : Shape := ⟨2, ![2048, 1]⟩
abbrev S0 : Shape := ⟨0, ![]⟩

/-- The ignore index `-100` as a 32-bit word. -/
abbrev ignoreIdx : BitVec 32 := 4294967196#32

/-- Every entry is a real number (neither infinity). -/
def Finite {ι : Type} (x : ι → EReal) : Prop := ∀ i, x i ≠ ⊥ ∧ x i ≠ ⊤

variable (e : SE.Idx → EReal) (w : SW.Idx → EReal) (b : SB.Idx → EReal) (y : SY.Idx → BitVec 32)

/-- The logit of row `i` for class `v`. -/
def score (i : Fin 2048) (v : Fin 128000) : EReal :=
  (∑ d : Fin 2048, e (ix3 (0 : Fin 1) i d) * w (ix2 v d)) + b (ix1 v)

/-- The row's log-sum-exp over all classes, a real number. -/
def lse (i : Fin 2048) : EReal :=
  ((Real.log (∑ v : Fin 128000, Real.exp (score e w b i v).toReal) : ℝ) : EReal)

/-- Row `i`'s label: the entry at position `i + 1`. -/
def label (i : Fin 2047) : BitVec 32 := y (ix2 (0 : Fin 1) ⟨i.val + 1, by omega⟩)

/-- Every label that counts is a valid (possibly negative, numpy-style) index into the 128000 classes. -/
def LabelsOk : Prop := ∀ i : Fin 2047, (-128000 : ℤ) ≤ (label y i).toInt ∧ (label y i).toInt < 128000

/-- A signed class index with a negative one wrapped around, as jnp reads an index. -/
def wrapIdx (L : BitVec 32) : BitVec 32 := if L.toInt < 0 then L + 128000#32 else L

/-- The class row `i` is scored against (class 0 when the label is the ignore index; its loss is then dropped). -/
def cls (i : Fin 2047) : Fin 128000 :=
  ⟨(wrapIdx (if label y i = ignoreIdx then 0#32 else label y i)).toNat % 128000, Nat.mod_lt _ (by norm_num)⟩

/-- Row `i`'s loss. -/
def rowLoss (i : Fin 2047) : EReal :=
  if label y i = ignoreIdx then 0
  else lse e w b ⟨i.val, by omega⟩ - score e w b ⟨i.val, by omega⟩ (cls y i)

/-- The number of rows that count, as the programs hold it: a 32-bit word. -/
def count : BitVec 32 := BitVec.ofNat 32 (Finset.univ.filter fun i : Fin 2047 => label y i ≠ ignoreIdx).card

/-- The mean loss: the result both programs end with. -/
def G : S0.Idx → EReal := fun _ =>
  Ideal.div (∑ i : Fin 2047, rowLoss e w b y i) (FloatOps.sitofp (F := Ideal) .f32 (IntOp.maxsi (count y) 1#32))

end Cert.CE

end
-- ==== Proof.Labels.lean ====
/-
  The word arithmetic both programs do on a label before they index with it: test it against the ignore index,
  replace the ignore index by class 0, wrap a negative index around (jnp's reading), test the range, clamp.
  For a label in `[-128000, 128000)` the wrapped index is in `[0, 128000)`, so the range test passes and the clamp
  is the identity.
-/
import Idealize.ShloMosaic.PureOps
import proofs.«430107_j66005057405073_3_alg».proof.Proof.Spec

noncomputable section

namespace Cert.CE

open Idealize.ShloMosaic

/-- A one-bit word made from a boolean is 1 exactly when the boolean holds. -/
private theorem ofBool_one (b : Bool) : BitVec.ofBool b = 1#1 ↔ b = true := by cases b <;> decide

/-- The signed value of a 32-bit word from its unsigned value: below 2³¹ they agree, from 2³¹ on the signed value
    is 2³² less. -/
private theorem toInt_cond (L : BitVec 32) :
    L.toInt = if L.toNat < 2147483648 then (L.toNat : ℤ) else (L.toNat : ℤ) - 4294967296 := by
  rw [BitVec.toInt_eq_toNat_cond]
  split <;> split <;> omega

/-- The "counts" bit of a label: 1 exactly when it is not the ignore index. -/
theorem cmpi_ne_ignore (L : BitVec 32) : IntOp.cmpi .ne L ignoreIdx = BitVec.ofBool (decide (L ≠ ignoreIdx)) := by
  unfold IntOp.cmpi
  congr 1
  by_cases h : L = ignoreIdx <;> simp [h]

theorem cmpi_ne_ignore_eq_one (L : BitVec 32) : IntOp.cmpi .ne L ignoreIdx = 1#1 ↔ L ≠ ignoreIdx := by
  rw [cmpi_ne_ignore, ofBool_one, decide_eq_true_eq]

/-- The programs' wrap of a negative index is `wrapIdx`. -/
theorem select_wrap (L : BitVec 32) :
    Scalar.select (IntOp.cmpi .slt L 0#32) (IntOp.addi L 128000#32) L = wrapIdx L := by
  -- the signed comparison with 0 is the sign test on the integer value; both sides branch on it alike
  unfold Scalar.select IntOp.cmpi IntOp.addi wrapIdx
  by_cases hneg : L.toInt < 0 <;> simp [BitVec.slt, hneg]

/-- A label in `[-128000, 128000)` wraps into `[0, 128000)`: as an integer, -/
theorem wrap_toInt (L : BitVec 32) (h : (-128000 : ℤ) ≤ L.toInt ∧ L.toInt < 128000) :
    0 ≤ (wrapIdx L).toInt ∧ (wrapIdx L).toInt < 128000 := by
  unfold wrapIdx
  have hL := L.isLt
  split
  · -- a negative label is the word 2³² + L with L in [-128000, 0); adding 128000 wraps past 2³² to L + 128000
    rename_i hneg
    rw [toInt_cond] at h hneg ⊢
    simp only [BitVec.toNat_add, BitVec.toNat_ofNat] at *
    omega
  · omega

/-- as a natural number (so a clamp into `[0, 127999]` leaves it alone), -/
theorem wrap_clamp (L : BitVec 32) (h : (-128000 : ℤ) ≤ L.toInt ∧ L.toInt < 128000) :
    min (wrapIdx L).toInt.toNat (128000 - 1) = (wrapIdx L).toNat ∧ (wrapIdx L).toNat < 128000 := by
  -- a word whose signed value is in [0, 128000) has that same unsigned value
  have hw := wrap_toInt L h
  have hW := (wrapIdx L).isLt
  rw [toInt_cond] at hw ⊢
  omega

/-- and the programs' range test passes. -/
theorem wrap_inRange (L : BitVec 32) (h : (-128000 : ℤ) ≤ L.toInt ∧ L.toInt < 128000) :
    IntOp.andi (IntOp.cmpi .sge (wrapIdx L) 0#32) (IntOp.cmpi .sle (wrapIdx L) 127999#32) = 1#1 := by
  have hw := wrap_toInt L h
  -- both signed comparisons are comparisons of the integer values
  have h1 : IntOp.cmpi .sge (wrapIdx L) 0#32 = 1#1 := by
    unfold IntOp.cmpi
    simp only [BitVec.sle, BitVec.toInt_zero, ofBool_one, decide_eq_true_eq]
    exact hw.1
  have h2 : IntOp.cmpi .sle (wrapIdx L) 127999#32 = 1#1 := by
    unfold IntOp.cmpi
    have hc : (127999#32 : BitVec 32).toInt = 127999 := by decide
    simp only [BitVec.sle, hc, ofBool_one, decide_eq_true_eq]
    omega
  rw [h1, h2]; rfl

/-- Class 0 (what the ignore index is replaced by) is in range too. -/
theorem zero_ok : (-128000 : ℤ) ≤ (0#32 : BitVec 32).toInt ∧ (0#32 : BitVec 32).toInt < 128000 := by
  simp

variable (y : SY.Idx → BitVec 32)

/-- The class of row `i` is the wrapped safe label, as a natural number. -/
theorem cls_val (hy : LabelsOk y) (i : Fin 2047) :
    (cls y i).val = (wrapIdx (if label y i = ignoreIdx then 0#32 else label y i)).toNat := by
  unfold cls
  -- the safe label (0 for the ignore index, the label otherwise) is in [-128000, 128000)
  have hs : (-128000 : ℤ) ≤ (if label y i = ignoreIdx then 0#32 else label y i).toInt ∧
      (if label y i = ignoreIdx then 0#32 else label y i).toInt < 128000 := by
    split
    · exact zero_ok
    · exact hy i
  -- so its wrap is below 128000 and the reduction modulo 128000 is the identity
  exact Nat.mod_eq_of_lt (wrap_clamp _ hs).2

end Cert.CE

end
-- ==== Proof.RLabels.lean ====
/-
  The reference program's label arithmetic, read at a row `i` (of 2047): which rows count, the start index of the
  row's gather (the label, the ignore index replaced by class 0, a negative index wrapped), and the range test,
  which passes when the labels are in range.
-/
import proofs.«430107_j66005057405073_3_alg».proof.Proof.RefImports
import proofs.«430107_j66005057405073_3_alg».proof.Proof.Spec
import proofs.«430107_j66005057405073_3_alg».proof.Proof.Labels
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

variable (x4 : IVec S1x2048 32)

/-- The sliced labels: row `i`'s label is the entry at position `i + 1`. -/
theorem labels_row (i : Fin 2047) : val_main_v1 (F := Ideal) x4 (ix2 (0 : Fin 1) i) = Cert.CE.label x4 i := by
  rw [val_main_v1_apply]
  unfold Cert.CE.label
  congr 1
  funext a
  apply Fin.ext
  match a with
  | ⟨0, _⟩ => rfl
  | ⟨1, _⟩ => show 1 + i.val = i.val + 1; omega

/-- Which rows count. -/
theorem valid_row (i : Fin 2047) :
    val_main_v8 (F := Ideal) x4 (ix2 (0 : Fin 1) i) = BitVec.ofBool (decide (Cert.CE.label x4 i ≠ Cert.CE.ignoreIdx)) := by
  rw [val_main_v8_apply, labels_row, val_main_v7_apply, val_main_c_apply]
  exact Cert.CE.cmpi_ne_ignore _

/-- A select on the "counts" bit of a word keeps the word, or puts class 0 in place of the ignore index. -/
private theorem select_valid (L : BitVec 32) :
    Scalar.select (BitVec.ofBool (decide (L ≠ Cert.CE.ignoreIdx))) L 0#32 = if L = Cert.CE.ignoreIdx then 0#32 else L := by
  unfold Scalar.select
  by_cases h : L = Cert.CE.ignoreIdx <;> simp [h]

/-- The label with the ignore index replaced by class 0, as a column entry. -/
private theorem safe_row (i : Fin 2047) :
    val_main_v10 (F := Ideal) x4 (ix3 (0 : Fin 1) i (0 : Fin 1))
      = if Cert.CE.label x4 i = Cert.CE.ignoreIdx then 0#32 else Cert.CE.label x4 i := by
  have e : idx_main_v10 (ix3 (0 : Fin 1) i (0 : Fin 1)) = ix2 (0 : Fin 1) i :=
    funext fun a => Fin.ext (by match a with | ⟨0, _⟩ => rfl | ⟨1, _⟩ => rfl)
  rw [val_main_v10_apply, e, val_main_v9_apply, valid_row, labels_row, val_main_call1_v1_apply, val_main_call1_v0_apply,
    val_main_c_0_apply]
  exact select_valid _

/-- The wrapped index before the reshape. -/
private theorem wrapped_row (i : Fin 2047) :
    val_main_call2_v4 (F := Ideal) x4 (ix3 (0 : Fin 1) i (0 : Fin 1))
      = Cert.CE.wrapIdx (if Cert.CE.label x4 i = Cert.CE.ignoreIdx then 0#32 else Cert.CE.label x4 i) := by
  rw [val_main_call2_v4_apply, val_main_call2_v1_apply, val_main_call2_v3_apply, val_main_call2_v0_apply, val_main_call2_c_apply,
    val_main_call2_v2_apply, val_main_call2_c_0_apply, safe_row]
  exact Cert.CE.select_wrap _

/-- The start index of row `i`'s gather. -/
theorem start_row (i : Fin 2047) :
    val_main_call2_v5 (F := Ideal) x4 (ix3 i (0 : Fin 1) (0 : Fin 1))
      = Cert.CE.wrapIdx (if Cert.CE.label x4 i = Cert.CE.ignoreIdx then 0#32 else Cert.CE.label x4 i) := by
  have e : idx_main_call2_v5 (ix3 i (0 : Fin 1) (0 : Fin 1)) = ix3 (0 : Fin 1) i (0 : Fin 1) :=
    funext fun a => Fin.ext (by
      match a with
      | ⟨0, _⟩ => rfl
      | ⟨1, _⟩ => show ((i.val * 1 + 0) * 1 + 0) / 1 % 2047 = i.val; omega
      | ⟨2, _⟩ => rfl)
  rw [val_main_call2_v5_apply, e, wrapped_row]

/-- A fold by `and` from 1 over entries that are all 1 is 1. -/
private theorem fold_andi_one {ι : Type} (s : Finset ι) (g : ι → BitVec 1) (h : ∀ k, g k = 1#1) :
    s.fold IntOp.andi 1#1 g = 1#1 := by
  classical
  induction s using Finset.induction_on with
  | empty => rfl
  | insert a s ha ih => rw [Finset.fold_insert ha, ih, h]; rfl

/-- With labels in range the range test passes at every entry of the reshaped column. -/
private theorem inRange_row (h4 : Cert.CE.LabelsOk x4) (j : S2047x1x1.Idx) :
    val_main_call2_v11 (F := Ideal) x4 j = 1#1 := by
  obtain ⟨i, b, c, rfl⟩ : ∃ (i : Fin 2047) (b c : Fin 1), j = ix3 i b c := ⟨j 0, j 1, j 2, eq_ix3 j⟩
  obtain rfl : b = 0 := Subsingleton.elim _ _
  obtain rfl : c = 0 := Subsingleton.elim _ _
  rw [val_main_call2_v11_apply, val_main_call2_v7_apply, val_main_call2_v10_apply, start_row, val_main_call2_v6_apply,
    val_main_call2_c_2_apply, val_main_call2_v9_apply, val_main_call2_v8_apply, val_main_call2_c_1_apply]
  refine Cert.CE.wrap_inRange _ ?_
  split
  · exact Cert.CE.zero_ok
  · exact h4 i

/-- With labels in range the range test passes at every row. -/
theorem mask_row (h4 : Cert.CE.LabelsOk x4) (i : Fin 2047) :
    val_main_call2_v14 (F := Ideal) x4 (ix3 (0 : Fin 1) i (0 : Fin 1)) = 1#1 := by
  rw [val_main_call2_v14_apply]
  unfold val_main_call2_v12
  rw [Host.reduce_eq_fold_single IntOp.andi _ _ reducesTo_S2047x1x1_S2047x1_d2 (by decide) h_S_]
  exact fold_andi_one _ _ (fun k => inRange_row x4 h4 _)

end Cert.ReferenceIdeal.RefValue

end
-- ==== Proof.RCount.lean ====
/-
  The reference program's denominator: the number of rows whose label is not the ignore index, at least one, as a
  float.
-/
import proofs.«430107_j66005057405073_3_alg».proof.Proof.RLabels
import Idealize.ShloMosaic.Lib.IndicatorCount
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-- The "counts" bit of an entry of the sliced labels is 1 exactly when the row's label is not the ignore index. -/
private theorem valid_eq_one_iff (x4 : IVec S1x2048 32) (i : Fin 2047) :
    val_main_v8 (F := Ideal) x4 (ix2 (0 : Fin 1) i) = 1#1 ↔ Cert.CE.label x4 i ≠ Cert.CE.ignoreIdx := by
  rw [valid_row]
  by_cases h : Cert.CE.label x4 i = Cert.CE.ignoreIdx <;> simp [h]

/-- The entries whose bit is 1 are as many as the rows that count: entry `(0, i)` is row `i`. -/
private theorem card_valid (x4 : IVec S1x2048 32) :
    (Finset.univ.filter fun k : S1x2047.Idx => val_main_v8 (F := Ideal) x4 k = 1#1).card
      = (Finset.univ.filter fun i : Fin 2047 => Cert.CE.label x4 i ≠ Cert.CE.ignoreIdx).card := by
  symm
  refine Finset.card_bij (fun i _ => ix2 (0 : Fin 1) i) ?_ ?_ ?_
  · intro i hi
    exact Finset.mem_filter.2 ⟨Finset.mem_univ _, (valid_eq_one_iff x4 i).2 (Finset.mem_filter.1 hi).2⟩
  · intro i _ i' _ e
    exact congrFun e 1
  · intro k hk
    obtain ⟨a, i, rfl⟩ : ∃ (a : Fin 1) (i : Fin 2047), k = ix2 a i := ⟨k 0, k 1, eq_ix2 k⟩
    obtain rfl : a = 0 := Subsingleton.elim _ _
    exact ⟨i, Finset.mem_filter.2 ⟨Finset.mem_univ _, (valid_eq_one_iff x4 i).1 (Finset.mem_filter.1 hk).2⟩, rfl⟩

/-- The sum of the widened bits over all entries is the number of rows that count. -/
private theorem count_eq (x4 : IVec S1x2048 32) (j : S_.Idx) :
    val_main_v16 (F := Ideal) x4 j = Cert.CE.count x4 := by
  unfold val_main_v16
  rw [Host.reduce_eq_fold, Finset.filter_true_of_mem (fun i _ => Subsingleton.elim _ _)]
  show Finset.univ.fold IntOp.addi (0#32) (fun k => (val_main_v8 (F := Ideal) x4 k).setWidth 32) = _
  rw [IndicatorCount.fold_addi_setWidth_eq_card, card_valid]
  rfl

theorem denom_eq (x4 : IVec S1x2048 32) (j : S_.Idx) :
    val_main_v18 (F := Ideal) x4 j = FloatOps.sitofp (F := Ideal) .f32 (IntOp.maxsi (Cert.CE.count x4) 1#32) := by
  rw [val_main_v18_apply, val_main_v17_apply, val_main_c_2_apply, count_eq]

end Cert.ReferenceIdeal.RefValue

end
-- ==== Proof.OnlineMath.lean ====
/-
  The real-number facts behind the two programs' log-sum-exp.

  The kernel sweeps the classes tile by tile keeping a running maximum `a` and a running sum `L` of `exp (s - a)`;
  whatever finite `a` is, `L = exp (-a) · A` where `A` is the plain sum of `exp s` over the classes seen, and so
  `a + log L = log A`: the shift cancels.  The reference shifts by the row maximum `M`; the same cancellation gives
  `-((s y - M) - log ∑ exp (s - M)) = log ∑ exp s - s y`.  All values are real, so the extended-real operations
  are the real ones (coercions pushed through sums, maxima, `exp` and `log`).
-/
import Mathlib.Analysis.SpecialFunctions.Log.Basic
import Mathlib.Analysis.SpecialFunctions.Exp
import Mathlib.Data.EReal.Basic
import Mathlib.Data.EReal.Operations
import Mathlib.Data.Fintype.BigOperators
import Idealize.ShloMosaic.PureOps.Ideal
import proofs.«430107_j66005057405073_3_alg».proof.Proof.Spec

noncomputable section

namespace Cert.CE

open Idealize.ShloMosaic Idealize.ShloMosaic.ValueIdx

/-- The coercion of a finite real sum is the sum of the coercions. -/
theorem coe_sum {ι : Type} (s : Finset ι) (f : ι → ℝ) : ((∑ i ∈ s, f i : ℝ) : EReal) = ∑ i ∈ s, (f i : EReal) := by
  classical
  -- induction on the finset: the empty sum is `0`, and the coercion is additive
  induction s using Finset.induction_on with
  | empty => simp
  | insert a s ha ih => rw [Finset.sum_insert ha, Finset.sum_insert ha, EReal.coe_add, ih]

/-- A sum of reals read in the extended reals is real. -/
theorem sum_coe_eq {ι : Type} (s : Finset ι) (f : ι → EReal) (g : ι → ℝ) (h : ∀ i ∈ s, f i = (g i : EReal)) :
    ∑ i ∈ s, f i = ((∑ i ∈ s, g i : ℝ) : EReal) := by
  rw [coe_sum]
  exact Finset.sum_congr rfl h

/-- The coercion is monotone, so it commutes with the maximum of two reals. -/
private theorem coe_max_real (x y : ℝ) : ((max x y : ℝ) : EReal) = max (x : EReal) (y : EReal) :=
  EReal.coe_strictMono.monotone.map_max

/-- The maximum, from `-∞`, of finitely many reals is `-∞` or a real. -/
private theorem fold_max_bot_or_coe {ι : Type} (s : Finset ι) (f : ι → ℝ) :
    s.fold max (⊥ : EReal) (fun j => ((f j : ℝ) : EReal)) = ⊥
      ∨ ∃ x : ℝ, s.fold max (⊥ : EReal) (fun j => ((f j : ℝ) : EReal)) = (x : EReal) := by
  classical
  induction s using Finset.induction_on with
  | empty => left; rw [Finset.fold_empty]
  | insert a s ha ih =>
    right
    rw [Finset.fold_insert ha]
    rcases ih with h | ⟨x, h⟩
    · rw [h]; exact ⟨f a, max_bot_right _⟩
    · rw [h]; exact ⟨max (f a) x, (coe_max_real _ _).symm⟩

/-- Over a nonempty finset the maximum is a real: split off one element, whose value bounds it from below. -/
private theorem fold_max_coe_of_nonempty {ι : Type} (s : Finset ι) (hs : s.Nonempty) (f : ι → ℝ) :
    ∃ x : ℝ, s.fold max (⊥ : EReal) (fun j => ((f j : ℝ) : EReal)) = (x : EReal) := by
  classical
  obtain ⟨a, ha⟩ := hs
  rw [← Finset.insert_erase ha, Finset.fold_insert (Finset.notMem_erase a s)]
  rcases fold_max_bot_or_coe (s.erase a) f with h | ⟨x, h⟩
  · rw [h]; exact ⟨f a, max_bot_right _⟩
  · rw [h]; exact ⟨max (f a) x, (coe_max_real _ _).symm⟩

/-- The maximum, from `-∞`, of 1024 reals is a real. -/
theorem fold_max_coe (f : Fin 1024 → ℝ) :
    ∃ x : ℝ, (Finset.univ : Finset (Fin 1024)).fold max (⊥ : EReal) (fun j => ((f j : ℝ) : EReal)) = (x : EReal) :=
  fold_max_coe_of_nonempty _ Finset.univ_nonempty f

/-- The maximum, from `-∞`, of the 128000 reals of a row is a real. -/
theorem fold_max_coe_row (f : Fin 128000 → ℝ) :
    ∃ x : ℝ, (Finset.univ : Finset (Fin 128000)).fold max (⊥ : EReal) (fun j => ((f j : ℝ) : EReal)) = (x : EReal) :=
  fold_max_coe_of_nonempty _ Finset.univ_nonempty f

/-- The kernel's initial running maximum, the word `0xFF333332` (about `-2.38e38`), is a real number. -/
theorem neg_big_real : ∃ x : ℝ, Ideal.ofBits .f32 0xFF333332#32 = (x : EReal) := by
  -- sign bit 1, exponent field 254 (not the all-ones 255): a normal number, the coercion of an explicit real
  simp [Ideal.ofBits, Ideal.ieee]
  exact ⟨_, rfl⟩

/-- `exp` and `log` of reals, in the extended reals. -/
theorem exp_sub_coe (x y : ℝ) : Ideal.exp ((x : EReal) - (y : EReal)) = ((Real.exp (x - y) : ℝ) : EReal) := by
  rw [← EReal.coe_sub, Ideal.exp_coe]

theorem log_coe_pos (x : ℝ) (hx : 0 < x) : Ideal.log (x : EReal) = ((Real.log x : ℝ) : EReal) := by
  rw [Ideal.log_coe, if_neg (not_le.mpr hx)]

/-- ONE TILE of the sweep.  With running maximum `a` and running sum `L = exp (-a) · A`, the tile's scores `s` give a
    new real maximum `a'`, and the rescaled sum plus the tile's terms is `exp (-a') · (A + ∑ exp s)`. -/
theorem step_real (a L A : ℝ) (s : Fin 1024 → ℝ) (hL : L = Real.exp (-a) * A) :
    ∃ a' : ℝ, max (a : EReal) ((Finset.univ : Finset (Fin 1024)).fold max (⊥ : EReal) (fun j => ((s j : ℝ) : EReal))) = (a' : EReal)
      ∧ (L : EReal) * Ideal.exp ((a : EReal) - (a' : EReal)) + ∑ j : Fin 1024, Ideal.exp (((s j : ℝ) : EReal) - (a' : EReal))
          = ((Real.exp (-a') * (A + ∑ j : Fin 1024, Real.exp (s j)) : ℝ) : EReal) := by
  obtain ⟨m, hm⟩ := fold_max_coe s
  refine ⟨max a m, ?_, ?_⟩
  · rw [hm]; exact (coe_max_real a m).symm
  · -- every term is real: push the coercions outwards, leaving an identity of reals
    simp only [exp_sub_coe]
    rw [← EReal.coe_mul, ← coe_sum, ← EReal.coe_add]
    refine congrArg Real.toEReal ?_
    -- exp (-a) · exp (a - a') = exp (-a')  and  exp (s j - a') = exp (-a') · exp (s j)
    have h1 : Real.exp (-a) * A * Real.exp (a - max a m) = Real.exp (-max a m) * A := by
      rw [mul_right_comm, ← Real.exp_add]
      congr 2
      ring
    have h2 : ∀ j : Fin 1024, Real.exp (s j - max a m) = Real.exp (-max a m) * Real.exp (s j) := by
      intro j
      rw [← Real.exp_add]
      congr 1
      ring
    simp only [h2]
    rw [hL, h1, ← Finset.mul_sum, mul_add]

/-- THE SHIFT CANCELS: the running maximum plus the logarithm of the running sum is the logarithm of the plain sum. -/
theorem final_real (a A : ℝ) (hA : 0 < A) :
    (a : EReal) + Ideal.log ((Real.exp (-a) * A : ℝ) : EReal) = ((Real.log A : ℝ) : EReal) := by
  rw [log_coe_pos _ (mul_pos (Real.exp_pos _) hA), ← EReal.coe_add]
  refine congrArg Real.toEReal ?_
  -- log (exp (-a) · A) = -a + log A
  rw [Real.log_mul (Real.exp_pos _).ne' hA.ne', Real.log_exp]
  ring

/-- The reference's row: shifting by any real `M` cancels the same way. -/
theorem ref_row_real (s : Fin 128000 → ℝ) (M : ℝ) (y : Fin 128000) :
    -(((s y : EReal) - (M : EReal)) - Ideal.log (0 + ∑ v : Fin 128000, Ideal.exp (((s v : ℝ) : EReal) - (M : EReal))))
      = ((Real.log (∑ v : Fin 128000, Real.exp (s v)) : ℝ) : EReal) - (s y : EReal) := by
  have hS : 0 < ∑ v : Fin 128000, Real.exp (s v) :=
    Finset.sum_pos (fun v _ => Real.exp_pos _) Finset.univ_nonempty
  -- ∑ exp (s v - M) = exp (-M) · ∑ exp (s v)
  have h2 : ∀ v : Fin 128000, Real.exp (s v - M) = Real.exp (-M) * Real.exp (s v) := by
    intro v
    rw [← Real.exp_add]
    congr 1
    ring
  have h3 : ∑ v : Fin 128000, Real.exp (s v - M) = Real.exp (-M) * ∑ v : Fin 128000, Real.exp (s v) := by
    simp only [h2]
    rw [Finset.mul_sum]
  simp only [exp_sub_coe]
  rw [zero_add, ← coe_sum, h3, log_coe_pos _ (mul_pos (Real.exp_pos _) hS),
    Real.log_mul (Real.exp_pos _).ne' hS.ne', Real.log_exp]
  -- all real: -((s y - M) - (-M + log S)) = log S - s y
  rw [← EReal.coe_sub, ← EReal.coe_sub, ← EReal.coe_neg, ← EReal.coe_sub]
  refine congrArg Real.toEReal ?_
  ring

/-- A sum over `m · n` naturals is the sum over `m` blocks of `n`. -/
private theorem sum_range_blocks (g : ℕ → ℝ) (m n : ℕ) :
    ∑ i ∈ Finset.range (m * n), g i = ∑ k ∈ Finset.range m, ∑ j ∈ Finset.range n, g (k * n + j) := by
  induction m with
  | zero => simp
  | succ m ih => rw [Nat.succ_mul, Finset.sum_range_add, ih, Finset.sum_range_succ]

/-- A sum over the 128000 classes is the sum over 125 tiles of 1024 classes. -/
theorem sum_tiles (f : Fin 128000 → ℝ) :
    ∑ v : Fin 128000, f v
      = ∑ k ∈ Finset.range 125, ∑ j : Fin 1024, (fun n : ℕ => if h : n < 128000 then f ⟨n, h⟩ else 0) (k * 1024 + j.val) := by
  -- extend `f` by zero to the naturals, pass to ranges, and cut `128000 = 125 · 1024` into blocks
  have key : ∀ g : ℕ → ℝ, (∀ v : Fin 128000, f v = g v.val) →
      ∑ v : Fin 128000, f v = ∑ k ∈ Finset.range 125, ∑ j : Fin 1024, g (k * 1024 + j.val) := by
    intro g hg
    calc ∑ v : Fin 128000, f v
        = ∑ v : Fin 128000, g v.val := Finset.sum_congr rfl (fun v _ => hg v)
      _ = ∑ n ∈ Finset.range 128000, g n := Fin.sum_univ_eq_sum_range g 128000
      _ = ∑ k ∈ Finset.range 125, ∑ j ∈ Finset.range 1024, g (k * 1024 + j) := sum_range_blocks g 125 1024
      _ = ∑ k ∈ Finset.range 125, ∑ j : Fin 1024, g (k * 1024 + j.val) :=
          Finset.sum_congr rfl (fun k _ => (Fin.sum_univ_eq_sum_range (fun j => g (k * 1024 + j)) 1024).symm)
  refine key (fun n : ℕ => if h : n < 128000 then f ⟨n, h⟩ else 0) (fun v => ?_)
  simp [v.isLt]

/-- A sum of positive terms over the classes is positive. -/
theorem sum_exp_pos (s : Fin 128000 → ℝ) : 0 < ∑ v : Fin 128000, Real.exp (s v) :=
  Finset.sum_pos (fun v _ => Real.exp_pos _) Finset.univ_nonempty

variable (e : SE.Idx → EReal) (w : SW.Idx → EReal) (b : SB.Idx → EReal)

/-- With finite inputs every logit is a real number. -/
theorem score_real (he : Finite e) (hw : Finite w) (hb : Finite b) (i : Fin 2048) (v : Fin 128000) :
    score e w b i v = (((score e w b i v).toReal : ℝ) : EReal) := by
  -- each factor is the coercion of its real part; products and sums of coercions are coercions
  have key : ∃ r : ℝ, score e w b i v = (r : EReal) := by
    refine ⟨(∑ d : Fin 2048, (e (ix3 (0 : Fin 1) i d)).toReal * (w (ix2 v d)).toReal) + (b (ix1 v)).toReal, ?_⟩
    rw [EReal.coe_add, EReal.coe_toReal (hb _).2 (hb _).1]
    unfold score
    congr 1
    exact sum_coe_eq _ _ _ (fun d _ => by
      rw [EReal.coe_mul, EReal.coe_toReal (he _).2 (he _).1, EReal.coe_toReal (hw _).2 (hw _).1])
  obtain ⟨r, hr⟩ := key
  rw [hr, EReal.toReal_coe]

end Cert.CE

end
-- ==== Proof.LibGather.lean ====
/-
  Two readings of a host gather at an index, for the two ways jnp indexes along one axis.

  `take_rows`: jnp's `table[idx]` / `jnp.take(table, idx, axis=0)` over a rank-2 table [N, D] with a column of start
  indices [n, 1]: result (p, q) reads the table at row `idx p` — read signed and clamped into [0, N - 1] — column q.

  `take_along_last`: `jnp.take_along_axis(x, idx, axis=-1)` over x [1, R, N] with one index per row, start indices
  laid out [R, 1, 1] (the row axis a batching axis): result (0, i, 0) reads x at (0, i, idx i clamped into [0, N - 1]).
-/
import Idealize.ShloMosaic.PureOps
import Idealize.ShloMosaic.Lib.ValueIdx
import Idealize.ShloMosaic.Lib.StableHlo.Predicate

namespace Cert.Gather

open Idealize.ShloMosaic Idealize.ShloMosaic.ValueIdx

variable {α : Type}

/-- A row gather: operand axis 0 collapsed and start-indexed, axis 1 the offset axis (whole rows), the index vector on
    axis 1 of the [n, 1] start indices. -/
theorem take_rows {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (⟨min (idx (ix2 p (0 : Fin 1))).toInt.toNat (N - 1), by omega⟩ : Fin N) q) := by
  have hb : ∀ a : Fin 2, a ∉ d.operandBatchingDims := fun a => by rw [hob]; exact List.not_mem_nil
  have hbd : d.batchDims = [0] := by
    show Shape.kept _ d.offsetDims = _
    rw [hoff]; rfl
  unfold Host.gather
  congr 1
  funext a
  apply Fin.ext
  match a with
  | ⟨0, _⟩ =>
    -- the collapsed axis: the clamped start index of row p; no batching, no offset
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0
      = min (idx (ix2 p (0 : Fin 1))).toInt.toNat (N - 1)
    rw [d.batchCoord_eq_zero _ _ (hb 0), d.offCoord_eq_zero _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X ∈ d.batchDims, ((ix2 p q : (⟨2, ![n, D]⟩ : Shape).Idx) X).val = p.val := fun X hX => by
        rw [hbd] at hX
        obtain rfl := List.mem_singleton.mp hX
        rfl
      exact e _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: the result's column q; neither start-indexed nor batching
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    unfold GatherDims.start
    rw [dif_neg hm]
    unfold GatherDims.offCoord
    rw [dif_pos hk]
    simp only [Nat.add_zero, Nat.zero_add]
    have e : ∀ X ∈ d.offsetDims, ((ix2 p q : (⟨2, ![n, D]⟩ : Shape).Idx) X).val = q.val := by
      rw [hoff]; intro X hX
      obtain rfl := List.mem_singleton.mp hX
      rfl
    exact e _ (List.getElem_mem _)

/-- A gather along the last axis, one index per row: operand axis 0 (size 1) the offset axis, axis 1 a batching axis
    paired with axis 0 of the [R, 1, 1] start indices, axis 2 collapsed and start-indexed, the index vector on axis 2. -/
theorem take_along_last {R N w : Nat} (d : GatherDims ⟨3, ![1, R, N]⟩ ⟨3, ![R, 1, 1]⟩ ⟨3, ![1, R, 1]⟩)
    (hoff : d.offsetDims = [0]) (hcoll : d.collapsedSliceDims = [2]) (hob : d.operandBatchingDims = [1])
    (hsb : d.startIndicesBatchingDims = [0]) (hsim : d.startIndexMap = [2]) (hivd : d.indexVectorDim = 2)
    (x : (⟨3, ![1, R, N]⟩ : Shape).Idx → α) (idx : IVec ⟨3, ![R, 1, 1]⟩ w) (i : Fin R) (hN : 0 < N) :
    Host.gather d x idx (ix3 (0 : Fin 1) i (0 : Fin 1))
      = x (ix3 (0 : Fin 1) i (⟨min (idx (ix3 i (0 : Fin 1) (0 : Fin 1))).toInt.toNat (N - 1), by omega⟩ : Fin N)) := by
  have hbd : d.batchDims = [1, 2] := by
    show Shape.kept _ d.offsetDims = _
    rw [hoff]; rfl
  have hsk : d.siKept = [0, 1] := by
    show (List.finRange 3).filter (fun b : Fin 3 => b.val ≠ d.indexVectorDim) = _
    rw [hivd]; rfl
  -- the result's first batch axis is its axis 1: the row
  have row : ∀ (L : List (Fin 3)), L = [1, 2] → ∀ (k : Nat) (hk : k < L.length), k = 0 →
      ((ix3 (0 : Fin 1) i (0 : Fin 1) : (⟨3, ![1, R, 1]⟩ : Shape).Idx) (L[k]'hk)).val = i.val := by
    rintro L rfl k hk rfl; rfl
  unfold Host.gather
  congr 1
  funext a
  apply Fin.ext
  match a with
  | ⟨0, _⟩ =>
    -- the offset axis has one entry
    show (d.operandIdx (ix3 (0 : Fin 1) i (0 : Fin 1)) idx 0).val = 0
    have h : (d.operandIdx (ix3 (0 : Fin 1) i (0 : Fin 1)) idx 0).val < 1 := (d.operandIdx _ idx 0).isLt
    omega
  | ⟨1, _⟩ =>
    -- the batching axis: the result's row
    have hb : (1 : Fin 3) ∈ d.operandBatchingDims := by rw [hob]; exact List.mem_singleton.mpr rfl
    have hk : (1 : Fin 3) ∉ d.sKept := by rw [GatherDims.mem_sKept, hob]; simp
    show d.start (ix3 (0 : Fin 1) i (0 : Fin 1)) idx 1 + d.batchCoord (ix3 (0 : Fin 1) i (0 : Fin 1)) 1
      + d.offCoord (ix3 (0 : Fin 1) i (0 : Fin 1)) 1 = i.val
    rw [d.start_batching _ _ _ hb, d.offCoord_eq_zero _ _ hk]
    simp only [Nat.add_zero, Nat.zero_add]
    unfold GatherDims.batchCoord
    rw [dif_pos hb]
    unfold GatherDims.siCoord
    simp only [Fin.val_cast]
    refine row _ hbd _ _ ?_
    have hel : ∀ X ∈ d.startIndicesBatchingDims, List.idxOf X d.siKept = 0 := by
      rw [hsb, hsk]; intro X hX
      obtain rfl := List.mem_singleton.mp hX
      simp
    exact hel _ (List.getElem_mem _)
  | ⟨2, _⟩ =>
    -- the collapsed axis: the clamped start index of row i; no batching, no offset
    have hb : (2 : Fin 3) ∉ d.operandBatchingDims := by rw [hob]; simp
    have hk : (2 : Fin 3) ∉ d.sKept := by rw [GatherDims.mem_sKept, hcoll]; simp
    have hm : (2 : Fin 3) ∈ d.startIndexMap := by rw [hsim]; exact List.mem_singleton.mpr rfl
    have hsl : d.sliceSizes 2 = 1 := d.slice_collapsed 2 (by rw [hcoll]; exact List.mem_singleton.mpr rfl)
    show d.start (ix3 (0 : Fin 1) i (0 : Fin 1)) idx 2 + d.batchCoord (ix3 (0 : Fin 1) i (0 : Fin 1)) 2
      + d.offCoord (ix3 (0 : Fin 1) i (0 : Fin 1)) 2 = min (idx (ix3 i (0 : Fin 1) (0 : Fin 1))).toInt.toNat (N - 1)
    rw [d.batchCoord_eq_zero _ _ hb, d.offCoord_eq_zero _ _ hk]
    simp only [Nat.add_zero]
    unfold GatherDims.start
    rw [dif_pos hm]
    show min (idx _).toInt.toNat (N - d.sliceSizes 2) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      refine (row _ hbd _ _ ?_).trans rfl
      show List.idxOf (0 : Fin 3) d.siKept = 0
      rw [hsk]; simp
    | ⟨1, _⟩ =>
      apply Fin.ext
      have h1 : ∀ u : Fin ((⟨3, ![R, 1, 1]⟩ : Shape).size 1), u.val = 0 := fun u => by
        have hu : u.val < 1 := u.isLt
        omega
      exact (h1 _).trans (h1 _).symm
    | ⟨2, _⟩ =>
      unfold GatherDims.siIdx
      rw [dif_pos (by rw [hivd])]
      apply Fin.ext
      show List.idxOf (2 : Fin 3) d.startIndexMap = 0
      rw [hsim]; simp

end Cert.Gather
-- ==== Proof.RefValue.lean ====
/-
  The reference's result, read: with finite inputs and labels in range it is the mean cross-entropy `G` of the
  specification.  Row `i`'s log-probabilities are `(score - M) - log ∑ exp (score - M)` with `M` the row maximum;
  minus the entry at the label is `log ∑ exp score - score at the label` (the shift by `M` cancels).
-/
import proofs.«430107_j66005057405073_3_alg».proof.Proof.RefImports
import proofs.«430107_j66005057405073_3_alg».proof.Proof.Spec
import proofs.«430107_j66005057405073_3_alg».proof.Proof.Labels
import proofs.«430107_j66005057405073_3_alg».proof.Proof.RLabels
import proofs.«430107_j66005057405073_3_alg».proof.Proof.RCount
import proofs.«430107_j66005057405073_3_alg».proof.Proof.OnlineMath
import proofs.«430107_j66005057405073_3_alg».proof.Proof.LibGather
import Idealize.ShloMosaic.Lib.Pipeline.Value
import Idealize.ShloMosaic.Lib.ValueIdx
import Idealize.ShloMosaic.Lib.ValueLayout
import Idealize.ShloMosaic.Lib.IdealHost
import Idealize.ShloMosaic.Lib.IndicatorCount
import Idealize.ShloMosaic.Lib.StableHlo.Predicate
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

section Rows

variable (x1 : FVec Ideal S1x2048x2048 .f32) (x2 : FVec Ideal S128000x2048 .f32) (x3 : FVec Ideal S128000 .f32)

/-- The pattern `0xFF800000` is `-∞`. -/
private theorem ofBits_neg_inf : Ideal.ofBits .f32 0xFF800000#32 = ⊥ := by
  simp [Ideal.ofBits, Ideal.ieee]

/-- THE LOGITS.  Row `i`, class `v` of the sum of the product and the broadcast bias is the specification's score:
    the slice keeps rows `0 … 2046`, the product contracts the feature axis, the bias is read at the class. -/
private theorem score_row (i : Fin 2047) (v : Fin 128000) :
    val_main_v5 (F := Ideal) x1 x2 x3 (ix3 (0 : Fin 1) i v) = Cert.CE.score x1 x2 x3 ⟨i.val, by omega⟩ v := by
  rw [val_main_v5_apply, val_main_v2_apply, val_main_v4_apply, val_main_v3_apply, Ideal.addf_def]
  unfold Cert.CE.score
  congr 1
  · refine Finset.sum_congr rfl fun d _ => ?_
    rw [val_main_v0_apply]
    congr 1
    · exact congrArg x1 (funext fun a => Fin.ext (by match a with | ⟨0, _⟩ => rfl | ⟨1, _⟩ => rfl | ⟨2, _⟩ => rfl))
    · exact congrArg x2 (funext fun a => Fin.ext (by match a with | ⟨0, _⟩ => rfl | ⟨1, _⟩ => rfl))
  · exact congrArg x3 (funext fun a => Fin.ext (by match a with | ⟨0, _⟩ => rfl))

/-- A maximum over the class axis, at row `i`, is the fold of `max` from the initial value over the 128000 classes. -/
private theorem rowmax_fold (y : FVec Ideal S1x2047x128000 .f32) (c : FVec Ideal S_ .f32) (i : Fin 2047) :
    Host.reduce FloatOps.maximumf y c reducesTo_S1x2047x128000_S1x2047_d2 h_S_ (ix2 (0 : Fin 1) i)
      = (Finset.univ : Finset (Fin 128000)).fold max (c (Shape.Idx.first h_S_)) (fun v => y (ix3 (0 : Fin 1) i v)) := by
  have h : S1x2047x128000.Reduces [2] S1x2047 := by decide
  rw [Host.reduce_eq_fold_single FloatOps.maximumf y c reducesTo_S1x2047x128000_S1x2047_d2 h h_S_]
  show (Finset.univ : Finset (Fin 128000)).fold max (c (Shape.Idx.first h_S_)) (y ∘ h.lift (ix2 (0 : Fin 1) i)) = _
  congr 1
  funext v
  exact congrArg y (funext fun a => Fin.ext (by match a with | ⟨0, _⟩ => rfl | ⟨1, _⟩ => rfl | ⟨2, _⟩ => rfl))

end Rows

section RowsReal

variable (x1 : FVec Ideal S1x2048x2048 .f32) (x2 : FVec Ideal S128000x2048 .f32) (x3 : FVec Ideal S128000 .f32)

/-- Row `i`'s logits as real numbers. -/
private abbrev sreal (i : Fin 2047) : Fin 128000 → ℝ := fun v => (Cert.CE.score x1 x2 x3 ⟨i.val, by omega⟩ v).toReal

/-- With finite inputs a logit is the coercion of its real value. -/
private theorem score_row_real (h1 : Cert.CE.Finite x1) (h2 : Cert.CE.Finite x2) (h3 : Cert.CE.Finite x3) (i : Fin 2047)
    (v : Fin 128000) : val_main_v5 (F := Ideal) x1 x2 x3 (ix3 (0 : Fin 1) i v) = ((sreal x1 x2 x3 i v : ℝ) : EReal) := by
  rw [score_row]
  exact Cert.CE.score_real x1 x2 x3 h1 h2 h3 _ v

/-- THE ROW MAXIMUM is a real number: the maximum from `-∞` of 128000 reals (and `max -∞ x = x`). -/
private theorem rowmax_real (h1 : Cert.CE.Finite x1) (h2 : Cert.CE.Finite x2) (h3 : Cert.CE.Finite x3) (i : Fin 2047) :
    ∃ M : ℝ, val_main_call0_v2 (F := Ideal) x1 x2 x3 (ix2 (0 : Fin 1) i) = (M : EReal) := by
  obtain ⟨M, hM⟩ := Cert.CE.fold_max_coe_row (sreal x1 x2 x3 i)
  refine ⟨M, ?_⟩
  rw [val_main_call0_v2_apply, val_main_call0_v1_apply, val_main_call0_cst_0_apply, Ideal.maximumf_def, Ideal.ofBits_def,
    ofBits_neg_inf, max_bot_left]
  unfold val_main_call0_v0
  rw [rowmax_fold, val_main_call0_cst_apply, Ideal.ofBits_def, ofBits_neg_inf, ← hM]
  exact congrArg (fun f => Finset.fold max (⊥ : EReal) f (Finset.univ : Finset (Fin 128000)))
    (funext fun v => score_row_real x1 x2 x3 h1 h2 h3 i v)

variable (h1 : Cert.CE.Finite x1) (h2 : Cert.CE.Finite x2) (h3 : Cert.CE.Finite x3) (i : Fin 2047) (M : ℝ)
  (hM : val_main_call0_v2 (F := Ideal) x1 x2 x3 (ix2 (0 : Fin 1) i) = (M : EReal))
include h1 h2 h3 hM

/-- The logits shifted by the row maximum (broadcast back along the class axis). -/
private theorem shifted_row (v : Fin 128000) :
    val_main_call0_v5 (F := Ideal) x1 x2 x3 (ix3 (0 : Fin 1) i v) = ((sreal x1 x2 x3 i v : ℝ) : EReal) - (M : EReal) := by
  rw [val_main_call0_v5_apply, val_main_call0_v4_apply, val_main_call0_v3_apply, Ideal.subf_def,
    score_row_real x1 x2 x3 h1 h2 h3,
    show idx_main_call0_v3 (idx_main_call0_v4 (ix3 (0 : Fin 1) i v)) = ix2 (0 : Fin 1) i from
      funext fun a => Fin.ext (by match a with | ⟨0, _⟩ => rfl | ⟨1, _⟩ => rfl),
    hM]

/-- The row's sum of exponentials of the shifted logits, from the initial value `0`. -/
private theorem sumexp_row :
    val_main_call0_v7 (F := Ideal) x1 x2 x3 (ix2 (0 : Fin 1) i)
      = 0 + ∑ u : Fin 128000, Ideal.exp (((sreal x1 x2 x3 i u : ℝ) : EReal) - (M : EReal)) := by
  rw [val_main_call0_v7_apply, val_main_call0_cst_1_apply, Ideal.ofBits_def, Ideal.ofBits_zero_f32]
  refine congrArg (0 + ·) (Finset.sum_congr rfl fun u _ => ?_)
  rw [show idx_main_call0_v7 (ix2 (0 : Fin 1) i) u = ix3 (0 : Fin 1) i u from
      funext fun a => Fin.ext (by match a with | ⟨0, _⟩ => rfl | ⟨1, _⟩ => rfl | ⟨2, _⟩ => rfl),
    val_main_call0_v6_apply, Ideal.hostUnary_exp_def, shifted_row x1 x2 x3 h1 h2 h3 i M hM]

/-- THE LOG-PROBABILITIES: the shifted logit minus the logarithm of the row's sum (broadcast back). -/
private theorem logp_row (v : Fin 128000) :
    val_main_v6 (F := Ideal) x1 x2 x3 (ix3 (0 : Fin 1) i v)
      = (((sreal x1 x2 x3 i v : ℝ) : EReal) - (M : EReal))
          - Ideal.log (0 + ∑ u : Fin 128000, Ideal.exp (((sreal x1 x2 x3 i u : ℝ) : EReal) - (M : EReal))) := by
  rw [val_main_v6_apply, Ideal.subf_def, shifted_row x1 x2 x3 h1 h2 h3 i M hM, val_main_call0_v10_apply,
    val_main_call0_v9_apply, Ideal.hostUnary_log_def, val_main_call0_v8_apply,
    show idx_main_call0_v8 (idx_main_call0_v10 (ix3 (0 : Fin 1) i v)) = ix2 (0 : Fin 1) i from
      funext fun a => Fin.ext (by match a with | ⟨0, _⟩ => rfl | ⟨1, _⟩ => rfl),
    sumexp_row x1 x2 x3 h1 h2 h3 i M hM]

end RowsReal

section Loss

variable (x1 : FVec Ideal S1x2048x2048 .f32) (x2 : FVec Ideal S128000x2048 .f32) (x3 : FVec Ideal S128000 .f32)
  (x4 : IVec S1x2048 32)

/-- THE GATHERED ENTRY.  With labels in range the range mask is set, so the selected value is the gathered one: the
    log-probability of row `i` at the wrapped safe label, which the clamp leaves alone and which is the row's class. -/
private theorem gathered_row (h4 : Cert.CE.LabelsOk x4) (i : Fin 2047) :
    val_main_v11 (F := Ideal) x1 x2 x3 x4 (ix3 (0 : Fin 1) i (0 : Fin 1))
      = val_main_v6 (F := Ideal) x1 x2 x3 (ix3 (0 : Fin 1) i (Cert.CE.cls x4 i)) := by
  -- the safe label (class 0 for the ignore index, the label otherwise) is in [-128000, 128000)
  have hs : (-128000 : ℤ) ≤ (if Cert.CE.label x4 i = Cert.CE.ignoreIdx then 0#32 else Cert.CE.label x4 i).toInt ∧
      (if Cert.CE.label x4 i = Cert.CE.ignoreIdx then 0#32 else Cert.CE.label x4 i).toInt < 128000 := by
    split
    · exact Cert.CE.zero_ok
    · exact h4 i
  rw [val_main_v11_apply, mask_row x4 h4 i, select_one]
  unfold val_main_call2_v13
  rw [Cert.Gather.take_along_last (R := 2047) (N := 128000) gather_S1x2047x128000_S2047x1x1_S1x2047x1_0_2_1_0_2_2_111
    rfl rfl rfl rfl rfl rfl (val_main_v6 (F := Ideal) x1 x2 x3) (val_main_call2_v5 (F := Ideal) x4) i (by norm_num)]
  refine congrArg (fun k : Fin 128000 => val_main_v6 (F := Ideal) x1 x2 x3 (ix3 (0 : Fin 1) i k)) (Fin.ext ?_)
  show min (val_main_call2_v5 (F := Ideal) x4 (ix3 i (0 : Fin 1) (0 : Fin 1))).toInt.toNat (128000 - 1) = (Cert.CE.cls x4 i).val
  rw [start_row, Cert.CE.cls_val x4 h4 i]
  exact (Cert.CE.wrap_clamp _ hs).1

/-- ROW `i`'S LOSS.  A row whose label is the ignore index contributes the constant `0`; any other row contributes
    minus the gathered log-probability, which is `log ∑ exp score - score at the class` (the shift by the row maximum
    cancels). -/
private theorem rowloss_row (h1 : Cert.CE.Finite x1) (h2 : Cert.CE.Finite x2) (h3 : Cert.CE.Finite x3)
    (h4 : Cert.CE.LabelsOk x4) (i : Fin 2047) :
    val_main_v14 (F := Ideal) x1 x2 x3 x4 (ix2 (0 : Fin 1) i) = Cert.CE.rowLoss x1 x2 x3 x4 i := by
  rw [val_main_v14_apply, valid_row]
  unfold Cert.CE.rowLoss
  by_cases hl : Cert.CE.label x4 i = Cert.CE.ignoreIdx
  · rw [if_pos hl, show decide (Cert.CE.label x4 i ≠ Cert.CE.ignoreIdx) = false from decide_eq_false (not_not.mpr hl),
      show BitVec.ofBool false = 0#1 from rfl, select_zero, val_main_call3_v1_apply, val_main_call3_v0_apply, val_main_cst_apply,
      Ideal.ofBits_def, Ideal.ofBits_zero_f32]
  · obtain ⟨M, hM⟩ := rowmax_real x1 x2 x3 h1 h2 h3 i
    rw [if_neg hl, show decide (Cert.CE.label x4 i ≠ Cert.CE.ignoreIdx) = true from decide_eq_true hl,
      show BitVec.ofBool true = 1#1 from rfl, select_one, val_main_v13_apply, Ideal.hostNegf_def, Ideal.negf_def, val_main_v12_apply,
      show idx_main_v12 (ix2 (0 : Fin 1) i) = ix3 (0 : Fin 1) i (0 : Fin 1) from
        funext fun a => Fin.ext (by
          match a with
          | ⟨0, _⟩ => rfl
          | ⟨1, _⟩ => have hi := i.isLt; show (0 * 2047 + i.val) / 1 % 2047 = i.val; omega
          | ⟨2, _⟩ => rfl),
      gathered_row x1 x2 x3 x4 h4 i, logp_row x1 x2 x3 h1 h2 h3 i M hM]
    refine (Cert.CE.ref_row_real (sreal x1 x2 x3 i) M (Cert.CE.cls x4 i)).trans ?_
    exact congrArg (fun t => Cert.CE.lse x1 x2 x3 ⟨i.val, by omega⟩ - t)
      (Cert.CE.score_real x1 x2 x3 h1 h2 h3 ⟨i.val, by omega⟩ (Cert.CE.cls x4 i)).symm

/-- THE TOTAL: the sum, from `0`, of the row losses over the one batch and the 2047 rows. -/
private theorem total_eq (h1 : Cert.CE.Finite x1) (h2 : Cert.CE.Finite x2) (h3 : Cert.CE.Finite x3)
    (h4 : Cert.CE.LabelsOk x4) (j : S_.Idx) :
    val_main_v19 (F := Ideal) x1 x2 x3 x4 j = ∑ i : Fin 2047, Cert.CE.rowLoss x1 x2 x3 x4 i := by
  rw [val_main_v19_apply, val_main_cst_3_apply, Ideal.ofBits_def, Ideal.ofBits_zero_f32, zero_add,
    sum_idx2 (n0 := 1) (n1 := 2047), Fin.sum_univ_one]
  exact Finset.sum_congr rfl fun i _ => rowloss_row x1 x2 x3 x4 h1 h2 h3 h4 i

end Loss

theorem ref_eq (x1 : FVec Ideal S1x2048x2048 .f32) (x2 : FVec Ideal S128000x2048 .f32) (x3 : FVec Ideal S128000 .f32) (x4 : IVec S1x2048 32)
    (h1 : Cert.CE.Finite x1) (h2 : Cert.CE.Finite x2) (h3 : Cert.CE.Finite x3) (h4 : Cert.CE.LabelsOk x4) :
    Cert.ReferenceIdeal.ReadP.val_main_v20 (F := Ideal) x1 x2 x3 x4 = Cert.CE.G x1 x2 x3 x4 := by
  -- the quotient of the total by the denominator, at the result's one index
  funext j
  rw [val_main_v20_apply, Ideal.hostDivf_def, denom_eq, total_eq x1 x2 x3 x4 h1 h2 h3 h4 j]
  rfl

end Cert.ReferenceIdeal.RefValue

end
-- ==== Proof.KPieces.lean ====
/-
  What each control case of the kernel body leaves in the two carried scratch columns (the running maximum and the
  running sum) and, at a row block's last step, in the output column — each as the body's own arithmetic
  (the payload terms) of the three input blocks and of what the step before left.
    first step of a row block : the maximum restarts from the stand-in for `-∞`, the sum from `0`;
    later steps              : they continue from the scratch;
    last step                : the output is `maximum + log sum` of the columns just stored.
-/
import proofs.«430107_j66005057405073_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offset of a whole-block access, as a constant function. -/
private theorem hz : (![0, 0] : Fin 2 → Nat) = fun _ => 0 := funext fun a => by fin_cases a <;> rfl

/-! Every lemma below follows one road. The stores a case makes into a column cover it, so reading the column back gives
    the canonical contents of the store list; the last store writes the whole column at offset zero, so those contents
    are its payload; and inside the payload each load of a whole block at offset zero reads the block's contents.
    In the first step each column is stored twice (the restart value, then the update): the update is the later store,
    and its load of the column reads the restart value the earlier store left, not the unknown prior contents.
    In the last step the output's payload loads the two columns after their updates were stored, so it reads those. -/

/-- First step: the running maximum is the maximum of the stand-in and the tile's row maxima. -/
theorem first_max (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x2048 .bf16) (x1 : Vec F S1024x2048 .f32) (x2 : Vec F S1x1024 .f32) :
    sout0_A_0 c i arg2 harg2 arg3 harg3 arg4 harg4 arg5 harg5 arg6 harg6 arg7 harg7 hc0 hc1 x0 x1 x2 = k0_pay7 x0 x1 x2 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread, harg7.read_unread,
    View.ld_unit_zero (S := S1024x2048) hz, View.ld_unit_zero (S := S1x1024) hz, View.ld_unit_zero (S := S1024x1) hz,
    View.readCov_unit_zero (S := S1024x1) _ hz, shapeCast_self]

/-- First step: the running sum starts from zero. -/
theorem first_sum (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x2048 .bf16) (x1 : Vec F S1024x2048 .f32) (x2 : Vec F S1x1024 .f32) :
    sout0_A_1 c i arg2 harg2 arg3 harg3 arg4 harg4 arg5 harg5 arg6 harg6 arg7 harg7 hc0 hc1 x0 x1 x2 = k0_pay6 x0 x1 x2 (k0_pay2 (F := F)) (k0_pay3 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread,
    View.ld_unit_zero (S := S1024x2048) hz, View.ld_unit_zero (S := S1x1024) hz, View.ld_unit_zero (S := S1024x1) hz,
    View.readCov_unit_zero (S := S1024x1) _ hz, shapeCast_self]

/-- Middle step: the running maximum continues from the scratch. -/
theorem mid_max (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x2048 .bf16) (x1 : Vec F S1024x2048 .f32) (x2 : Vec F S1x1024 .f32) (xs0 : Vec F S1024x1 .f32) (xs1 : Vec F S1024x1 .f32) :
    sout0_B_0 c i arg2 harg2 arg3 harg3 arg4 harg4 arg5 harg5 arg6 harg6 arg7 harg7 hc0 hc1 x0 x1 x2 xs0 xs1 = k0_pay7 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread,
    View.ld_unit_zero (S := S1024x2048) hz, View.ld_unit_zero (S := S1x1024) hz, View.ld_unit_zero (S := S1024x1) hz, shapeCast_self]

/-- Middle step: the running sum is rescaled and extended. -/
theorem mid_sum (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x2048 .bf16) (x1 : Vec F S1024x2048 .f32) (x2 : Vec F S1x1024 .f32) (xs0 : Vec F S1024x1 .f32) (xs1 : Vec F S1024x1 .f32) :
    sout0_B_1 c i arg2 harg2 arg3 harg3 arg4 harg4 arg5 harg5 arg6 harg6 arg7 harg7 hc0 hc1 x0 x1 x2 xs0 xs1 = k0_pay6 x0 x1 x2 xs0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread,
    View.ld_unit_zero (S := S1024x2048) hz, View.ld_unit_zero (S := S1x1024) hz, View.ld_unit_zero (S := S1024x1) hz, shapeCast_self]

/-- Last step: the same updates of the two columns, -/
theorem last_max (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x2048 .bf16) (x1 : Vec F S1024x2048 .f32) (x2 : Vec F S1x1024 .f32) (xs0 : Vec F S1024x1 .f32) (xs1 : Vec F S1024x1 .f32) :
    sout0_C_0 c i arg2 harg2 arg3 harg3 arg4 harg4 arg5 harg5 arg6 harg6 arg7 harg7 hc0 hc1 x0 x1 x2 xs0 xs1 = k0_pay7 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.ld_unit_zero (S := S1024x2048) hz, View.ld_unit_zero (S := S1x1024) hz, View.ld_unit_zero (S := S1024x1) hz, shapeCast_self]

theorem last_sum (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x2048 .bf16) (x1 : Vec F S1024x2048 .f32) (x2 : Vec F S1x1024 .f32) (xs0 : Vec F S1024x1 .f32) (xs1 : Vec F S1024x1 .f32) :
    sout0_C_1 c i arg2 harg2 arg3 harg3 arg4 harg4 arg5 harg5 arg6 harg6 arg7 harg7 hc0 hc1 x0 x1 x2 xs0 xs1 = k0_pay6 x0 x1 x2 xs0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.ld_unit_zero (S := S1024x2048) hz, View.ld_unit_zero (S := S1x1024) hz, View.ld_unit_zero (S := S1024x1) hz, shapeCast_self]

/-- and the output column is `maximum + log sum` of the columns just stored. -/
theorem last_out (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x2048 .bf16) (x1 : Vec F S1024x2048 .f32) (x2 : Vec F S1x1024 .f32) (xs0 : Vec F S1024x1 .f32) (xs1 : Vec F S1024x1 .f32) :
    out0_C_3 c i arg2 harg2 arg3 harg3 arg4 harg4 arg5 harg5 arg6 harg6 arg7 harg7 hc0 hc1 x0 x1 x2 xs0 xs1 = k0_pay1 (k0_pay7 x0 x1 x2 xs0) (k0_pay6 x0 x1 x2 xs0 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.ld_unit_zero (S := S1024x2048) hz, View.ld_unit_zero (S := S1x1024) hz, View.ld_unit_zero (S := S1024x1) hz,
    View.readCov_unit_zero (S := S1024x1) _ hz, shapeCast_self]

end Cert.KernelIdeal.Pieces

end
-- ==== Proof.LibColumn.lean ====
/-
  Two layout facts about a column kept as a trailing unit axis (`keepdims`): a vector `[a]` cast to a
  column `[a, 1]` reads, at `(i, u)`, the vector at `i`; a column `[a, 1]` broadcast along its unit axis to
  `[a, b]` reads, at `(i, j)`, the column at `(i, 0)`.  Together: a per-row quantity spread over the row.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Column
-- ==== Proof.KPayload.lean ====
/-
  The kernel body's arithmetic read at an index, over the extended reals.  For a row `r` of the row block and a
  class `j` of the class tile, with `x0` the embeddings block, `x1` the weights tile and `x2` the bias tile:
    the score tile   `tile r j = ∑ d, x0 r d · x1 j d + x2 j`;
    the new maximum  `max (old maximum) (max over j of tile r j)`;
    the new sum      `old sum · exp (old maximum - new maximum) + ∑ j, exp (tile r j - new maximum)`;
    the output       `maximum + log sum`.
-/
import proofs.«430107_j66005057405073_3_alg».proof.Proof.Gen.KernelIdeal.Skeleton
import proofs.«430107_j66005057405073_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The score of row `r` of the row block for class `j` of the class tile. -/
def tile (x0 : Vec Ideal S1024x2048 .bf16) (x1 : Vec Ideal S1024x2048 .f32) (x2 : Vec Ideal S1x1024 .f32) (r j : Fin 1024) : EReal :=
  (∑ d : Fin 2048, x0 (ix2 r d) * x1 (ix2 j d)) + x2 (ix2 (0 : Fin 1) j)

variable (x0 : Vec Ideal S1024x2048 .bf16) (x1 : Vec Ideal S1024x2048 .f32) (x2 : Vec Ideal S1x1024 .f32)

/-! ### The matmul's operand indices

The dot contracts axis 1 of both operands: at the output index `(r, j)` and contraction coordinate `d` the left
operand is read at `(r, d)` and the right operand at `(j, d)`. -/

private theorem lhs_axis0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
private theorem lhs_axis1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
private theorem rhs_axis0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
private theorem rhs_axis1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The matmul into the zero accumulator at `(r, j)`: the sum over `d` of the products of row `r` of the left
    operand and row `j` of the right operand. -/
private theorem matmul_zero_apply (a b : FVec Ideal S1024x2048 .bf16) (r j : Fin 1024) :
    matmul dot_S1024x2048_S1024x2048_S1024x1024_1_1_0_0_n_n none a b (constant (F := Ideal) S1024x1024 .f32 0x00000000#32) (ix2 r j)
      = ∑ d : Fin 2048, a (ix2 r d) * b (ix2 j d) := by
  simp only [matmul]
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 r j) ((contrEquiv1 dot_S1024x2048_S1024x2048_S1024x1024_1_1_0_0_n_n 2048 rfl rfl).symm k) = ix2 r k := funext fun ax => Fin.ext (by
    match ax with
    | ⟨0, _⟩ => exact lhs_axis0 _ _
    | ⟨1, _⟩ => exact (lhs_axis1 _ _).trans hk)
  have er : dot_S1024x2048_S1024x2048_S1024x1024_1_1_0_0_n_n.rhsIdx (ix2 r j) ((contrEquiv1 dot_S1024x2048_S1024x2048_S1024x1024_1_1_0_0_n_n 2048 rfl rfl).symm k) = ix2 j k := funext fun ax => Fin.ext (by
    match ax with
    | ⟨0, _⟩ => exact rhs_axis0 _ _
    | ⟨1, _⟩ => exact (rhs_axis1 _ _).trans hk)
  rw [el, er]

theorem scores_apply (r j : Fin 1024) : k0_pay4 (F := Ideal) x0 x1 x2 (ix2 r j) = tile x0 x1 x2 r j := by
  unfold k0_pay4 tile
  simp only [shapeCast_self]
  rw [addf_apply, matmul_zero_apply, broadcastTo_1b_ab_apply]
  rfl

/-! ### The lane reductions of a `[1024, 1024]` tile, kept as a column -/

/-- The word `0xFF800000` is `-∞`, the bottom of the extended reals. -/
private theorem negInf_eq_bot : Ideal.ofBits .f32 0xFF800000#32 = (⊥ : EReal) := by
  simp [Ideal.ofBits, Ideal.ieee]

/-- The index of the tile that the reduction over axis 1 visits at row `r` and lane `j` is `(r, j)`. -/
private theorem lift_row (r j : Fin 1024) : reduces_S1024x1024_S1024.lift (ix1 r) j = ix2 r j :=
  funext fun ax => Fin.ext (by
    match ax with
    | ⟨0, _⟩ => rfl
    | ⟨1, _⟩ => rfl)

/-- The maximum over the lanes from `-∞`, as a column: at `(r, u)` the fold of `max` over row `r`. -/
private theorem rowMax_apply (src : FVec Ideal S1024x1024 .f32) (r : Fin 1024) (u : Fin 1) :
    shapeCast S1024x1 (multiReduction (F := Ideal) .maximumf [1] S1024 src 0xFF800000#32 reduces_S1024x1024_S1024 (.inl rfl) rfl)
        shapeCasts_S1024_S1024x1 (ix2 r u)
      = (Finset.univ : Finset (Fin 1024)).fold max (⊥ : EReal) (fun j => src (ix2 r j)) := by
  rw [Cert.Column.shapeCast_a_a1_apply]
  refine (Ideal.multiReduction_maximumf_single src _ reduces_S1024x1024_S1024 (.inl rfl) rfl (ix1 r)).trans ?_
  show (Finset.univ : Finset (Fin 1024)).fold max (Ideal.ofBits .f32 0xFF800000#32)
      (fun j => src (reduces_S1024x1024_S1024.lift (ix1 r) j)) = _
  rw [negInf_eq_bot]
  exact Finset.fold_congr fun j _ => congrArg src (lift_row r j)

/-- The sum over the lanes, as a column: at `(r, u)` the sum of row `r`. -/
private theorem rowSum_apply (src : FVec Ideal S1024x1024 .f32) (r : Fin 1024) (u : Fin 1) :
    shapeCast S1024x1 (multiReduction (F := Ideal) .add [1] S1024 src 0x00000000#32 reduces_S1024x1024_S1024 (.inl rfl) rfl)
        shapeCasts_S1024_S1024x1 (ix2 r u)
      = ∑ j : Fin 1024, src (ix2 r j) := by
  rw [Cert.Column.shapeCast_a_a1_apply]
  refine (Ideal.multiReduction_add_single src _ reduces_S1024x1024_S1024 (.inl rfl) rfl (ix1 r)).trans ?_
  exact Finset.sum_congr rfl fun j _ => congrArg src (lift_row r j)

theorem newMax_apply (mp : Vec Ideal S1024x1 .f32) (r : Fin 1024) :
    k0_pay5 (F := Ideal) x0 x1 x2 mp (ix2 r (0 : Fin 1))
      = max (mp (ix2 r (0 : Fin 1))) ((Finset.univ : Finset (Fin 1024)).fold max (⊥ : EReal) (fun j => tile x0 x1 x2 r j)) := by
  unfold k0_pay5
  dsimp only
  rw [maximumf_apply, rowMax_apply]
  simp only [scores_apply]

theorem newSum_apply (mp lp : Vec Ideal S1024x1 .f32) (r : Fin 1024) :
    k0_pay6 (F := Ideal) x0 x1 x2 mp lp (ix2 r (0 : Fin 1))
      = lp (ix2 r (0 : Fin 1)) * Ideal.exp (mp (ix2 r (0 : Fin 1)) - k0_pay5 (F := Ideal) x0 x1 x2 mp (ix2 r (0 : Fin 1)))
        + ∑ j : Fin 1024, Ideal.exp (tile x0 x1 x2 r j - k0_pay5 (F := Ideal) x0 x1 x2 mp (ix2 r (0 : Fin 1))) := by
  unfold k0_pay6
  dsimp only
  rw [shapeCast_self, addf_apply, rowSum_apply]
  refine congrArg₂ (· + ·) rfl (Finset.sum_congr rfl fun j _ => ?_)
  show Ideal.exp (k0_pay4 (F := Ideal) x0 x1 x2 (ix2 r j)
      - broadcastTo S1024x1024 (k0_pay5 (F := Ideal) x0 x1 x2 mp) broadcasts_S1024x1_S1024x1024 (ix2 r j)) = _
  rw [Cert.Column.broadcastTo_a1_ab_apply, scores_apply]

theorem storedMax_eq (mp : Vec Ideal S1024x1 .f32) : k0_pay7 (F := Ideal) x0 x1 x2 mp = k0_pay5 (F := Ideal) x0 x1 x2 mp := by
  unfold k0_pay7
  exact shapeCast_self _ _

theorem out_apply (mv lv : Vec Ideal S1024x1 .f32) (r : Fin 1024) :
    k0_pay1 (F := Ideal) mv lv (ix2 r (0 : Fin 1)) = mv (ix2 r (0 : Fin 1)) + Ideal.log (lv (ix2 r (0 : Fin 1))) := rfl

theorem initMax_apply (r : Fin 1024) : (k0_pay2 (F := Ideal)) (ix2 r (0 : Fin 1)) = Ideal.ofBits .f32 0xFF333332#32 := by
  unfold k0_pay2
  rw [shapeCast_self]
  rfl

theorem initSum_apply (r : Fin 1024) : (k0_pay3 (F := Ideal)) (ix2 r (0 : Fin 1)) = 0 := by
  unfold k0_pay3
  rw [shapeCast_self]
  exact Ideal.ofBits_zero_f32

end Cert.KernelIdeal.Payload

end
-- ==== Proof.KBlocks.lean ====
/-
  Where the pipeline's windows sit in their arrays.  Grid point `t` (of 250) is row block `t / 125` (1024 rows of the
  2048) and class tile `t % 125` (1024 classes of the 128000):
    the embeddings block at `t` is rows `(t / 125)·1024 + r` of the embeddings (their change of format is the identity);
    the weights tile at `t` is rows `(t % 125)·1024 + j` of the classifier weights;
    the bias tile at `t` is entries `(t % 125)·1024 + j` of the bias.
-/
import proofs.«430107_j66005057405073_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The three input blocks at a grid point, at their literal types. -/
abbrev eblk (c : Dev nD) (t : Fin cfg0.N) : FVec Ideal S1024x2048 .bf16 := iblk m c 0 t
abbrev wblk (c : Dev nD) (t : Fin cfg0.N) : FVec Ideal S1024x2048 .f32 := iblk m c 1 t
abbrev bblk (c : Dev nD) (t : Fin cfg0.N) : FVec Ideal S1x1024 .f32 := iblk m c 2 t

/-- The row of the embeddings that row `r` of point `t`'s row block is. -/
def rowOf (t : Fin cfg0.N) (r : Fin 1024) : Fin 2048 :=
  ⟨t.val / 125 * 1024 + r.val, by have := t.isLt; have : cfg0.N = 250 := N_0; omega⟩

/-- The class that class `j` of point `t`'s class tile is. -/
def colOf (t : Fin cfg0.N) (j : Fin 1024) : Fin 128000 :=
  ⟨t.val % 125 * 1024 + j.val, by omega⟩

/-- Where each window's block sits at a grid point: the printed index maps, decided once over the grid. -/
private theorem idx_rows : ∀ t : Fin cfg0.N, win0_0.index t (0 : Fin 2) = t.val / 125 ∧ win0_0.index t 1 = 0 :=
  (by decide +kernel : ∀ t : Fin grid0.N, win0_0.index t (0 : Fin 2) = t.val / 125 ∧ win0_0.index t 1 = 0)
private theorem idx_weights : ∀ t : Fin cfg0.N, win0_1.index t (0 : Fin 2) = t.val % 125 ∧ win0_1.index t 1 = 0 :=
  (by decide +kernel : ∀ t : Fin grid0.N, win0_1.index t (0 : Fin 2) = t.val % 125 ∧ win0_1.index t 1 = 0)
private theorem idx_bias : ∀ t : Fin cfg0.N, win0_2.index t (0 : Fin 2) = 0 ∧ win0_2.index t 1 = t.val % 125 :=
  (by decide +kernel : ∀ t : Fin grid0.N, win0_2.index t (0 : Fin 2) = 0 ∧ win0_2.index t 1 = t.val % 125)

/-- The bias as the region finds it: the flat bias array under a leading unit axis. -/
private theorem V_bias (c : Dev nD) :
    (V m c main_v6 : S1x128000.Idx → EReal)
      = shapeCast S1x128000 (m ((c : Thread nD τ).loc main_arg3) : S128000.Idx → EReal) shapeCasts_S128000_S1x128000 := by
  dsimp only [Gen.V, Gen.V0]
  simp only [Gen.hostOps0, Gen.hostOps0_1, List.flatten_cons, List.flatten_nil, List.append_nil, List.cons_append,
    List.nil_append]
  after_results
  rfl

/-- The embeddings as the region finds them: the rank-3 argument without its leading unit axis, its change of format
    the identity on the extended reals. -/
private theorem V_emb (c : Dev nD) :
    (V m c main_v5 : S2048x2048.Idx → EReal)
      = truncf (F := Ideal) .bf16 (shapeCast S2048x2048 (m ((c : Thread nD τ).loc main_arg1) : S1x2048x2048.Idx → EReal)
          shapeCasts_S1x2048x2048_S2048x2048) bitsLt_bf16_f32 := by
  dsimp only [Gen.V, Gen.V0]
  simp only [Gen.hostOps0, Gen.hostOps0_1, List.flatten_cons, List.flatten_nil, List.append_nil, List.cons_append,
    List.nil_append]
  after_results
  rfl

theorem eblk_apply (c : Dev nD) (t : Fin cfg0.N) (r : Fin 1024) (d : Fin 2048) :
    eblk m c t (ix2 r d) = (m ((c : Thread nD τ).loc main_arg1) : S1x2048x2048.Idx → EReal) (ix3 (0 : Fin 1) (rowOf t r) d) := by
  have hi := idx_rows t
  show iblk m c 0 t (ix2 r d) = _
  unfold iblk
  rw [View.read_apply]
  show (V m c main_v5 : S2048x2048.Idx → EReal) _ = _
  refine (congrFun (V_emb m c) _).trans ?_
  rw [truncf_apply]
  refine shapeCast_apply _ _ _ (ix3 (0 : Fin 1) (rowOf t r) d) ?_
  rw [Shape.rowMajor_val_three, Shape.rowMajor_val_two]
  show (0 * 2048 + (t.val / 125 * 1024 + r.val)) * 2048 + d.val
    = (win0_0.index t 0 * 1024 + 1 * r.val) * 2048 + (win0_0.index t 1 * 2048 + 1 * d.val)
  rw [hi.1, hi.2]; omega

theorem wblk_apply (c : Dev nD) (t : Fin cfg0.N) (j : Fin 1024) (d : Fin 2048) :
    wblk m c t (ix2 j d) = (m ((c : Thread nD τ).loc main_arg2) : S128000x2048.Idx → EReal) (ix2 (colOf t j) d) := by
  have hi := idx_weights t
  show iblk m c 1 t (ix2 j d) = _
  unfold iblk
  rw [View.read_apply]
  show V m c main_arg2 _ = _
  rw [V_main_arg2]
  congr 1
  funext a
  apply Fin.ext
  match a with
  | ⟨0, _⟩ => show win0_1.index t 0 * 1024 + 1 * j.val = t.val % 125 * 1024 + j.val; rw [hi.1]; omega
  | ⟨1, _⟩ => show win0_1.index t 1 * 2048 + 1 * d.val = d.val; rw [hi.2]; omega

theorem bblk_apply (c : Dev nD) (t : Fin cfg0.N) (j : Fin 1024) :
    bblk m c t (ix2 (0 : Fin 1) j) = (m ((c : Thread nD τ).loc main_arg3) : S128000.Idx → EReal) (ix1 (colOf t j)) := by
  have hi := idx_bias t
  show iblk m c 2 t (ix2 (0 : Fin 1) j) = _
  unfold iblk
  rw [View.read_apply]
  show (V m c main_v6 : S1x128000.Idx → EReal) _ = _
  refine (congrFun (V_bias m c) _).trans ?_
  refine shapeCast_apply _ _ _ (ix1 (colOf t j)) ?_
  rw [Shape.rowMajor_val_one, Shape.rowMajor_val_two]
  show t.val % 125 * 1024 + j.val = (win0_2.index t 0 * 1 + 1 * 0) * 128000 + (win0_2.index t 1 * 1024 + 1 * j.val)
  rw [hi.1, hi.2]; omega

end Cert.KernelIdeal.Blocks

end
-- ==== Proof.KCarried.lean ====
/-
  The sweep over the class tiles, by induction on the grid point.  After the step at point `t` (row block `t / 125`,
  tiles `0 … t % 125` seen) row `r`'s running maximum is some real `a` and its running sum is
  `exp (-a) · ∑ exp (score)` over the classes of the tiles seen; at a row block's last step the output column is
  therefore `log ∑ exp (score)` over all 128000 classes, whatever the maxima were.
-/
import proofs.«430107_j66005057405073_3_alg».proof.Proof.KPieces
import proofs.«430107_j66005057405073_3_alg».proof.Proof.KPayload
import proofs.«430107_j66005057405073_3_alg».proof.Proof.KBlocks
import proofs.«430107_j66005057405073_3_alg».proof.Proof.OnlineMath

noncomputable section

namespace Cert.KernelIdeal.Carried

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- The argument arrays the scores depend on. -/
abbrev E (c : Dev nD) : Cert.CE.SE.Idx → EReal := m ((c : Thread nD τ).loc main_arg1)
abbrev W (c : Dev nD) : Cert.CE.SW.Idx → EReal := m ((c : Thread nD τ).loc main_arg2)
abbrev B (c : Dev nD) : Cert.CE.SB.Idx → EReal := m ((c : Thread nD τ).loc main_arg3)

/-- The logit of row `i`, class `v`, as a real number; by position `n` among the classes (`0` past the end). -/
def sR (c : Dev nD) (i : Fin 2048) (v : Fin 128000) : ℝ := (Cert.CE.score (E m c) (W m c) (B m c) i v).toReal
def sRn (c : Dev nD) (i : Fin 2048) (n : ℕ) : ℝ := if h : n < 128000 then sR m c i ⟨n, h⟩ else 0

/-- `∑ exp (score)` of row `i` over the classes of the first `n` tiles. -/
def seen (c : Dev nD) (i : Fin 2048) (n : ℕ) : ℝ :=
  ∑ k ∈ Finset.range n, ∑ j : Fin 1024, Real.exp (sRn m c i (k * 1024 + j.val))

/-- The tile's scores are the rows' logits at the tile's classes. -/
theorem tile_eq (c : Dev nD) (hE : Cert.CE.Finite (E m c)) (hW : Cert.CE.Finite (W m c)) (hB : Cert.CE.Finite (B m c))
    (t : Fin cfg0.N) (r j : Fin 1024) :
    Payload.tile (eblk m c t) (wblk m c t) (bblk m c t) r j = ((sRn m c (rowOf t r) (t.val % 125 * 1024 + j.val) : ℝ) : EReal) := by
  have hlt : t.val % 125 * 1024 + j.val < 128000 := by have := j.isLt; omega
  unfold Payload.tile
  simp only [eblk_apply, wblk_apply, bblk_apply]
  unfold sRn
  rw [dif_pos hlt]
  exact Cert.CE.score_real (E m c) (W m c) (B m c) hE hW hB (rowOf t r) ⟨_, hlt⟩

/-- What the steps leave in the two columns, case by case, as the body's arithmetic. -/
theorem max_first (c : Dev nD) (t : Fin cfg0.N) (h0 : t.val % 125 = 0) (h1 : ¬t.val % 125 = 124) :
    (outsAt0 m c t.val t.isLt).2.1 = k0_pay5 (F := Ideal) (eblk m c t) (wblk m c t) (bblk m c t) (k0_pay2 (F := Ideal)) := by
  rw [outsAt0_A m c t h0 h1]
  dsimp only
  rw [Pieces.first_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)]
  exact Payload.storedMax_eq _ _ _ _

theorem sum_first (c : Dev nD) (t : Fin cfg0.N) (h0 : t.val % 125 = 0) (h1 : ¬t.val % 125 = 124) :
    (outsAt0 m c t.val t.isLt).2.2 = k0_pay6 (F := Ideal) (eblk m c t) (wblk m c t) (bblk m c t) (k0_pay2 (F := Ideal)) (k0_pay3 (F := Ideal)) := by
  rw [outsAt0_A m c t h0 h1]
  dsimp only
  exact Pieces.first_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

theorem max_mid (c : Dev nD) (t : Fin cfg0.N) (h0 : ¬t.val % 125 = 0) (h1 : ¬t.val % 125 = 124) :
    (outsAt0 m c t.val t.isLt).2.1 = k0_pay5 (F := Ideal) (eblk m c t) (wblk m c t) (bblk m c t) (outsAt0 m c (t.val - 1) (Nat.lt_of_le_of_lt (Nat.sub_le _ _) t.isLt)).2.1 := by
  rw [outsAt0_B m c t h0 h1]
  dsimp only
  rw [Pieces.mid_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2]
  exact Payload.storedMax_eq _ _ _ _

theorem sum_mid (c : Dev nD) (t : Fin cfg0.N) (h0 : ¬t.val % 125 = 0) (h1 : ¬t.val % 125 = 124) :
    (outsAt0 m c t.val t.isLt).2.2 = k0_pay6 (F := Ideal) (eblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_B m c t h0 h1]
  dsimp only
  exact Pieces.mid_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem max_last (c : Dev nD) (t : Fin cfg0.N) (h0 : ¬t.val % 125 = 0) (h1 : t.val % 125 = 124) :
    (outsAt0 m c t.val t.isLt).2.1 = k0_pay5 (F := Ideal) (eblk m c t) (wblk m c t) (bblk m c t) (outsAt0 m c (t.val - 1) (Nat.lt_of_le_of_lt (Nat.sub_le _ _) t.isLt)).2.1 := by
  rw [outsAt0_C m c t h0 h1]
  dsimp only
  rw [Pieces.last_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2]
  exact Payload.storedMax_eq _ _ _ _

theorem sum_last (c : Dev nD) (t : Fin cfg0.N) (h0 : ¬t.val % 125 = 0) (h1 : t.val % 125 = 124) :
    (outsAt0 m c t.val t.isLt).2.2 = k0_pay6 (F := Ideal) (eblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_C m c t h0 h1]
  dsimp only
  exact Pieces.last_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem out_at_last (c : Dev nD) (t : Fin cfg0.N) (h0 : ¬t.val % 125 = 0) (h1 : t.val % 125 = 124) :
    (outsAt0 m c t.val t.isLt).1 = k0_pay1 (F := Ideal) (outsAt0 m c t.val t.isLt).2.1 (outsAt0 m c t.val t.isLt).2.2 := by
  rw [max_last m c t h0 h1, sum_last m c t h0 h1, outsAt0_C m c t h0 h1]
  dsimp only
  rw [Pieces.last_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2]
  rw [Payload.storedMax_eq]

/-- ONE STEP over the columns: from a real maximum `a` and the sum `exp (-a) · A`, the step at point `t` leaves a real
    maximum `a'` and the sum `exp (-a') · (A + the tile's ∑ exp)`. -/
theorem step (c : Dev nD) (hE : Cert.CE.Finite (E m c)) (hW : Cert.CE.Finite (W m c)) (hB : Cert.CE.Finite (B m c))
    (t : Fin cfg0.N) (r : Fin 1024) (mp lp : Vec Ideal S1024x1 .f32) (a A : ℝ)
    (hm : mp (ix2 r (0 : Fin 1)) = (a : EReal)) (hl : lp (ix2 r (0 : Fin 1)) = ((Real.exp (-a) * A : ℝ) : EReal)) :
    ∃ a' : ℝ, k0_pay5 (F := Ideal) (eblk m c t) (wblk m c t) (bblk m c t) mp (ix2 r (0 : Fin 1)) = (a' : EReal)
      ∧ k0_pay6 (F := Ideal) (eblk m c t) (wblk m c t) (bblk m c t) mp lp (ix2 r (0 : Fin 1))
          = ((Real.exp (-a') * (A + ∑ j : Fin 1024, Real.exp (sRn m c (rowOf t r) (t.val % 125 * 1024 + j.val))) : ℝ) : EReal) := by
  obtain ⟨a', ha', hs'⟩ := Cert.CE.step_real a (Real.exp (-a) * A) A (fun j => sRn m c (rowOf t r) (t.val % 125 * 1024 + j.val)) rfl
  refine ⟨a', ?_, ?_⟩
  · rw [Payload.newMax_apply, hm]
    simp only [tile_eq m c hE hW hB]
    exact ha'
  · have hmax : k0_pay5 (F := Ideal) (eblk m c t) (wblk m c t) (bblk m c t) mp (ix2 r (0 : Fin 1)) = (a' : EReal) := by
      rw [Payload.newMax_apply, hm]
      simp only [tile_eq m c hE hW hB]
      exact ha'
    rw [Payload.newSum_apply, hmax, hm, hl]
    simp only [tile_eq m c hE hW hB]
    exact hs'

/-- THE INVARIANT of the sweep, by induction on the grid point. -/
theorem carried (c : Dev nD) (hE : Cert.CE.Finite (E m c)) (hW : Cert.CE.Finite (W m c)) (hB : Cert.CE.Finite (B m c)) :
    ∀ (n : ℕ) (hn : n < cfg0.N) (r : Fin 1024), ∃ a : ℝ,
      (outsAt0 m c n hn).2.1 (ix2 r (0 : Fin 1)) = (a : EReal)
      ∧ (outsAt0 m c n hn).2.2 (ix2 r (0 : Fin 1)) = ((Real.exp (-a) * seen m c (rowOf ⟨n, hn⟩ r) (n % 125 + 1) : ℝ) : EReal) := by
  intro n
  induction n with
  | zero =>
    intro hn r
    have h0 : (⟨0, hn⟩ : Fin cfg0.N).val % 125 = 0 := rfl
    have h1 : ¬(⟨0, hn⟩ : Fin cfg0.N).val % 125 = 124 := by show ¬(0 % 125 = 124); decide
    obtain ⟨n0, hn0⟩ := Cert.CE.neg_big_real
    obtain ⟨a', ha', hs'⟩ := step m c hE hW hB ⟨0, hn⟩ r (k0_pay2 (F := Ideal)) (k0_pay3 (F := Ideal)) n0 0
      ((Payload.initMax_apply r).trans hn0) ((Payload.initSum_apply r).trans (by simp))
    refine ⟨a', ?_, ?_⟩
    · have := max_first m c ⟨0, hn⟩ h0 h1
      exact (congrFun this _).trans ha'
    · have := sum_first m c ⟨0, hn⟩ h0 h1
      refine (congrFun this _).trans (hs'.trans ?_)
      simp [seen, Finset.sum_range_one]
  | succ n ih =>
    intro hn r
    have hN : cfg0.N = 250 := N_0
    have hn' : n < cfg0.N := Nat.lt_of_succ_lt hn
    by_cases h0 : (n + 1) % 125 = 0
    · -- a row block's first tile: the columns restart
      have h1 : ¬(n + 1) % 125 = 124 := by omega
      obtain ⟨n0, hn0⟩ := Cert.CE.neg_big_real
      obtain ⟨a', ha', hs'⟩ := step m c hE hW hB ⟨n + 1, hn⟩ r (k0_pay2 (F := Ideal)) (k0_pay3 (F := Ideal)) n0 0
        ((Payload.initMax_apply r).trans hn0) ((Payload.initSum_apply r).trans (by simp))
      refine ⟨a', ?_, ?_⟩
      · exact (congrFun (max_first m c ⟨n + 1, hn⟩ h0 h1) _).trans ha'
      · refine (congrFun (sum_first m c ⟨n + 1, hn⟩ h0 h1) _).trans (hs'.trans ?_)
        show _ = ((Real.exp (-a') * seen m c (rowOf ⟨n + 1, hn⟩ r) ((n + 1) % 125 + 1) : ℝ) : EReal)
        rw [h0]
        simp [seen, Finset.sum_range_one]
    · -- a later tile: the columns continue from the step before
      obtain ⟨a, ha, hl⟩ := ih hn' r
      have hrow : rowOf (⟨n, hn'⟩ : Fin cfg0.N) r = rowOf (⟨n + 1, hn⟩ : Fin cfg0.N) r := by
        apply Fin.ext
        show n / 125 * 1024 + r.val = (n + 1) / 125 * 1024 + r.val
        have : (n + 1) / 125 = n / 125 := by omega
        rw [this]
      have hmod : n % 125 + 1 = (n + 1) % 125 := by omega
      rw [hrow, hmod] at hl
      obtain ⟨a', ha', hs'⟩ := step m c hE hW hB ⟨n + 1, hn⟩ r (outsAt0 m c n hn').2.1 (outsAt0 m c n hn').2.2 a
        (seen m c (rowOf ⟨n + 1, hn⟩ r) ((n + 1) % 125)) ha hl
      have hseen : seen m c (rowOf ⟨n + 1, hn⟩ r) ((n + 1) % 125) + ∑ j : Fin 1024, Real.exp (sRn m c (rowOf ⟨n + 1, hn⟩ r) ((n + 1) % 125 * 1024 + j.val))
          = seen m c (rowOf ⟨n + 1, hn⟩ r) ((n + 1) % 125 + 1) := by
        unfold seen
        rw [Finset.sum_range_succ]
      rw [hseen] at hs'
      refine ⟨a', ?_, ?_⟩
      · by_cases h1 : (n + 1) % 125 = 124
        · exact (congrFun (max_last m c ⟨n + 1, hn⟩ h0 h1) _).trans ha'
        · exact (congrFun (max_mid m c ⟨n + 1, hn⟩ h0 h1) _).trans ha'
      · by_cases h1 : (n + 1) % 125 = 124
        · exact (congrFun (sum_last m c ⟨n + 1, hn⟩ h0 h1) _).trans hs'
        · exact (congrFun (sum_mid m c ⟨n + 1, hn⟩ h0 h1) _).trans hs'

/-- All the tiles seen: the sum over every class. -/
theorem seen_all (c : Dev nD) (i : Fin 2048) : seen m c i 125 = ∑ v : Fin 128000, Real.exp (sR m c i v) := by
  rw [Cert.CE.sum_tiles (fun v => Real.exp (sR m c i v))]
  unfold seen
  refine Finset.sum_congr rfl fun k hk => Finset.sum_congr rfl fun j _ => ?_
  have hk' : k < 125 := Finset.mem_range.mp hk
  have hlt : k * 1024 + j.val < 128000 := by have := j.isLt; omega
  simp only [sRn, dif_pos hlt]

/-- Row `i`'s log-sum-exp is in the output column after the last step of its row block. -/
theorem out_last (c : Dev nD) (hE : Cert.CE.Finite (E m c)) (hW : Cert.CE.Finite (W m c)) (hB : Cert.CE.Finite (B m c))
    (t : Fin cfg0.N) (h : t.val % 125 = 124) (r : Fin 1024) :
    ((outsAt0 m c t.val t.isLt).1 : S1024x1.Idx → EReal) (ix2 r (0 : Fin 1)) = Cert.CE.lse (E m c) (W m c) (B m c) (rowOf t r) := by
  have h0 : ¬t.val % 125 = 0 := by omega
  obtain ⟨a, ha, hl⟩ := carried m c hE hW hB t.val t.isLt r
  rw [out_at_last m c t h0 h, Payload.out_apply, ha, hl, h, seen_all]
  have hpos : 0 < ∑ v : Fin 128000, Real.exp (sR m c (rowOf t r) v) := Cert.CE.sum_exp_pos _
  exact Cert.CE.final_real a _ hpos

end Cert.KernelIdeal.Carried

end
-- ==== Proof.KLse.lean ====
/-
  The pallas_call's result array: the [2048, 1] column whose row `i` is `log ∑ v, exp (score i v)`.  The output
  window is written back twice, after the last class tile of each of the two row blocks, and those two blocks
  tile the column.
-/
import proofs.«430107_j66005057405073_3_alg».proof.Proof.KCarried

noncomputable section

namespace Cert.KernelIdeal.Lse

open Cert.KernelIdeal Cert.KernelIdeal.Gen Idealize.ShloMosaic Idealize.ShloMosaic.TcCoe Idealize.SL.Sem
open Idealize.ShloMosaic.ValueIdx Cert.KernelIdeal.Blocks Cert.KernelIdeal.Carried
open Idealize.ShloMosaic.Pipeline (Dat)

variable (m : (ℓ : Loc nD τ sig) → Buf (Elt Ideal) ℓ)

/-- Where the result window's block sits at a grid point (row block `t / 125`, the one column), and that it is whole. -/
private theorem idx_out : ∀ t : Fin cfg0.N, win0_3.index t (0 : Fin 2) = t.val / 125 ∧ win0_3.index t 1 = 0
    ∧ win0_3.xsize (grid0.coords t) 0 = 1024 ∧ win0_3.xsize (grid0.coords t) 1 = 1 :=
  (by decide +kernel : ∀ t : Fin grid0.N, win0_3.index t (0 : Fin 2) = t.val / 125 ∧ win0_3.index t 1 = 0
    ∧ win0_3.xsize (grid0.coords t) 0 = 1024 ∧ win0_3.xsize (grid0.coords t) 1 = 1)

/-- A function of the row as an array over the result's index set (one column). -/
private def colArr (L : Fin 2048 → EReal) : S2048x1.Idx → EReal := fun i => L (i 0)

/-- What a write-back writes is the column's block there, when the last class tile of every row block leaves the
    column's rows in the staging buffer. -/
private theorem flushed_eq (c : Dev nD) (L : Fin 2048 → EReal)
    (hout : ∀ t : Fin cfg0.N, t.val % 125 = 124 → ∀ r : Fin 1024,
      ((outsAt0 m c t.val t.isLt).1 : S1024x1.Idx → EReal) (ix2 r (0 : Fin 1)) = L (rowOf t r))
    (t : Fin cfg0.N) (hf : (cfg0.win 3).flush t = true) :
    (dats m 0 c).flushed 3 t = ((cfg0.win 3).blk t).view.read (Elt Ideal) (colArr L) := by
  have h124 := (flush0_3 t).mp hf
  obtain ⟨hi0, hi1, hx0, hx1⟩ := idx_out t
  show (cfg0.win 3).cut (grid0.coords t) ((dats m 0 c).after 3 t) = _
  rw [after0_3]
  funext y
  rw [View.read_apply]
  have hy0 : (y 0).val < 1024 := by
    have : (y 0).val < win0_3.xsize (grid0.coords t) 0 := (y 0).isLt
    omega
  have hy1 : (y 1).val = 0 := by
    have : (y 1).val < win0_3.xsize (grid0.coords t) 1 := (y 1).isLt
    omega
  have e1 : ((cfg0.win 3).xinj (grid0.coords t) y : S1024x1.Idx) = ix2 (⟨(y 0).val, hy0⟩ : Fin 1024) (0 : Fin 1) := by
    funext a; apply Fin.ext
    match a with
    | ⟨0, _⟩ => rfl
    | ⟨1, _⟩ => exact hy1
  show ((outsAt0 m c t.val t.isLt).1 : S1024x1.Idx → EReal) ((cfg0.win 3).xinj (grid0.coords t) y)
    = colArr L (((cfg0.win 3).blk t).view.emb y)
  refine (congrArg _ e1).trans ?_
  refine (hout t h124 _).trans ?_
  unfold colArr
  refine congrArg L (Fin.ext ?_)
  show t.val / 125 * 1024 + (y 0).val = win0_3.index t 0 * 1024 + 1 * (y 0).val
  rw [hi0]; omega

/-- The two written-back blocks tile the column: row `i` is in the block written after the last class tile of row
    block `i / 1024`.  So the result array ends holding the column. -/
private theorem col_of_last (c : Dev nD) (L : Fin 2048 → EReal)
    (hout : ∀ t : Fin cfg0.N, t.val % 125 = 124 → ∀ r : Fin 1024,
      ((outsAt0 m c t.val t.isLt).1 : S1024x1.Idx → EReal) (ix2 r (0 : Fin 1)) = L (rowOf t r))
    (i : Fin 2048) :
    ((dats m 0 c).arrAt 3 cfg0.N : S2048x1.Idx → EReal) (ix2 i (0 : Fin 1)) = L i := by
  have hN : cfg0.N = 250 := N_0
  have hfin : (dats m 0 c).arrAt 3 cfg0.N = colArr L :=
    (dats m 0 c).arrAt_eq_of_cover 3 (colArr L) (flushed_eq m c L hout) fun j => by
      have hj0 : (j 0).val < 2048 := (j 0).isLt
      have hj1 : (j 1).val < 1 := (j 1).isLt
      obtain ⟨t, ht⟩ : ∃ t : Fin cfg0.N, t.val = (j 0).val / 1024 * 125 + 124 :=
        ⟨⟨(j 0).val / 1024 * 125 + 124, by omega⟩, rfl⟩
      obtain ⟨hi0, hi1, hx0, hx1⟩ := idx_out t
      refine ⟨t, (flush0_3 t).mpr (by omega), ?_⟩
      show j ∈ ((View.whole main_v10).slice (win0_3.rect t)).set
      rw [View.set_slice_whole, Rect.mem_set_unit]
      intro a
      match a with
      | ⟨0, _⟩ =>
        show win0_3.index t 0 * win0_3.size 0 ≤ (j 0 : Nat)
          ∧ (j 0 : Nat) < win0_3.index t 0 * win0_3.size 0 + win0_3.xsize (grid0.coords t) 0
        rw [hi0, hx0, show win0_3.size 0 = 1024 from rfl]; omega
      | ⟨1, _⟩ =>
        show win0_3.index t 1 * win0_3.size 1 ≤ (j 1 : Nat)
          ∧ (j 1 : Nat) < win0_3.index t 1 * win0_3.size 1 + win0_3.xsize (grid0.coords t) 1
        rw [hi1, hx1, show win0_3.size 1 = 1 from rfl]; omega
  exact congrFun hfin (ix2 i (0 : Fin 1))

/-- The column the kernel's call leaves in its result array. -/
theorem lseCol (c : Dev nD) (hE : Cert.CE.Finite (E m c)) (hW : Cert.CE.Finite (W m c)) (hB : Cert.CE.Finite (B m c)) (i : Fin 2048) :
    ((dats m 0 c).arrAt 3 cfg0.N : S2048x1.Idx → EReal) (ix2 i (0 : Fin 1)) = Cert.CE.lse (E m c) (W m c) (B m c) i := by
  exact col_of_last m c _ (fun t h r => out_last m c hE hW hB t h r) i

end Cert.KernelIdeal.Lse

end
-- ==== Proof.KTailDef.lean ====
/-
  What the kernel's program computes AFTER its pallas_call, as one pure function: from the column of row
  log-sum-exps the call left (`lseCol`, [2048, 1]) and the argument arrays — embeddings `x1`, classifier weights `x2`,
  bias `x3`, labels `x4` — the mean over the rows that count of `lse - (e · w[label] + b[label])`.
  The label of row `i` is entry `i + 1`; the last row gets the ignore index and so never counts.
-/
import proofs.«430107_j66005057405073_3_alg».proof.Proof.Gen.KernelIdeal

noncomputable section

namespace Cert.KernelIdeal.Tail

open Cert.KernelIdeal Cert.KernelIdeal.Gen Idealize.ShloMosaic

variable {F : FTy → Type} [FloatOps F]

/-- The embeddings as a [2048, 2048] matrix. -/
def emb (x1 : FVec F S1x2048x2048 .f32) : FVec F S2048x2048 .f32 := shapeCast S2048x2048 x1 shapeCasts_S1x2048x2048_S2048x2048

/-- Row `i`'s label: entry `i + 1` of the labels, and the ignore index `-100` for the last row. -/
def shifted (x4 : IVec S1x2048 32) : IVec S2048 32 :=
  concatenate S2048 0 [⟨S2047, extractStridedSlice S2047 ![1] (shapeCast S2048 x4 shapeCasts_S1x2048_S2048) slices_S2048_S2047_1⟩,
    ⟨S1, broadcastInDim S1 ![] bcast_S_S1 (constantI S_ 32 4294967196#32)⟩] concatenates_S2047_S1_S2048_d0

/-- Which rows count: the label is not the ignore index. -/
def valid (x4 : IVec S1x2048 32) : IVec S2048 1 :=
  cmpi .ne (shifted x4) (broadcastInDim S2048 ![] bcast_S_S2048 (constantI S_ 32 4294967196#32))

/-- The label with the ignore index replaced by class 0. -/
def safe (x4 : IVec S1x2048 32) : IVec S2048 32 :=
  select (valid x4) (shifted x4) (broadcastInDim S2048 ![] bcast_S_S2048 (id (constantI S_ 32 0#32)))

/-- A negative class index wrapped around (jnp's reading of an index). -/
def wrapped (x4 : IVec S1x2048 32) : IVec S2048 32 :=
  select (cmpi .slt (safe x4) (broadcastInDim S2048 ![] bcast_S_S2048 (constantI S_ 32 0#32)))
    (addi (safe x4) (broadcastInDim S2048 ![] bcast_S_S2048 (constantI S_ 32 128000#32))) (safe x4)

/-- The wrapped index as a column of start indices. -/
def wrappedCol (x4 : IVec S1x2048 32) : IVec S2048x1 32 := broadcastInDim S2048x1 ![0] bcast_S2048_S2048x1_0 (wrapped x4)

/-- Whether the wrapped index lies inside the 128000 classes. -/
def inRange (x4 : IVec S1x2048 32) : IVec S2048 1 :=
  Host.reduce IntOp.andi
    (andi (cmpi .sge (wrappedCol x4) (broadcastInDim S2048x1 ![] bcast_S_S2048x1 (constantI S_ 32 0#32)))
      (cmpi .sle (wrappedCol x4) (broadcastInDim S2048x1 ![0, 1] bcast_S1x1_S2048x1_0_1
        (broadcastInDim S1x1 ![1] bcast_S1_S1x1_1 (constantI S1 32 127999#32)))))
    (constantI S_ 1 1#1) reducesTo_S2048x1_S2048_d1 h_S_

/-- The weight row of each row's class (an out-of-range class reads the fill value). -/
def wRows (x2 : FVec F S128000x2048 .f32) (x4 : IVec S1x2048 32) : FVec F S2048x2048 .f32 :=
  select (broadcastInDim S2048x2048 ![0] bcast_S2048_S2048x2048_0 (inRange x4))
    (Host.gather gather_S128000x2048_S2048x1_S2048x2048_1_0_n_n_0_1_12048 x2 (wrappedCol x4))
    (broadcastInDim S2048x2048 ![] bcast_S_S2048x2048 (constant S_ .f32 0x7FC00000#32))

/-- Each row's logit at its own class: `e · w[label] + b[label]`. -/
def labelScore (x1 : FVec F S1x2048x2048 .f32) (x2 : FVec F S128000x2048 .f32) (x3 : FVec F S128000 .f32) (x4 : IVec S1x2048 32) :
    FVec F S2048 .f32 :=
  addf (Host.reduceAdd (mulf (emb x1) (wRows x2 x4)) (constant S_ .f32 0x00000000#32) reducesTo_S2048x2048_S2048_d1 h_S_)
    (Host.gather gather_S128000_S2048x1_S2048_n_0_n_n_0_1_1 x3 (wrappedCol x4))

/-- Each row's loss, `0` where the row does not count. -/
def rowLosses (lseCol : FVec F S2048x1 .f32) (x1 : FVec F S1x2048x2048 .f32) (x2 : FVec F S128000x2048 .f32) (x3 : FVec F S128000 .f32)
    (x4 : IVec S1x2048 32) : FVec F S2048 .f32 :=
  select (valid x4) (subf (shapeCast S2048 lseCol shapeCasts_S2048x1_S2048) (labelScore x1 x2 x3 x4))
    (broadcastInDim S2048 ![] bcast_S_S2048 (id (constant S_ .f32 0x00000000#32)))

/-- The number of rows that count, at least one, as a float. -/
def denom (x4 : IVec S1x2048 32) : FVec F S_ .f32 :=
  sitofp .f32 (maxsi (Host.reduce IntOp.addi (extui 32 (valid x4) natLt_1_32) (constantI S_ 32 0#32) reducesTo_S2048_S_d0 h_S_)
    (constantI S_ 32 1#32))

/-- The program's result: the mean loss. -/
def result (lseCol : FVec F S2048x1 .f32) (x1 : FVec F S1x2048x2048 .f32) (x2 : FVec F S128000x2048 .f32) (x3 : FVec F S128000 .f32)
    (x4 : IVec S1x2048 32) : FVec F S_ .f32 :=
  Host.divf (Host.reduceAdd (rowLosses lseCol x1 x2 x3 x4) (constant S_ .f32 0x00000000#32) reducesTo_S2048_S_d0 h_S_) (denom x4)

end Cert.KernelIdeal.Tail

end
-- ==== Proof.KTail.lean ====
/-
  The kernel's program after its pallas_call, run: its result buffer ends at the tail function (KTailDef) of the
  call's result column and the argument arrays.  The values the tail reads from before the call (the embeddings as a
  matrix, the shifted labels, which rows count) are the same functions of the arguments.
-/
import proofs.«430107_j66005057405073_3_alg».proof.Proof.Gen.KernelIdeal.Frame
import proofs.«430107_j66005057405073_3_alg».proof.Proof.KTailDef
import Idealize.ShloMosaic.Lib.StableHlo.Run

noncomputable section

namespace Cert.KernelIdeal.Tail

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-! ## What the lines before the call left in the buffers the tail reads

Each is the composition of the operations that wrote it, applied to an argument array. -/

/-- The embeddings' buffer: the reshape of argument 1 to a matrix. -/
private theorem V0_v0 (c : Dev nD) : V0 m c (Proc.devRef .tc main_v0) = emb (m ((c : Thread nD τ).loc main_arg1)) := by
  dsimp only [V0]
  simp only [Gen.hostOps0, Gen.hostOps0_1, List.flatten_cons, List.flatten_nil, List.append_nil, List.cons_append, List.nil_append]
  after_results
  rfl

/-- Which rows count: the shifted labels (entries 1… of argument 4, then the ignore index) compared with the ignore index. -/
private theorem V0_v8 (c : Dev nD) : V0 m c (Proc.devRef .tc main_v8) = valid (m ((c : Thread nD τ).loc main_arg4)) := by
  dsimp only [V0]
  simp only [Gen.hostOps0, Gen.hostOps0_1, List.flatten_cons, List.flatten_nil, List.append_nil, List.cons_append, List.nil_append]
  after_results
  rfl

/-- The safe label: the shifted label where the row counts, class 0 elsewhere. -/
private theorem V0_v9 (c : Dev nD) : V0 m c (Proc.devRef .tc main_v9) = safe (m ((c : Thread nD τ).loc main_arg4)) := by
  dsimp only [V0]
  simp only [Gen.hostOps0, Gen.hostOps0_1, List.flatten_cons, List.flatten_nil, List.append_nil, List.cons_append, List.nil_append]
  after_results
  rfl

/-! ## The tail over any buffer contents

From ANY contents `W` of the buffers that hold, at the six buffers the tail reads, the call's column, the embedding
matrix, the weights, the bias, which rows count and the safe labels, the lines after the call leave the tail function in
the result buffer: each line's result is its function of its operands' contents, a buffer no later line writes keeps
its contents, and the composition is `result` by unfolding its definition. -/
private theorem tail_of (W : Valuation τ sig (Elt F)) (lseCol : FVec F S2048x1 .f32) (x1 : FVec F S1x2048x2048 .f32)
    (x2 : FVec F S128000x2048 .f32) (x3 : FVec F S128000 .f32) (x4 : IVec S1x2048 32)
    (h10 : W (Proc.devRef .tc main_v10) = lseCol)
    (h0 : W (Proc.devRef .tc main_v0) = emb x1)
    (h2 : W (Proc.devRef .tc main_arg2) = x2)
    (h3 : W (Proc.devRef .tc main_arg3) = x3)
    (h8 : W (Proc.devRef .tc main_v8) = valid x4)
    (h9 : W (Proc.devRef .tc main_v9) = safe x4) :
    StableHlo.after (List.flatten [hostOps1, hostOps1_1, hostOps1_2, hostOps1_3, hostOps1_4]) W (Proc.devRef .tc main_v30)
      = result lseCol x1 x2 x3 x4 := by
  simp only [Gen.hostOps1, Gen.hostOps1_1, Gen.hostOps1_2, Gen.hostOps1_3, Gen.hostOps1_4, List.flatten_cons, List.flatten_nil,
    List.append_nil, List.cons_append, List.nil_append]
  after_results_simp
  -- the inlined callees' typed references: transport along a reflexive type equation is the identity
  simp only [StableHlo.TRef.ofBuf, StableHlo.TRef.toBuf, cast_eq]
  rw [h10, h0, h2, h3, h8, h9]
  rfl

/-- What the program's result buffer holds after the lines that follow the call. -/
theorem tail_eq (c : Dev nD) :
    Pipeline.afterTail₀ cfgs (dats m) 0 (V0 m) [hostOps1, hostOps1_1, hostOps1_2, hostOps1_3, hostOps1_4] c main_v30
      = result (F := F) ((dats m 0 c).arrAt 3 cfg0.N) (m ((c : Thread nD τ).loc main_arg1)) (m ((c : Thread nD τ).loc main_arg2))
          (m ((c : Thread nD τ).loc main_arg3)) (m ((c : Thread nD τ).loc main_arg4)) := by
  unfold Pipeline.afterTail₀
  -- the contents the call leaves: its windows' arrays at what the call wrote (window 3, the result column) or staged
  -- unchanged (window 1, the weights), every other buffer as the lines before the call left it
  exact tail_of _ _ _ _ _ _
    (Pipeline.withArrays_arr spec0 launch0.win.arr_inj c _ _ 3)
    ((Pipeline.withArrays_of_ne _ c (V0 m c) _ main_v0 (by decide : ∀ w, Pipeline.arrRef spec0 w ≠ main_v0)).trans (V0_v0 m c))
    ((Pipeline.withArrays_arr spec0 launch0.win.arr_inj c _ _ 1).trans
      (((dats m 0 c).arrAt_in 1 rfl _).trans ((A_eq m c 1).trans (V_main_arg2 m c))))
    ((Pipeline.withArrays_of_ne _ c (V0 m c) _ main_arg3 (by decide : ∀ w, Pipeline.arrRef spec0 w ≠ main_arg3)).trans (V_main_arg3 m c))
    ((Pipeline.withArrays_of_ne _ c (V0 m c) _ main_v8 (by decide : ∀ w, Pipeline.arrRef spec0 w ≠ main_v8)).trans (V0_v8 m c))
    ((Pipeline.withArrays_of_ne _ c (V0 m c) _ main_v9 (by decide : ∀ w, Pipeline.arrRef spec0 w ≠ main_v9)).trans (V0_v9 m c))

end Cert.KernelIdeal.Tail

end
-- ==== Proof.KLabels.lean ====
/-
  The kernel program's label arithmetic, read at a row.  Row `i < 2047` is scored against the label at position
  `i + 1`; the last row gets the ignore index.  With labels in range, the wrapped index of a row is a class in
  `[0, 128000)` and the range test passes.
-/
import proofs.«430107_j66005057405073_3_alg».proof.Proof.KTailDef
import proofs.«430107_j66005057405073_3_alg».proof.Proof.Spec
import proofs.«430107_j66005057405073_3_alg».proof.Proof.Labels
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Reduce

noncomputable section

namespace Cert.KernelIdeal.Tail

open Cert.KernelIdeal Cert.KernelIdeal.Gen Idealize.ShloMosaic Idealize.ShloMosaic.ValueIdx

variable (x4 : IVec S1x2048 32)

/-- Row `i` as an index of the 2048 rows; the last row. -/
abbrev rowIdx (i : Fin 2047) : Fin 2048 := ⟨i.val, by omega⟩
abbrev lastRow : Fin 2048 := ⟨2047, by omega⟩

theorem shifted_row (i : Fin 2047) : shifted x4 (ix1 (rowIdx i)) = Cert.CE.label x4 i := by
  unfold shifted
  refine (concatenate_pair_apply_left (t := S2048) (s₁ := S2047) (s₂ := S1) 0 _ _ concatenates_S2047_S1_S2048_d0
    (ix1 (rowIdx i)) rfl (ix1 i) (fun b => ?_)).trans ?_
  · match b with
    | ⟨0, _⟩ => rfl
  refine (extractStridedSlice_apply ![1] _ slices_S2048_S2047_1 (ix1 i) (ix1 ⟨i.val + 1, by omega⟩) (fun a => ?_)).trans ?_
  · match a with
    | ⟨0, _⟩ => show i.val + 1 = 1 + i.val; omega
  refine (shapeCast_apply x4 shapeCasts_S1x2048_S2048 (ix1 ⟨i.val + 1, by omega⟩) (ix2 (0 : Fin 1) ⟨i.val + 1, by omega⟩) ?_).trans rfl
  rw [Shape.rowMajor_val_two, Shape.rowMajor_val_one]
  show 0 * 2048 + (i.val + 1) = i.val + 1
  omega

theorem shifted_last : shifted x4 (ix1 lastRow) = Cert.CE.ignoreIdx := by
  unfold shifted
  refine (concatenate_pair_apply_right (t := S2048) (s₁ := S2047) (s₂ := S1) 0 _ _ concatenates_S2047_S1_S2048_d0
    (ix1 lastRow) rfl rfl (ix1 (0 : Fin 1)) (fun b hb => ?_) rfl).trans ?_
  · match b with
    | ⟨0, _⟩ => exact absurd rfl hb
  rw [broadcastInDim_scalar_apply, constantI_apply]

theorem valid_row (i : Fin 2047) : valid x4 (ix1 (rowIdx i)) = BitVec.ofBool (decide (Cert.CE.label x4 i ≠ Cert.CE.ignoreIdx)) := by
  show IntOp.cmpi .ne (shifted x4 (ix1 (rowIdx i)))
    (broadcastInDim S2048 ![] bcast_S_S2048 (constantI S_ 32 4294967196#32) (ix1 (rowIdx i))) = _
  rw [shifted_row, broadcastInDim_scalar_apply, constantI_apply]
  exact Cert.CE.cmpi_ne_ignore _

theorem valid_last : valid x4 (ix1 lastRow) = 0#1 := by
  show IntOp.cmpi .ne (shifted x4 (ix1 lastRow))
    (broadcastInDim S2048 ![] bcast_S_S2048 (constantI S_ 32 4294967196#32) (ix1 lastRow)) = _
  rw [shifted_last, broadcastInDim_scalar_apply, constantI_apply, Cert.CE.cmpi_ne_ignore]
  decide

/-- The safe label of row `i`: the label, the ignore index replaced by class 0. -/
private theorem safe_row (i : Fin 2047) :
    safe x4 (ix1 (rowIdx i)) = if Cert.CE.label x4 i = Cert.CE.ignoreIdx then 0#32 else Cert.CE.label x4 i := by
  show Scalar.select (valid x4 (ix1 (rowIdx i))) (shifted x4 (ix1 (rowIdx i)))
    (broadcastInDim S2048 ![] bcast_S_S2048 (id (constantI S_ 32 0#32)) (ix1 (rowIdx i))) = _
  rw [valid_row, shifted_row, broadcastInDim_scalar_apply]
  show Scalar.select _ _ 0#32 = _
  unfold Scalar.select
  by_cases h : Cert.CE.label x4 i = Cert.CE.ignoreIdx
  · simp [h]
  · simp [h]

/-- The wrapped index of row `i`: the safe label, a negative one moved up by the number of classes. -/
private theorem wrapped_row' (i : Fin 2047) :
    wrapped x4 (ix1 (rowIdx i))
      = Cert.CE.wrapIdx (if Cert.CE.label x4 i = Cert.CE.ignoreIdx then 0#32 else Cert.CE.label x4 i) := by
  show Scalar.select
      (IntOp.cmpi .slt (safe x4 (ix1 (rowIdx i))) (broadcastInDim S2048 ![] bcast_S_S2048 (constantI S_ 32 0#32) (ix1 (rowIdx i))))
      (IntOp.addi (safe x4 (ix1 (rowIdx i))) (broadcastInDim S2048 ![] bcast_S_S2048 (constantI S_ 32 128000#32) (ix1 (rowIdx i))))
      (safe x4 (ix1 (rowIdx i))) = _
  rw [safe_row, broadcastInDim_scalar_apply, broadcastInDim_scalar_apply, constantI_apply, constantI_apply]
  exact Cert.CE.select_wrap _

/-- The start index of row `i`: its label, the ignore index replaced by class 0, a negative index wrapped. -/
theorem wrappedCol_row (i : Fin 2047) :
    wrappedCol x4 (ix2 (rowIdx i) (0 : Fin 1))
      = Cert.CE.wrapIdx (if Cert.CE.label x4 i = Cert.CE.ignoreIdx then 0#32 else Cert.CE.label x4 i) := by
  unfold wrappedCol
  refine (broadcastInDim_apply (s := S2048) (t := S2048x1) ![0] bcast_S2048_S2048x1_0 (wrapped x4) (ix2 (rowIdx i) (0 : Fin 1))
    (ix1 (rowIdx i)) (fun a => ?_)).trans (wrapped_row' x4 i)
  match a with
  | ⟨0, _⟩ => rfl

theorem wrapped_row (i : Fin 2047) :
    wrapped x4 (ix1 (rowIdx i))
      = Cert.CE.wrapIdx (if Cert.CE.label x4 i = Cert.CE.ignoreIdx then 0#32 else Cert.CE.label x4 i) :=
  wrapped_row' x4 i

/-- A fold by `and` from 1 over a one-element axis is the one entry. -/
private theorem fold_andi_fin_one (f : Fin 1 → BitVec 1) :
    Finset.fold IntOp.andi (constantI S_ 1 1#1 (Shape.Idx.first h_S_)) f (Finset.univ : Finset (Fin 1)) = f 0 := by
  rw [Finset.univ_unique, Finset.fold_singleton]
  show f 0 &&& 1#1 = f 0
  rcases BitVec.eq_zero_or_eq_one (f 0) with h | h <;> rw [h] <;> decide

/-- The range-test bit of row `i`: both comparisons of the wrapped index hold. -/
private theorem mask_row (h4 : Cert.CE.LabelsOk x4) (i : Fin 2047) :
    (andi (cmpi .sge (wrappedCol x4) (broadcastInDim S2048x1 ![] bcast_S_S2048x1 (constantI S_ 32 0#32)))
      (cmpi .sle (wrappedCol x4) (broadcastInDim S2048x1 ![0, 1] bcast_S1x1_S2048x1_0_1
        (broadcastInDim S1x1 ![1] bcast_S1_S1x1_1 (constantI S1 32 127999#32))))) (ix2 (rowIdx i) (0 : Fin 1)) = 1#1 := by
  show IntOp.andi (IntOp.cmpi .sge (wrappedCol x4 (ix2 (rowIdx i) (0 : Fin 1))) 0#32)
      (IntOp.cmpi .sle (wrappedCol x4 (ix2 (rowIdx i) (0 : Fin 1))) 127999#32) = 1#1
  rw [wrappedCol_row]
  refine Cert.CE.wrap_inRange _ ?_
  split
  · exact Cert.CE.zero_ok
  · exact h4 i

/-- With labels in range the range test passes at every row that has a label. -/
theorem inRange_row (h4 : Cert.CE.LabelsOk x4) (i : Fin 2047) : inRange x4 (ix1 (rowIdx i)) = 1#1 := by
  unfold inRange
  have hR : S2048x1.Reduces [1] S2048 := by decide
  refine (Host.reduce_eq_fold_single (s := S2048x1) (t := S2048) (a := 1) IntOp.andi _ _ reducesTo_S2048x1_S2048_d1 hR h_S_
    (ix1 (rowIdx i))).trans ?_
  have hl : hR.lift (ix1 (rowIdx i)) (0 : Fin 1) = ix2 (rowIdx i) (0 : Fin 1) := by
    funext c
    match c with
    | ⟨0, _⟩ => rfl
    | ⟨1, _⟩ => rfl
  refine (fold_andi_fin_one _).trans ?_
  exact (congrArg _ hl).trans (mask_row x4 h4 i)

end Cert.KernelIdeal.Tail

end
-- ==== Proof.KCount.lean ====
/-
  The kernel program's denominator: the number of rows whose label is not the ignore index (the last row never
  counts), at least one, as a float.
-/
import proofs.«430107_j66005057405073_3_alg».proof.Proof.KLabels
import Idealize.ShloMosaic.Lib.IndicatorCount
import Idealize.ShloMosaic.PureOps.Reduce

noncomputable section

namespace Cert.KernelIdeal.Tail

open Cert.KernelIdeal Cert.KernelIdeal.Gen Idealize.ShloMosaic Idealize.ShloMosaic.ValueIdx

/-- A row with a label counts exactly when its label is not the ignore index. -/
private theorem valid_row_eq_one (x4 : IVec S1x2048 32) (i : Fin 2047) :
    valid x4 (ix1 (rowIdx i)) = 1#1 ↔ Cert.CE.label x4 i ≠ Cert.CE.ignoreIdx := by
  rw [valid_row, ← Cert.CE.cmpi_ne_ignore]
  exact Cert.CE.cmpi_ne_ignore_eq_one _

/-- The rows that count are as many as the labels (at positions 1 … 2047) that are not the ignore index: row `i`
    carries label `i`, and the last row never counts. -/
private theorem card_valid (x4 : IVec S1x2048 32) :
    (Finset.univ.filter fun k : S2048.Idx => valid x4 k = 1#1).card
      = (Finset.univ.filter fun i : Fin 2047 => Cert.CE.label x4 i ≠ Cert.CE.ignoreIdx).card := by
  symm
  refine Finset.card_bij (fun i _ => ix1 (rowIdx i)) (fun i hi => ?_) (fun a _ b _ e => ?_) (fun k hk => ?_)
  · rw [Finset.mem_filter] at hi ⊢
    exact ⟨Finset.mem_univ _, (valid_row_eq_one x4 i).2 hi.2⟩
  · have h0 := congrArg (fun f : S2048.Idx => (f 0).val) e
    exact Fin.ext h0
  · obtain ⟨r, rfl⟩ : ∃ r : Fin 2048, k = ix1 r := ⟨k 0, eq_ix1 k⟩
    rw [Finset.mem_filter] at hk
    by_cases hr : r.val < 2047
    · refine ⟨⟨r.val, hr⟩, ?_, rfl⟩
      rw [Finset.mem_filter]
      exact ⟨Finset.mem_univ _, (valid_row_eq_one x4 ⟨r.val, hr⟩).1 hk.2⟩
    · have e : r = lastRow := Fin.ext (by have := r.isLt; show r.val = 2047; omega)
      rw [e, valid_last] at hk
      exact absurd hk.2 (by decide)

/-- The sum over all rows of the widened "counts" bits is the count of the labels that are not the ignore index. -/
private theorem reduce_valid (x4 : IVec S1x2048 32) (j : S_.Idx) :
    Host.reduce IntOp.addi (extui 32 (valid x4) natLt_1_32) (constantI S_ 32 0#32) reducesTo_S2048_S_d0 h_S_ j
      = Cert.CE.count x4 := by
  rw [Host.reduce_eq_fold]
  have hall : (Finset.univ.filter fun i : S2048.Idx => reducesTo_S2048_S_d0.drop i = j) = Finset.univ :=
    Finset.filter_true_of_mem fun i _ => funext fun a => a.elim0
  rw [hall]
  show Finset.fold IntOp.addi 0#32 (fun k => (valid x4 k).setWidth 32) Finset.univ = _
  rw [IndicatorCount.fold_addi_setWidth_eq_card, card_valid]
  rfl

theorem denom_eq (x4 : IVec S1x2048 32) (j : S_.Idx) :
    denom (F := Ideal) x4 j = FloatOps.sitofp (F := Ideal) .f32 (IntOp.maxsi (Cert.CE.count x4) 1#32) := by
  show FloatOps.sitofp (F := Ideal) .f32 (IntOp.maxsi
    (Host.reduce IntOp.addi (extui 32 (valid x4) natLt_1_32) (constantI S_ 32 0#32) reducesTo_S2048_S_d0 h_S_ j) 1#32) = _
  rw [reduce_valid]

end Cert.KernelIdeal.Tail

end
-- ==== Proof.KTailValue.lean ====
/-
  The kernel's tail function, read: with the call's column holding each row's log-sum-exp, finite inputs and labels
  in range, the program's result is the mean cross-entropy `G` of the specification.  Row `i < 2047` contributes
  `lse i - (∑ d, e i d · w[label] d + b[label])`, which is `lse i - score i label`; the last row never counts.
-/
import proofs.«430107_j66005057405073_3_alg».proof.Proof.KTailDef
import proofs.«430107_j66005057405073_3_alg».proof.Proof.Spec
import proofs.«430107_j66005057405073_3_alg».proof.Proof.Labels
import proofs.«430107_j66005057405073_3_alg».proof.Proof.KLabels
import proofs.«430107_j66005057405073_3_alg».proof.Proof.KCount
import proofs.«430107_j66005057405073_3_alg».proof.Proof.OnlineMath
import proofs.«430107_j66005057405073_3_alg».proof.Proof.LibGather
import Idealize.ShloMosaic.Lib.Pipeline.Value
import Idealize.ShloMosaic.Lib.ValueIdx
import Idealize.ShloMosaic.Lib.ValueLayout
import Idealize.ShloMosaic.Lib.IdealHost
import Idealize.ShloMosaic.Lib.IndicatorCount
import Idealize.ShloMosaic.Lib.StableHlo.Predicate
import Idealize.ShloMosaic.PureOps.Ideal.Laws

noncomputable section

namespace Cert.KernelIdeal.Tail

open Cert.KernelIdeal Cert.KernelIdeal.Gen Idealize.ShloMosaic Idealize.ShloMosaic.ValueIdx

open Idealize.ShloMosaic.StableHlo.Predicate in
/-- A rank-1 index written by its coordinate, in the two spellings in use. -/
private theorem ix1_eq_ofFin {n : Nat} (p : Fin n) : ix1 p = Shape.Idx.ofFin p :=
  funext fun a => by
    match a with
    | ⟨0, _⟩ => exact Fin.ext rfl

open Idealize.ShloMosaic.StableHlo.Predicate in
/-- Row `p` of a column, in the two spellings in use. -/
private theorem ixP_eq_ix2 {n : Nat} (p : Fin n) : ixP p = ix2 p (0 : Fin 1) :=
  funext fun a => by
    match a with
    | ⟨0, _⟩ => rfl
    | ⟨1, _⟩ => rfl

/-! ### The layout readings -/

/-- The embeddings with the leading unit axis dropped: entry `(i, d)` is entry `(0, i, d)`. -/
private theorem emb_apply (x1 : FVec Ideal S1x2048x2048 .f32) (i d : Fin 2048) :
    emb (F := Ideal) x1 (ix2 i d) = x1 (ix3 (0 : Fin 1) i d) := by
  unfold emb
  refine shapeCast_apply x1 _ (ix2 i d) (ix3 (0 : Fin 1) i d) ?_
  rw [Shape.rowMajor_val_three, Shape.rowMajor_val_two]
  show (0 * 2048 + i.val) * 2048 + d.val = i.val * 2048 + d.val
  omega

/-- The column of row log-sum-exps with its trailing unit axis dropped: entry `p` is entry `(p, 0)`. -/
private theorem col_apply (lseCol : FVec Ideal S2048x1 .f32) (p : Fin 2048) :
    shapeCast S2048 lseCol shapeCasts_S2048x1_S2048 (ix1 p) = lseCol (ix2 p (0 : Fin 1)) := by
  refine shapeCast_apply lseCol _ (ix1 p) (ix2 p (0 : Fin 1)) ?_
  rw [Shape.rowMajor_val_two, Shape.rowMajor_val_one]
  show p.val * 1 + 0 = p.val
  omega

/-- The zero the rows that do not count are filled with. -/
private theorem zeroFill_apply (p : Fin 2048) :
    broadcastInDim S2048 ![] bcast_S_S2048 (id (constant (F := Ideal) S_ .f32 0x00000000#32)) (ix1 p) = (0 : EReal) := by
  rw [broadcastInDim_scalar_apply]
  exact Ideal.ofBits_zero_f32

section Rows

variable (x4 : IVec S1x2048 32)

/-! ### The class of a row, and the two gathers -/

/-- The safe label of a row (class 0 for the ignore index) is a valid index. -/
private theorem safe_ok (h4 : Cert.CE.LabelsOk x4) (i : Fin 2047) :
    (-128000 : ℤ) ≤ (if Cert.CE.label x4 i = Cert.CE.ignoreIdx then 0#32 else Cert.CE.label x4 i).toInt ∧
      (if Cert.CE.label x4 i = Cert.CE.ignoreIdx then 0#32 else Cert.CE.label x4 i).toInt < 128000 := by
  split
  · exact Cert.CE.zero_ok
  · exact h4 i

/-- The clamped start index of row `i` is its class. -/
private theorem start_eq_cls (h4 : Cert.CE.LabelsOk x4) (i : Fin 2047) :
    min (wrappedCol x4 (ix2 (rowIdx i) (0 : Fin 1))).toInt.toNat (128000 - 1) = (Cert.CE.cls x4 i).val := by
  rw [wrappedCol_row, (Cert.CE.wrap_clamp _ (safe_ok x4 h4 i)).1, Cert.CE.cls_val x4 h4 i]

/-- The gathered weight row of row `i` is the weight row of its class. -/
private theorem wRows_row (x2 : FVec Ideal S128000x2048 .f32) (h4 : Cert.CE.LabelsOk x4) (i : Fin 2047) (d : Fin 2048) :
    wRows (F := Ideal) x2 x4 (ix2 (rowIdx i) d) = x2 (ix2 (Cert.CE.cls x4 i) d) := by
  unfold wRows
  rw [select_apply]
  -- the range test, spread along the row, passes
  have hm : broadcastInDim S2048x2048 ![0] bcast_S2048_S2048x2048_0 (inRange x4) (ix2 (rowIdx i) d) = 1#1 := by
    rw [broadcastInDim_apply ![0] bcast_S2048_S2048x2048_0 (inRange x4) (ix2 (rowIdx i) d) (ix1 (rowIdx i)) (fun a => by
      match a with
      | ⟨0, _⟩ => rfl)]
    exact inRange_row x4 h4 i
  rw [hm, select_one]
  refine (Cert.Gather.take_rows gather_S128000x2048_S2048x1_S2048x2048_1_0_n_n_0_1_12048 rfl rfl rfl rfl rfl x2 (wrappedCol x4) (rowIdx i) d (by norm_num)).trans ?_
  exact congrArg (fun c : Fin 128000 => x2 (ix2 c d)) (Fin.ext (start_eq_cls x4 h4 i))

/-- The gathered bias of row `i` is the bias of its class. -/
private theorem bias_row (x3 : FVec Ideal S128000 .f32) (h4 : Cert.CE.LabelsOk x4) (i : Fin 2047) :
    Host.gather gather_S128000_S2048x1_S2048_n_0_n_n_0_1_1 x3 (wrappedCol x4) (ix1 (rowIdx i)) = x3 (ix1 (Cert.CE.cls x4 i)) := by
  rw [ix1_eq_ofFin, ix1_eq_ofFin]
  refine (Idealize.ShloMosaic.StableHlo.Predicate.gather_take gather_S128000_S2048x1_S2048_n_0_n_n_0_1_1 rfl rfl rfl rfl x3 (wrappedCol x4) (rowIdx i) (by norm_num)).trans ?_
  refine congrArg (fun c : Fin 128000 => x3 (Shape.Idx.ofFin c)) (Fin.ext ?_)
  show min (wrappedCol x4 (Idealize.ShloMosaic.StableHlo.Predicate.ixP (rowIdx i))).toInt.toNat (128000 - 1) = _
  rw [ixP_eq_ix2]
  exact start_eq_cls x4 h4 i

/-! ### A row's score at its own class, and its loss -/

/-- Row `i`'s logit at its own class is the specification's score: the row sum over `d` of embedding times gathered
    weight, from the initial value `0`, plus the gathered bias. -/
private theorem labelScore_row (x1 : FVec Ideal S1x2048x2048 .f32) (x2 : FVec Ideal S128000x2048 .f32) (x3 : FVec Ideal S128000 .f32)
    (h4 : Cert.CE.LabelsOk x4) (i : Fin 2047) :
    labelScore (F := Ideal) x1 x2 x3 x4 (ix1 (rowIdx i)) = Cert.CE.score x1 x2 x3 (rowIdx i) (Cert.CE.cls x4 i) := by
  have hR : S2048x2048.Reduces [1] S2048 := by decide
  unfold labelScore Cert.CE.score
  rw [addf_apply, bias_row x4 x3 h4 i, hostReduceAdd_apply,
    Ideal.hostReduceAdd_single reducesTo_S2048x2048_S2048_d1 hR]
  refine congrArg (· + x3 (ix1 (Cert.CE.cls x4 i))) ?_
  show Ideal.ofBits .f32 0x00000000#32 + _ = _
  rw [Ideal.ofBits_zero_f32, zero_add]
  refine Finset.sum_congr rfl fun (d : Fin 2048) _ => ?_
  have hl : hR.lift (ix1 (rowIdx i)) d = ix2 (rowIdx i) d := funext fun ax => Fin.ext (by
    match ax with
    | ⟨0, _⟩ => rfl
    | ⟨1, _⟩ => rfl)
  rw [hl, mulf_apply, emb_apply, wRows_row x4 x2 h4 i d]

/-- A row that has a label loses its log-sum-exp minus its score at the label, or nothing if the label is the
    ignore index. -/
private theorem rowLosses_row (lseCol : FVec Ideal S2048x1 .f32) (x1 : FVec Ideal S1x2048x2048 .f32) (x2 : FVec Ideal S128000x2048 .f32)
    (x3 : FVec Ideal S128000 .f32) (hlse : ∀ i : Fin 2048, lseCol (ix2 i (0 : Fin 1)) = Cert.CE.lse x1 x2 x3 i)
    (h4 : Cert.CE.LabelsOk x4) (i : Fin 2047) :
    rowLosses (F := Ideal) lseCol x1 x2 x3 x4 (ix1 (rowIdx i)) = Cert.CE.rowLoss x1 x2 x3 x4 i := by
  unfold rowLosses Cert.CE.rowLoss
  rw [select_apply, valid_row]
  by_cases hl : Cert.CE.label x4 i = Cert.CE.ignoreIdx
  · have hb : BitVec.ofBool (decide (Cert.CE.label x4 i ≠ Cert.CE.ignoreIdx)) = 0#1 := by simp [hl]
    rw [hb, select_zero, if_pos hl, zeroFill_apply]
  · have hb : BitVec.ofBool (decide (Cert.CE.label x4 i ≠ Cert.CE.ignoreIdx)) = 1#1 := by simp [hl]
    rw [hb, select_one, if_neg hl, subf_apply, col_apply, hlse, labelScore_row x4 x1 x2 x3 h4 i]

/-- The last row never counts. -/
private theorem rowLosses_last (lseCol : FVec Ideal S2048x1 .f32) (x1 : FVec Ideal S1x2048x2048 .f32) (x2 : FVec Ideal S128000x2048 .f32)
    (x3 : FVec Ideal S128000 .f32) :
    rowLosses (F := Ideal) lseCol x1 x2 x3 x4 (ix1 lastRow) = (0 : EReal) := by
  unfold rowLosses
  rw [select_apply, valid_last, select_zero, zeroFill_apply]

/-! ### The total -/

/-- A rank-1 index set of extent 2048 is `Fin 2048`. -/
private def rowEquiv : S2048.Idx ≃ Fin 2048 where
  toFun j := j 0
  invFun p := ix1 p
  left_inv j := (eq_ix1 j).symm
  right_inv _ := rfl

/-- The sum of the row losses over all 2048 rows, from the initial value `0`, is the sum over the 2047 rows that have
    a label. -/
private theorem total_eq (lseCol : FVec Ideal S2048x1 .f32) (x1 : FVec Ideal S1x2048x2048 .f32) (x2 : FVec Ideal S128000x2048 .f32)
    (x3 : FVec Ideal S128000 .f32) (hlse : ∀ i : Fin 2048, lseCol (ix2 i (0 : Fin 1)) = Cert.CE.lse x1 x2 x3 i)
    (h4 : Cert.CE.LabelsOk x4) (j : S_.Idx) :
    Host.reduceAdd (rowLosses (F := Ideal) lseCol x1 x2 x3 x4) (constant (F := Ideal) S_ .f32 0x00000000#32) reducesTo_S2048_S_d0 h_S_ j
      = ∑ i : Fin 2047, Cert.CE.rowLoss x1 x2 x3 x4 i := by
  rw [hostReduceAdd_apply, Ideal.hostReduceAdd_total reducesTo_S2048_S_d0 (fun b => b.elim0)]
  show Ideal.ofBits .f32 0x00000000#32 + _ = _
  rw [Ideal.ofBits_zero_f32, zero_add, ← Equiv.sum_comp rowEquiv.symm]
  show ∑ p : Fin (2047 + 1), rowLosses (F := Ideal) lseCol x1 x2 x3 x4 (ix1 p) = _
  rw [Fin.sum_univ_castSucc]
  show (∑ i : Fin 2047, rowLosses (F := Ideal) lseCol x1 x2 x3 x4 (ix1 (rowIdx i)))
      + rowLosses (F := Ideal) lseCol x1 x2 x3 x4 (ix1 lastRow) = _
  rw [rowLosses_last, add_zero]
  exact Finset.sum_congr rfl fun i _ => rowLosses_row x4 lseCol x1 x2 x3 hlse h4 i

end Rows

theorem result_eq (lseCol : FVec Ideal S2048x1 .f32) (x1 : FVec Ideal S1x2048x2048 .f32) (x2 : FVec Ideal S128000x2048 .f32)
    (x3 : FVec Ideal S128000 .f32) (x4 : IVec S1x2048 32)
    (hlse : ∀ i : Fin 2048, lseCol (ix2 i (0 : Fin 1)) = Cert.CE.lse x1 x2 x3 i)
    (h1 : Cert.CE.Finite x1) (h2 : Cert.CE.Finite x2) (h3 : Cert.CE.Finite x3) (h4 : Cert.CE.LabelsOk x4) :
    result (F := Ideal) lseCol x1 x2 x3 x4 = Cert.CE.G x1 x2 x3 x4 := by
  funext j
  unfold result Cert.CE.G
  rw [hostDivf_apply, denom_eq, total_eq x4 lseCol x1 x2 x3 hlse h4 j]

end Cert.KernelIdeal.Tail

end
-- ==== Proof.PreDecode.lean ====
/-
  The precondition, read: every entry of the three float arrays the loss depends on is a real number
  (`|x| < +∞`), and every label at positions 1 … 2047 is in `[-128000, 128000)`.
-/
import proofs.«430107_j66005057405073_3_alg».proof.Proof.Gen.Pre_finite_inputs
import proofs.«430107_j66005057405073_3_alg».proof.Proof.Spec
import Idealize.ShloMosaic.Lib.ReduceAll
import Idealize.ShloMosaic.Lib.Pipeline.Value
import Idealize.ShloMosaic.Lib.ValueIdx
import Idealize.ShloMosaic.Lib.StableHlo.Predicate

noncomputable section

namespace Cert.CE

open Idealize.ShloMosaic Idealize.ShloMosaic.ValueIdx Cert.Pre_finite_inputs Cert.Pre_finite_inputs.Gen

/-- The scalar shape has one index. -/
private theorem subsingleton_scalar : Subsingleton S_.Idx := ⟨fun a b => funext fun d => d.elim0⟩

/-- The f32 pattern with all exponent bits set and a zero significand denotes `+∞`. -/
private theorem top_bits : Ideal.ofBits .f32 0x7F800000#32 = (⊤ : EReal) := by
  simp [Ideal.ofBits, Ideal.ieee]

/-- `|x| < +∞` (with `|x| = max x (-x)`) says `x` is a real number: at either infinity `|x|` is `+∞`. -/
private theorem finite_of_abs_lt (x : EReal) (hx : Ideal.cmp .olt (max x (-x)) ⊤ = 1#1) : x ≠ ⊥ ∧ x ≠ ⊤ := by
  unfold Ideal.cmp at hx
  rw [StableHlo.Predicate.ofBool_eq_one_iff, decide_eq_true_eq] at hx
  induction x using EReal.rec with
  | bot => simp at hx
  | top => simp at hx
  | coe r => exact ⟨EReal.coe_ne_bot r, EReal.coe_ne_top r⟩

/-- One conjunct `all(|a| < +∞)`: the conjunction over every index of the comparison is 1, so each comparison is 1,
    so each entry is a real number. -/
private theorem finite_of_all {s : Shape} (a : FVec Ideal s .f32) (hb : S_.BroadcastsInDim s ![])
    {axes : List (Fin s.rank)} (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) : Finite a := by
  haveI := subsingleton_scalar
  intro i
  have hi := Host.reduce_andi_all _ _ hr hu ix0 e i
  refine finite_of_abs_lt (a i) ?_
  rw [← top_bits]
  exact hi

theorem of_pre (a0 : FVec Ideal S1 .f32) (a1 : FVec Ideal S1x2048x2048 .f32) (a2 : FVec Ideal S128000x2048 .f32)
    (a3 : FVec Ideal S128000 .f32) (a4 : IVec S1x2048 32) (a5 : IVec S1x2048 32)
    (h : Cert.Pre_finite_inputs.fn (F := Ideal) a0 a1 a2 a3 a4 a5 = fun _ => 1#1) :
    Finite a1 ∧ Finite a2 ∧ Finite a3 ∧ LabelsOk a4 := by
  haveI := subsingleton_scalar
  -- the precondition at its one index is a conjunction of five bits: four "all finite" and one "all labels in range"
  have h0 := congrFun h ValueIdx.ix0
  dsimp only [fn, fn_part1] at h0
  change IntOp.andi (IntOp.andi (IntOp.andi (IntOp.andi _ _) _) _) _ = 1#1 at h0
  simp only [IntOp.andi_eq_one] at h0
  obtain ⟨⟨⟨⟨-, h1⟩, h2⟩, h3⟩, h4⟩ := h0
  refine ⟨finite_of_all a1 _ _ _ h1, finite_of_all a2 _ _ _ h2, finite_of_all a3 _ _ _ h3, ?_⟩
  -- the labels: the range test at column i of the slice [:, 1:] is 1
  intro i
  have e := Host.reduce_andi_all _ _ _ _ ix0 h4 (ix2 (0 : Fin 1) i)
  -- column i of the slice that drops column 0 is position i + 1: row i's label
  have hs : extractStridedSlice S1x2047 ![0, 1] a4 slices_S1x2048_S1x2047_0_1 (ix2 (0 : Fin 1) i) = label a4 i := by
    unfold label
    refine extractStridedSlice_apply ![0, 1] a4 _ _ _ (fun a => ?_)
    match a with
    | ⟨0, _⟩ => rfl
    | ⟨1, _⟩ => exact Nat.add_comm _ _
  -- the two broadcast bounds are the words -128000 and 128000, and the signed comparisons compare integer values
  change IntOp.andi
    (IntOp.cmpi .sge (extractStridedSlice S1x2047 ![0, 1] a4 slices_S1x2048_S1x2047_0_1 (ix2 (0 : Fin 1) i)) 4294839296#32)
    (IntOp.cmpi .slt (extractStridedSlice S1x2047 ![0, 1] a4 slices_S1x2048_S1x2047_0_1 (ix2 (0 : Fin 1) i)) 128000#32) = 1#1 at e
  rw [hs, IntOp.andi_eq_one, IntOp.cmpi_sge, IntOp.cmpi_slt,
    show (4294839296#32 : BitVec 32).toInt = -128000 from by decide,
    show (128000#32 : BitVec 32).toInt = 128000 from by decide] at e
  exact e

end Cert.CE

end
-- ==== Proof.lean ====
/-
  The certificate of the fused cross-entropy kernel against its jnp reference: `Cert.Claim`.

  Over the extended reals the kernel's program and the reference both end with the mean over the rows that count
  of `log ∑ v, exp (score i v) - score i (label i)`, where `score i v = ∑ d, e i d · w v d + b v`:
    the kernel sweeps the 128000 classes in 125 tiles keeping, per row, a running maximum `a` and the running sum
    of `exp (score - a)`; whatever the (finite) maxima are, the sum is `exp (-a) · ∑ exp score` over the classes seen,
    so the column it writes is `log ∑ exp score`; the row's own logit is recomputed after the call from the
    label's weight row and bias entry;
    the reference takes log-softmax of the whole logit matrix, shifting by the row maximum, which cancels the same way.
  The inputs are finite and the labels at positions 1 … 2047 lie in [-128000, 128000), the domain in which the
  reference's own indexing is defined.  The three frames are the generated ones (the reference's from its run).
-/
import proofs.«430107_j66005057405073_3_alg».proof.Defs
import proofs.«430107_j66005057405073_3_alg».proof.Proof.Gen.Kernel.Frame
import proofs.«430107_j66005057405073_3_alg».proof.Proof.Gen.KernelIdeal.Frame
import proofs.«430107_j66005057405073_3_alg».proof.Proof.Gen.ReferenceIdeal
import proofs.«430107_j66005057405073_3_alg».proof.Proof.Gen.Pre_finite_inputs
import proofs.«430107_j66005057405073_3_alg».proof.Proof.RefRunH
import proofs.«430107_j66005057405073_3_alg».proof.Proof.RefValue
import proofs.«430107_j66005057405073_3_alg».proof.Proof.KLse
import proofs.«430107_j66005057405073_3_alg».proof.Proof.KTail
import proofs.«430107_j66005057405073_3_alg».proof.Proof.KTailValue
import proofs.«430107_j66005057405073_3_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RunH.run (F := Ideal) m ρ)

/-- The ideal pass rewrote nothing. -/
theorem preserves : Cert.preserves_Kernel_KernelIdeal := trivial

section Kernel

open Cert.KernelIdeal Cert.KernelIdeal.Gen

/-- The kernel's program, run at the ideal instance: the result buffer at the tail function of the call's column and
    the arguments, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30)
          = Tail.result (F := Ideal) ((dats m 0 c).arrAt 3 cfg0.N) (m ((c : Thread nD τ).loc main_arg1)) (m ((c : Thread nD τ).loc main_arg2))
              (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v30 (Pipeline.mem_restRefs_of main_v30 (by decide) (by decide))).trans (Tail.tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Kernel

/-- Both programs end at the specification's mean cross-entropy of the argument arrays. -/
theorem algebraic : Cert.algebraic_KernelIdeal_ReferenceIdeal := by
  intro m ρ m' ρ' hpre hagree
  have hp := fun c : Dev Cert.KernelIdeal.nD => Cert.CE.of_pre _ _ _ _ _ _ (hpre c)
  refine ⟨fun c => Cert.CE.G (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (kernel_run m ρ)
    obtain ⟨h1, h2, h3, h4⟩ := hp c
    exact Cert.KernelIdeal.Tail.result_eq _ _ _ _ _ (Cert.KernelIdeal.Lse.lseCol m c h1 h2 h3) h1 h2 h3 h4
  · refine (θ_run Cert.ReferenceIdeal.defs _ _).mono (fun _ h c => ⟨(h c).1.trans ?_, (h c).2⟩)
      (Cert.ReferenceIdeal.RunH.run (F := Ideal) m' ρ')
    obtain ⟨h1, h2, h3, h4⟩ := hp c
    rw [(hagree c).2.1, (hagree c).2.2.1, (hagree c).2.2.2.1, (hagree c).2.2.2.2.1]
    exact Cert.ReferenceIdeal.RefValue.ref_eq _ _ _ _ h1 h2 h3 h4

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
